-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32
  ∧ IdealRules.sign_bit.Statement Cert.KernelIdeal.S128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v444) = v0 c
          ∧ r.2.mem ((c.tc : Thread Cert.ReferenceIdeal.nD Cert.ReferenceIdeal.τ).loc Cert.ReferenceIdeal.main_v447) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S2048x32 : Shape := ⟨2, ![2048, 32]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S2048x32 : S_.BroadcastsInDim S2048x32 (![] : Fin 0 → Fin S2048x32.rank)
  reducesTo_S2048x32_S_d0_1 : S2048x32.ReducesTo [0, 1] S_

variable [Facts]

def fn {F : FTy → Type} [FloatOps F] (main_arg0 : FVec F S16x2048x2048 .f32) (main_arg1 : IVec S2048x32 32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_c_0 : IVec S_ 32 := constantI S_ 32 0#32
  let main_v4 : IVec S2048x32 32 := broadcastInDim S2048x32 ![] bcast_S_S2048x32 main_c_0
  let main_v5 : IVec S2048x32 1 := cmpi .sge main_arg1 main_v4
  let main_c_1 : IVec S_ 32 := constantI S_ 32 2048#32
  let main_v6 : IVec S2048x32 32 := broadcastInDim S2048x32 ![] bcast_S_S2048x32 main_c_1
  let main_v7 : IVec S2048x32 1 := cmpi .slt main_arg1 main_v6
  let main_v8 : IVec S2048x32 1 := andi main_v5 main_v7
  let main_c_2 : IVec S_ 1 := constantI S_ 1 1#1
  let main_v9 : IVec S_ 1 := (fun x v => Host.reduce IntOp.andi x v reducesTo_S2048x32_S_d0_1 h_S_) main_v8 main_c_2
  let main_v10 : IVec S_ 1 := andi main_v3 main_v9
  main_v10
-- ==== Kernel.lean ====
abbrev S16x2048x2048 : Shape := ⟨3, ![16, 2048, 2048]⟩
abbrev S2048x32 : Shape := ⟨2, ![2048, 32]⟩
abbrev S16x2048x1 : Shape := ⟨3, ![16, 2048, 1]⟩
abbrev S1x2048x2048 : Shape := ⟨3, ![1, 2048, 2048]⟩
abbrev S128x32 : Shape := ⟨2, ![128, 32]⟩
abbrev S1x128x1 : Shape := ⟨3, ![1, 128, 1]⟩
abbrev S2048x2048 : Shape := ⟨2, ![2048, 2048]⟩
abbrev S1x1x2048 : Shape := ⟨3, ![1, 1, 2048]⟩
abbrev S32x32 : Shape := ⟨2, ![32, 32]⟩
abbrev S32x32x1 : Shape := ⟨3, ![32, 32, 1]⟩
abbrev S32x32x2048 : Shape := ⟨3, ![32, 32, 2048]⟩
abbrev S1024x2048 : Shape := ⟨2, ![1024, 2048]⟩
abbrev S32x32x32 : Shape := ⟨3, ![32, 32, 32]⟩
abbrev S32x32x128 : Shape := ⟨3, ![32, 32, 128]⟩
abbrev S128 : Shape := ⟨1, ![128]⟩
abbrev S1x1x128 : Shape := ⟨3, ![1, 1, 128]⟩
abbrev S1x30x128 : Shape := ⟨3, ![1, 30, 128]⟩
abbrev S30x128 : Shape := ⟨2, ![30, 128]⟩
abbrev S1x128 : Shape := ⟨2, ![1, 128]⟩
abbrev S30x30x128 : Shape := ⟨3, ![30, 30, 128]⟩
abbrev S30x1x128 : Shape := ⟨3, ![30, 1, 128]⟩
abbrev S1x28x128 : Shape := ⟨3, ![1, 28, 128]⟩
abbrev S28x128 : Shape := ⟨2, ![28, 128]⟩
abbrev S28x28x128 : Shape := ⟨3, ![28, 28, 128]⟩
abbrev S28x1x128 : Shape := ⟨3, ![28, 1, 128]⟩
abbrev S1x26x128 : Shape := ⟨3, ![1, 26, 128]⟩
abbrev S26x128 : Shape := ⟨2, ![26, 128]⟩
abbrev S26x26x128 : Shape := ⟨3, ![26, 26, 128]⟩
abbrev S26x1x128 : Shape := ⟨3, ![26, 1, 128]⟩
abbrev S1x24x128 : Shape := ⟨3, ![1, 24, 128]⟩
abbrev S24x128 : Shape := ⟨2, ![24, 128]⟩
abbrev S24x24x128 : Shape := ⟨3, ![24, 24, 128]⟩
abbrev S24x1x128 : Shape := ⟨3, ![24, 1, 128]⟩
abbrev S1x22x128 : Shape := ⟨3, ![1, 22, 128]⟩
abbrev S22x128 : Shape := ⟨2, ![22, 128]⟩
abbrev S22x22x128 : Shape := ⟨3, ![22, 22, 128]⟩
abbrev S22x1x128 : Shape := ⟨3, ![22, 1, 128]⟩
abbrev S1x20x128 : Shape := ⟨3, ![1, 20, 128]⟩
abbrev S20x128 : Shape := ⟨2, ![20, 128]⟩
abbrev S20x20x128 : Shape := ⟨3, ![20, 20, 128]⟩
abbrev S20x1x128 : Shape := ⟨3, ![20, 1, 128]⟩
abbrev S1x18x128 : Shape := ⟨3, ![1, 18, 128]⟩
abbrev S18x128 : Shape := ⟨2, ![18, 128]⟩
abbrev S18x18x128 : Shape := ⟨3, ![18, 18, 128]⟩
abbrev S18x1x128 : Shape := ⟨3, ![18, 1, 128]⟩
abbrev S1x16x128 : Shape := ⟨3, ![1, 16, 128]⟩
abbrev S16x128 : Shape := ⟨2, ![16, 128]⟩
abbrev S16x16x128 : Shape := ⟨3, ![16, 16, 128]⟩
abbrev S16x1x128 : Shape := ⟨3, ![16, 1, 128]⟩
abbrev S1x14x128 : Shape := ⟨3, ![1, 14, 128]⟩
abbrev S14x128 : Shape := ⟨2, ![14, 128]⟩
abbrev S14x14x128 : Shape := ⟨3, ![14, 14, 128]⟩
abbrev S14x1x128 : Shape := ⟨3, ![14, 1, 128]⟩
abbrev S1x12x128 : Shape := ⟨3, ![1, 12, 128]⟩
abbrev S12x128 : Shape := ⟨2, ![12, 128]⟩
abbrev S12x12x128 : Shape := ⟨3, ![12, 12, 128]⟩
abbrev S12x1x128 : Shape := ⟨3, ![12, 1, 128]⟩
abbrev S1x10x128 : Shape := ⟨3, ![1, 10, 128]⟩
abbrev S10x128 : Shape := ⟨2, ![10, 128]⟩
abbrev S10x10x128 : Shape := ⟨3, ![10, 10, 128]⟩
abbrev S10x1x128 : Shape := ⟨3, ![10, 1, 128]⟩
abbrev S1x8x128 : Shape := ⟨3, ![1, 8, 128]⟩
abbrev S8x128 : Shape := ⟨2, ![8, 128]⟩
abbrev S8x8x128 : Shape := ⟨3, ![8, 8, 128]⟩
abbrev S8x1x128 : Shape := ⟨3, ![8, 1, 128]⟩
abbrev S1x6x128 : Shape := ⟨3, ![1, 6, 128]⟩
abbrev S6x128 : Shape := ⟨2, ![6, 128]⟩
abbrev S6x6x128 : Shape := ⟨3, ![6, 6, 128]⟩
abbrev S6x1x128 : Shape := ⟨3, ![6, 1, 128]⟩
abbrev S1x4x128 : Shape := ⟨3, ![1, 4, 128]⟩
abbrev S4x128 : Shape := ⟨2, ![4, 128]⟩
abbrev S4x4x128 : Shape := ⟨3, ![4, 4, 128]⟩
abbrev S4x1x128 : Shape := ⟨3, ![4, 1, 128]⟩
abbrev S1x2x128 : Shape := ⟨3, ![1, 2, 128]⟩
abbrev S2x128 : Shape := ⟨2, ![2, 128]⟩
abbrev S2x2x128 : Shape := ⟨3, ![2, 2, 128]⟩
abbrev S2x1x128 : Shape := ⟨3, ![2, 1, 128]⟩
abbrev S16x2048 : Shape := ⟨2, ![16, 2048]⟩
abbrev S2048x16 : Shape := ⟨2, ![2048, 16]⟩
abbrev S_ : Shape := ⟨0, ![]⟩
abbrev S2048 : Shape := ⟨1, ![2048]⟩
abbrev S2048x1 : Shape := ⟨2, ![2048, 1]⟩

abbrev nBuf : Space → Nat
  | .hbm => 21
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048x32, .i32⟩
  | .hbm, ⟨2, _⟩ => ⟨S16x2048x1, .f32⟩
  | .hbm, ⟨3, _⟩ => ⟨S16x2048x1, .f32⟩
  | .hbm, ⟨4, _⟩ => ⟨S16x2048, .f32⟩
  | .hbm, ⟨5, _⟩ => ⟨S2048x16, .f32⟩
  | .hbm, ⟨6, _⟩ => ⟨S16x2048, .f32⟩
  | .hbm, ⟨7, _⟩ => ⟨S2048x16, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x16, .f32⟩
  | .hbm, ⟨12, _⟩ => ⟨S2048x16, .f32⟩
  | .hbm, ⟨13, _⟩ => ⟨S2048x16, .f32⟩
  | .hbm, ⟨14, _⟩ => ⟨S2048x16, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .local _ .vmem, ⟨0, _⟩ => ⟨S1x2048x2048, .f32⟩
  | .local _ .vmem, ⟨1, _⟩ => ⟨S1x2048x2048, .f32⟩
  | .local _ .vmem, ⟨2, _⟩ => ⟨S128x32, .i32⟩
  | .local _ .vmem, ⟨3, _⟩ => ⟨S128x32, .i32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S128x32_S128x32_0_0 : ∀ a, (![0, 0] : Fin 2 → Nat) a + S128x32.size a ≤ S128x32.size a
  h_S128x32 : 0 < S128x32.numel
  iota_S1x1x2048_d2_w32 : S1x1x2048.Iotas .tc 32 [2]
  slices_S128x32_o0_0_S32x32 : S128x32.Slices ![0, 0] S32x32
  shapeCasts_S32x32_S32x32x1 : S32x32.ShapeCasts S32x32x1
  broadcasts_S32x32x1_S32x32x2048 : S32x32x1.Broadcasts S32x32x2048
  broadcasts_S1x1x2048_S32x32x2048 : S1x1x2048.Broadcasts S32x32x2048
  natLt_1_32 : 1 < 32
  shapeCasts_S32x32x2048_S1024x2048 : S32x32x2048.ShapeCasts S1024x2048
  shapeCasts_S1024x2048_S32x32x2048 : S1024x2048.ShapeCasts S32x32x2048
  transposes_S32x32x32_p0_2_1_S32x32x32 : S32x32x32.Transposes [0, 2, 1] S32x32x32
  transposes_S32x32x32_p1_2_0_S32x32x32 : S32x32x32.Transposes [1, 2, 0] S32x32x32
  slices_S128x32_o32_0_S32x32 : S128x32.Slices ![32, 0] S32x32
  slices_S128x32_o64_0_S32x32 : S128x32.Slices ![64, 0] S32x32
  slices_S128x32_o96_0_S32x32 : S128x32.Slices ![96, 0] S32x32
  concatenates_S32x32x32_S32x32x32_S32x32x32_S32x32x32_S32x32x128_d2 : Shape.Concatenates [S32x32x32, S32x32x32, S32x32x32, S32x32x32] S32x32x128 2
  slices_S32x32x128_o0_1_0_S1x1x128 : S32x32x128.Slices ![0, 1, 0] S1x1x128
  shapeCasts_S1x1x128_S128 : S1x1x128.ShapeCasts S128
  slices_S32x32x128_o0_2_0_S1x30x128 : S32x32x128.Slices ![0, 2, 0] S1x30x128
  shapeCasts_S1x30x128_S30x128 : S1x30x128.ShapeCasts S30x128
  shapeCasts_S128_S1x128 : S128.ShapeCasts S1x128
  broadcasts_S1x128_S30x128 : S1x128.Broadcasts S30x128
  slices_S32x32x128_o1_2_0_S1x30x128 : S32x32x128.Slices ![1, 2, 0] S1x30x128
  slices_S32x32x128_o2_2_0_S30x30x128 : S32x32x128.Slices ![2, 2, 0] S30x30x128
  shapeCasts_S30x128_S30x1x128 : S30x128.ShapeCasts S30x1x128
  shapeCasts_S30x128_S1x30x128 : S30x128.ShapeCasts S1x30x128
  broadcasts_S30x1x128_S30x30x128 : S30x1x128.Broadcasts S30x30x128
  broadcasts_S1x30x128_S30x30x128 : S1x30x128.Broadcasts S30x30x128
  slices_S30x30x128_o0_1_0_S1x1x128 : S30x30x128.Slices ![0, 1, 0] S1x1x128
  slices_S30x30x128_o0_2_0_S1x28x128 : S30x30x128.Slices ![0, 2, 0] S1x28x128
  shapeCasts_S1x28x128_S28x128 : S1x28x128.ShapeCasts S28x128
  broadcasts_S1x128_S28x128 : S1x128.Broadcasts S28x128
  slices_S30x30x128_o1_2_0_S1x28x128 : S30x30x128.Slices ![1, 2, 0] S1x28x128
  slices_S30x30x128_o2_2_0_S28x28x128 : S30x30x128.Slices ![2, 2, 0] S28x28x128
  shapeCasts_S28x128_S28x1x128 : S28x128.ShapeCasts S28x1x128
  shapeCasts_S28x128_S1x28x128 : S28x128.ShapeCasts S1x28x128
  broadcasts_S28x1x128_S28x28x128 : S28x1x128.Broadcasts S28x28x128
  broadcasts_S1x28x128_S28x28x128 : S1x28x128.Broadcasts S28x28x128
  slices_S28x28x128_o0_1_0_S1x1x128 : S28x28x128.Slices ![0, 1, 0] S1x1x128
  slices_S28x28x128_o0_2_0_S1x26x128 : S28x28x128.Slices ![0, 2, 0] S1x26x128
  shapeCasts_S1x26x128_S26x128 : S1x26x128.ShapeCasts S26x128
  broadcasts_S1x128_S26x128 : S1x128.Broadcasts S26x128
  slices_S28x28x128_o1_2_0_S1x26x128 : S28x28x128.Slices ![1, 2, 0] S1x26x128
  slices_S28x28x128_o2_2_0_S26x26x128 : S28x28x128.Slices ![2, 2, 0] S26x26x128
  shapeCasts_S26x128_S26x1x128 : S26x128.ShapeCasts S26x1x128
  shapeCasts_S26x128_S1x26x128 : S26x128.ShapeCasts S1x26x128
  broadcasts_S26x1x128_S26x26x128 : S26x1x128.Broadcasts S26x26x128
  broadcasts_S1x26x128_S26x26x128 : S1x26x128.Broadcasts S26x26x128
  slices_S26x26x128_o0_1_0_S1x1x128 : S26x26x128.Slices ![0, 1, 0] S1x1x128
  slices_S26x26x128_o0_2_0_S1x24x128 : S26x26x128.Slices ![0, 2, 0] S1x24x128
  shapeCasts_S1x24x128_S24x128 : S1x24x128.ShapeCasts S24x128
  broadcasts_S1x128_S24x128 : S1x128.Broadcasts S24x128
  slices_S26x26x128_o1_2_0_S1x24x128 : S26x26x128.Slices ![1, 2, 0] S1x24x128
  slices_S26x26x128_o2_2_0_S24x24x128 : S26x26x128.Slices ![2, 2, 0] S24x24x128
  shapeCasts_S24x128_S24x1x128 : S24x128.ShapeCasts S24x1x128
  shapeCasts_S24x128_S1x24x128 : S24x128.ShapeCasts S1x24x128
  broadcasts_S24x1x128_S24x24x128 : S24x1x128.Broadcasts S24x24x128
  broadcasts_S1x24x128_S24x24x128 : S1x24x128.Broadcasts S24x24x128
  slices_S24x24x128_o0_1_0_S1x1x128 : S24x24x128.Slices ![0, 1, 0] S1x1x128
  slices_S24x24x128_o0_2_0_S1x22x128 : S24x24x128.Slices ![0, 2, 0] S1x22x128
  shapeCasts_S1x22x128_S22x128 : S1x22x128.ShapeCasts S22x128
  broadcasts_S1x128_S22x128 : S1x128.Broadcasts S22x128
  slices_S24x24x128_o1_2_0_S1x22x128 : S24x24x128.Slices ![1, 2, 0] S1x22x128
  slices_S24x24x128_o2_2_0_S22x22x128 : S24x24x128.Slices ![2, 2, 0] S22x22x128
  shapeCasts_S22x128_S22x1x128 : S22x128.ShapeCasts S22x1x128
  shapeCasts_S22x128_S1x22x128 : S22x128.ShapeCasts S1x22x128
  broadcasts_S22x1x128_S22x22x128 : S22x1x128.Broadcasts S22x22x128
  broadcasts_S1x22x128_S22x22x128 : S1x22x128.Broadcasts S22x22x128
  slices_S22x22x128_o0_1_0_S1x1x128 : S22x22x128.Slices ![0, 1, 0] S1x1x128
  slices_S22x22x128_o0_2_0_S1x20x128 : S22x22x128.Slices ![0, 2, 0] S1x20x128
  shapeCasts_S1x20x128_S20x128 : S1x20x128.ShapeCasts S20x128
  broadcasts_S1x128_S20x128 : S1x128.Broadcasts S20x128
  slices_S22x22x128_o1_2_0_S1x20x128 : S22x22x128.Slices ![1, 2, 0] S1x20x128
  slices_S22x22x128_o2_2_0_S20x20x128 : S22x22x128.Slices ![2, 2, 0] S20x20x128
  shapeCasts_S20x128_S20x1x128 : S20x128.ShapeCasts S20x1x128
  shapeCasts_S20x128_S1x20x128 : S20x128.ShapeCasts S1x20x128
  broadcasts_S20x1x128_S20x20x128 : S20x1x128.Broadcasts S20x20x128
  broadcasts_S1x20x128_S20x20x128 : S1x20x128.Broadcasts S20x20x128
  slices_S20x20x128_o0_1_0_S1x1x128 : S20x20x128.Slices ![0, 1, 0] S1x1x128
  slices_S20x20x128_o0_2_0_S1x18x128 : S20x20x128.Slices ![0, 2, 0] S1x18x128
  shapeCasts_S1x18x128_S18x128 : S1x18x128.ShapeCasts S18x128
  broadcasts_S1x128_S18x128 : S1x128.Broadcasts S18x128
  slices_S20x20x128_o1_2_0_S1x18x128 : S20x20x128.Slices ![1, 2, 0] S1x18x128
  slices_S20x20x128_o2_2_0_S18x18x128 : S20x20x128.Slices ![2, 2, 0] S18x18x128
  shapeCasts_S18x128_S18x1x128 : S18x128.ShapeCasts S18x1x128
  shapeCasts_S18x128_S1x18x128 : S18x128.ShapeCasts S1x18x128
  broadcasts_S18x1x128_S18x18x128 : S18x1x128.Broadcasts S18x18x128
  broadcasts_S1x18x128_S18x18x128 : S1x18x128.Broadcasts S18x18x128
  slices_S18x18x128_o0_1_0_S1x1x128 : S18x18x128.Slices ![0, 1, 0] S1x1x128
  slices_S18x18x128_o0_2_0_S1x16x128 : S18x18x128.Slices ![0, 2, 0] S1x16x128
  shapeCasts_S1x16x128_S16x128 : S1x16x128.ShapeCasts S16x128
  broadcasts_S1x128_S16x128 : S1x128.Broadcasts S16x128
  slices_S18x18x128_o1_2_0_S1x16x128 : S18x18x128.Slices ![1, 2, 0] S1x16x128
  slices_S18x18x128_o2_2_0_S16x16x128 : S18x18x128.Slices ![2, 2, 0] S16x16x128
  shapeCasts_S16x128_S16x1x128 : S16x128.ShapeCasts S16x1x128
  shapeCasts_S16x128_S1x16x128 : S16x128.ShapeCasts S1x16x128
  broadcasts_S16x1x128_S16x16x128 : S16x1x128.Broadcasts S16x16x128
  broadcasts_S1x16x128_S16x16x128 : S1x16x128.Broadcasts S16x16x128
  slices_S16x16x128_o0_1_0_S1x1x128 : S16x16x128.Slices ![0, 1, 0] S1x1x128
  slices_S16x16x128_o0_2_0_S1x14x128 : S16x16x128.Slices ![0, 2, 0] S1x14x128
  shapeCasts_S1x14x128_S14x128 : S1x14x128.ShapeCasts S14x128
  broadcasts_S1x128_S14x128 : S1x128.Broadcasts S14x128
  slices_S16x16x128_o1_2_0_S1x14x128 : S16x16x128.Slices ![1, 2, 0] S1x14x128
  slices_S16x16x128_o2_2_0_S14x14x128 : S16x16x128.Slices ![2, 2, 0] S14x14x128
  shapeCasts_S14x128_S14x1x128 : S14x128.ShapeCasts S14x1x128
  shapeCasts_S14x128_S1x14x128 : S14x128.ShapeCasts S1x14x128
  broadcasts_S14x1x128_S14x14x128 : S14x1x128.Broadcasts S14x14x128
  broadcasts_S1x14x128_S14x14x128 : S1x14x128.Broadcasts S14x14x128
  slices_S14x14x128_o0_1_0_S1x1x128 : S14x14x128.Slices ![0, 1, 0] S1x1x128
  slices_S14x14x128_o0_2_0_S1x12x128 : S14x14x128.Slices ![0, 2, 0] S1x12x128
  shapeCasts_S1x12x128_S12x128 : S1x12x128.ShapeCasts S12x128
  broadcasts_S1x128_S12x128 : S1x128.Broadcasts S12x128
  slices_S14x14x128_o1_2_0_S1x12x128 : S14x14x128.Slices ![1, 2, 0] S1x12x128
  slices_S14x14x128_o2_2_0_S12x12x128 : S14x14x128.Slices ![2, 2, 0] S12x12x128
  shapeCasts_S12x128_S12x1x128 : S12x128.ShapeCasts S12x1x128
  shapeCasts_S12x128_S1x12x128 : S12x128.ShapeCasts S1x12x128
  broadcasts_S12x1x128_S12x12x128 : S12x1x128.Broadcasts S12x12x128
  broadcasts_S1x12x128_S12x12x128 : S1x12x128.Broadcasts S12x12x128
  slices_S12x12x128_o0_1_0_S1x1x128 : S12x12x128.Slices ![0, 1, 0] S1x1x128
  slices_S12x12x128_o0_2_0_S1x10x128 : S12x12x128.Slices ![0, 2, 0] S1x10x128
  shapeCasts_S1x10x128_S10x128 : S1x10x128.ShapeCasts S10x128
  broadcasts_S1x128_S10x128 : S1x128.Broadcasts S10x128
  slices_S12x12x128_o1_2_0_S1x10x128 : S12x12x128.Slices ![1, 2, 0] S1x10x128
  slices_S12x12x128_o2_2_0_S10x10x128 : S12x12x128.Slices ![2, 2, 0] S10x10x128
  shapeCasts_S10x128_S10x1x128 : S10x128.ShapeCasts S10x1x128
  shapeCasts_S10x128_S1x10x128 : S10x128.ShapeCasts S1x10x128
  broadcasts_S10x1x128_S10x10x128 : S10x1x128.Broadcasts S10x10x128
  broadcasts_S1x10x128_S10x10x128 : S1x10x128.Broadcasts S10x10x128
  slices_S10x10x128_o0_1_0_S1x1x128 : S10x10x128.Slices ![0, 1, 0] S1x1x128
  slices_S10x10x128_o0_2_0_S1x8x128 : S10x10x128.Slices ![0, 2, 0] S1x8x128
  shapeCasts_S1x8x128_S8x128 : S1x8x128.ShapeCasts S8x128
  broadcasts_S1x128_S8x128 : S1x128.Broadcasts S8x128
  slices_S10x10x128_o1_2_0_S1x8x128 : S10x10x128.Slices ![1, 2, 0] S1x8x128
  slices_S10x10x128_o2_2_0_S8x8x128 : S10x10x128.Slices ![2, 2, 0] S8x8x128
  shapeCasts_S8x128_S8x1x128 : S8x128.ShapeCasts S8x1x128
  shapeCasts_S8x128_S1x8x128 : S8x128.ShapeCasts S1x8x128
  broadcasts_S8x1x128_S8x8x128 : S8x1x128.Broadcasts S8x8x128
  broadcasts_S1x8x128_S8x8x128 : S1x8x128.Broadcasts S8x8x128
  slices_S8x8x128_o0_1_0_S1x1x128 : S8x8x128.Slices ![0, 1, 0] S1x1x128
  slices_S8x8x128_o0_2_0_S1x6x128 : S8x8x128.Slices ![0, 2, 0] S1x6x128
  shapeCasts_S1x6x128_S6x128 : S1x6x128.ShapeCasts S6x128
  broadcasts_S1x128_S6x128 : S1x128.Broadcasts S6x128
  slices_S8x8x128_o1_2_0_S1x6x128 : S8x8x128.Slices ![1, 2, 0] S1x6x128
  slices_S8x8x128_o2_2_0_S6x6x128 : S8x8x128.Slices ![2, 2, 0] S6x6x128
  shapeCasts_S6x128_S6x1x128 : S6x128.ShapeCasts S6x1x128
  shapeCasts_S6x128_S1x6x128 : S6x128.ShapeCasts S1x6x128
  broadcasts_S6x1x128_S6x6x128 : S6x1x128.Broadcasts S6x6x128
  broadcasts_S1x6x128_S6x6x128 : S1x6x128.Broadcasts S6x6x128
  slices_S6x6x128_o0_1_0_S1x1x128 : S6x6x128.Slices ![0, 1, 0] S1x1x128
  slices_S6x6x128_o0_2_0_S1x4x128 : S6x6x128.Slices ![0, 2, 0] S1x4x128
  shapeCasts_S1x4x128_S4x128 : S1x4x128.ShapeCasts S4x128
  broadcasts_S1x128_S4x128 : S1x128.Broadcasts S4x128
  slices_S6x6x128_o1_2_0_S1x4x128 : S6x6x128.Slices ![1, 2, 0] S1x4x128
  slices_S6x6x128_o2_2_0_S4x4x128 : S6x6x128.Slices ![2, 2, 0] S4x4x128
  shapeCasts_S4x128_S4x1x128 : S4x128.ShapeCasts S4x1x128
  shapeCasts_S4x128_S1x4x128 : S4x128.ShapeCasts S1x4x128
  broadcasts_S4x1x128_S4x4x128 : S4x1x128.Broadcasts S4x4x128
  broadcasts_S1x4x128_S4x4x128 : S1x4x128.Broadcasts S4x4x128
  slices_S4x4x128_o0_1_0_S1x1x128 : S4x4x128.Slices ![0, 1, 0] S1x1x128
  slices_S4x4x128_o0_2_0_S1x2x128 : S4x4x128.Slices ![0, 2, 0] S1x2x128
  shapeCasts_S1x2x128_S2x128 : S1x2x128.ShapeCasts S2x128
  broadcasts_S1x128_S2x128 : S1x128.Broadcasts S2x128
  slices_S4x4x128_o1_2_0_S1x2x128 : S4x4x128.Slices ![1, 2, 0] S1x2x128
  slices_S4x4x128_o2_2_0_S2x2x128 : S4x4x128.Slices ![2, 2, 0] S2x2x128
  shapeCasts_S2x128_S2x1x128 : S2x128.ShapeCasts S2x1x128
  shapeCasts_S2x128_S1x2x128 : S2x128.ShapeCasts S1x2x128
  broadcasts_S2x1x128_S2x2x128 : S2x1x128.Broadcasts S2x2x128
  broadcasts_S1x2x128_S2x2x128 : S1x2x128.Broadcasts S2x2x128
  slices_S2x2x128_o0_1_0_S1x1x128 : S2x2x128.Slices ![0, 1, 0] S1x1x128
  inb_S1x128x1_S1x128x1_0_0_0 : ∀ a, (![0, 0, 0] : Fin 3 → Nat) a + S1x128x1.size a ≤ S1x128x1.size a
  h_S1x128x1 : 0 < S1x128x1.numel
  shapeCasts_S1x128x1_S128 : S1x128x1.ShapeCasts S128
  shapeCasts_S128_S1x128x1 : S128.ShapeCasts S1x128x1
  shapeCasts_S16x2048x1_S16x2048 : S16x2048x1.ShapeCasts S16x2048
  transposes_S16x2048_S2048x16_1_0 : S16x2048.Transposes [1, 0] S2048x16
  reducesTo_S2048x16_S2048_d1 : S2048x16.ReducesTo [1] S2048
  h_S_ : 0 < S_.numel
  bcast_S2048_S2048x1_0 : S2048.BroadcastsInDim S2048x1 (![0] : Fin 1 → Fin S2048x1.rank)
  bcast_S2048x1_S2048x16_0_1 : S2048x1.BroadcastsInDim S2048x16 (![0, 1] : Fin 2 → Fin S2048x16.rank)
  dot_S1024x2048_S2048x2048_S1024x2048_1_0_0_1_n_n_wf : DotDims.WF S1024x2048 S2048x2048 S1024x2048 [1] [0] [0] [1] [] []
  dot_S32x32x2048_S32x32x2048_S32x32x32_2_2_1_1_0_0_wf : DotDims.WF S32x32x2048 S32x32x2048 S32x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S16x2048x2048.size a
  hwx0_0 : ∀ i : grid0.Coords, EltTy.bits .f32 = 32 ∨ (Rect.block (s := S16x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S2048x32.size a
  hwx0_1 : ∀ i : grid0.Coords, EltTy.bits .i32 = 32 ∨ (Rect.block (s := S2048x32) S128x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S16x2048x1.size a
  hwx0_2 : ∀ i : grid0.Coords, EltTy.bits .f32 = 32 ∨ (Rect.block (s := S16x2048x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S16x2048x1.size a
  hwx0_3 : ∀ i : grid0.Coords, EltTy.bits .f32 = 32 ∨ (Rect.block (s := S16x2048x1) S1x128x1.size (cc0_transform_3 i) (hinb0_3 i)).WholeWords (EltTy.packing .f32)

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S32x32x2048_S32x32x2048_S32x32x32_2_2_1_1_0_0 : DotDims S32x32x2048 S32x32x2048 S32x32x32 where
  lhsContracting := [2]
  rhsContracting := [2]
  lhsNonContracting := [1]
  rhsNonContracting := [1]
  lhsBatch := [0]
  rhsBatch := [0]
  wf := dot_S32x32x2048_S32x32x2048_S32x32x32_2_2_1_1_0_0_wf

abbrev win0_0 : Pipeline.Window sig grid0 :=
  Pipeline.Window.ofSpec (Memref.whole main_arg0) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S2048x32 : Shape := ⟨2, ![2048, 32]⟩
abbrev S_ : Shape := ⟨0, ![]⟩
abbrev S2048x32x1 : Shape := ⟨3, ![2048, 32, 1]⟩
abbrev S2048x1x32 : Shape := ⟨3, ![2048, 1, 32]⟩
abbrev S2048x32x32 : Shape := ⟨3, ![2048, 32, 32]⟩
abbrev S2048x32x32x1 : Shape := ⟨4, ![2048, 32, 32, 1]⟩
abbrev S2048x32x32x2 : Shape := ⟨4, ![2048, 32, 32, 2]⟩
abbrev S16x2048x32x32 : Shape := ⟨4, ![16, 2048, 32, 32]⟩
abbrev S2048x16x32x32 : Shape := ⟨4, ![2048, 16, 32, 32]⟩
abbrev S2048x16x1x1 : Shape := ⟨4, ![2048, 16, 1, 1]⟩
abbrev S2048x16 : Shape := ⟨2, ![2048, 16]⟩
abbrev S2048x16x1x30 : Shape := ⟨4, ![2048, 16, 1, 30]⟩
abbrev S2048x16x30 : Shape := ⟨3, ![2048, 16, 30]⟩
abbrev S2048x16x1 : Shape := ⟨3, ![2048, 16, 1]⟩
abbrev S2048x16x30x30 : Shape := ⟨4, ![2048, 16, 30, 30]⟩
abbrev S2048x16x30x1 : Shape := ⟨4, ![2048, 16, 30, 1]⟩
abbrev S2048x16x1x28 : Shape := ⟨4, ![2048, 16, 1, 28]⟩
abbrev S2048x16x28 : Shape := ⟨3, ![2048, 16, 28]⟩
abbrev S2048x16x28x28 : Shape := ⟨4, ![2048, 16, 28, 28]⟩
abbrev S2048x16x28x1 : Shape := ⟨4, ![2048, 16, 28, 1]⟩
abbrev S2048x16x1x26 : Shape := ⟨4, ![2048, 16, 1, 26]⟩
abbrev S2048x16x26 : Shape := ⟨3, ![2048, 16, 26]⟩
abbrev S2048x16x26x26 : Shape := ⟨4, ![2048, 16, 26, 26]⟩
abbrev S2048x16x26x1 : Shape := ⟨4, ![2048, 16, 26, 1]⟩
abbrev S2048x16x1x24 : Shape := ⟨4, ![2048, 16, 1, 24]⟩
abbrev S2048x16x24 : Shape := ⟨3, ![2048, 16, 24]⟩
abbrev S2048x16x24x24 : Shape := ⟨4, ![2048, 16, 24, 24]⟩
abbrev S2048x16x24x1 : Shape := ⟨4, ![2048, 16, 24, 1]⟩
abbrev S2048x16x1x22 : Shape := ⟨4, ![2048, 16, 1, 22]⟩
abbrev S2048x16x22 : Shape := ⟨3, ![2048, 16, 22]⟩
abbrev S2048x16x22x22 : Shape := ⟨4, ![2048, 16, 22, 22]⟩
abbrev S2048x16x22x1 : Shape := ⟨4, ![2048, 16, 22, 1]⟩
abbrev S2048x16x1x20 : Shape := ⟨4, ![2048, 16, 1, 20]⟩
abbrev S2048x16x20 : Shape := ⟨3, ![2048, 16, 20]⟩
abbrev S2048x16x20x20 : Shape := ⟨4, ![2048, 16, 20, 20]⟩
abbrev S2048x16x20x1 : Shape := ⟨4, ![2048, 16, 20, 1]⟩
abbrev S2048x16x1x18 : Shape := ⟨4, ![2048, 16, 1, 18]⟩
abbrev S2048x16x18 : Shape := ⟨3, ![2048, 16, 18]⟩
abbrev S2048x16x18x18 : Shape := ⟨4, ![2048, 16, 18, 18]⟩
abbrev S2048x16x18x1 : Shape := ⟨4, ![2048, 16, 18, 1]⟩
abbrev S2048x16x1x16 : Shape := ⟨4, ![2048, 16, 1, 16]⟩
abbrev S2048x16x16 : Shape := ⟨3, ![2048, 16, 16]⟩
abbrev S2048x16x16x16 : Shape := ⟨4, ![2048, 16, 16, 16]⟩
abbrev S2048x16x16x1 : Shape := ⟨4, ![2048, 16, 16, 1]⟩
abbrev S2048x16x1x14 : Shape := ⟨4, ![2048, 16, 1, 14]⟩
abbrev S2048x16x14 : Shape := ⟨3, ![2048, 16, 14]⟩
abbrev S2048x16x14x14 : Shape := ⟨4, ![2048, 16, 14, 14]⟩
abbrev S2048x16x14x1 : Shape := ⟨4, ![2048, 16, 14, 1]⟩
abbrev S2048x16x1x12 : Shape := ⟨4, ![2048, 16, 1, 12]⟩
abbrev S2048x16x12 : Shape := ⟨3, ![2048, 16, 12]⟩
abbrev S2048x16x12x12 : Shape := ⟨4, ![2048, 16, 12, 12]⟩
abbrev S2048x16x12x1 : Shape := ⟨4, ![2048, 16, 12, 1]⟩
abbrev S2048x16x1x10 : Shape := ⟨4, ![2048, 16, 1, 10]⟩
abbrev S2048x16x10 : Shape := ⟨3, ![2048, 16, 10]⟩
abbrev S2048x16x10x10 : Shape := ⟨4, ![2048, 16, 10, 10]⟩
abbrev S2048x16x10x1 : Shape := ⟨4, ![2048, 16, 10, 1]⟩
abbrev S2048x16x1x8 : Shape := ⟨4, ![2048, 16, 1, 8]⟩
abbrev S2048x16x8 : Shape := ⟨3, ![2048, 16, 8]⟩
abbrev S2048x16x8x8 : Shape := ⟨4, ![2048, 16, 8, 8]⟩
abbrev S2048x16x8x1 : Shape := ⟨4, ![2048, 16, 8, 1]⟩
abbrev S2048x16x1x6 : Shape := ⟨4, ![2048, 16, 1, 6]⟩
abbrev S2048x16x6 : Shape := ⟨3, ![2048, 16, 6]⟩
abbrev S2048x16x6x6 : Shape := ⟨4, ![2048, 16, 6, 6]⟩
abbrev S2048x16x6x1 : Shape := ⟨4, ![2048, 16, 6, 1]⟩
abbrev S2048x16x1x4 : Shape := ⟨4, ![2048, 16, 1, 4]⟩
abbrev S2048x16x4 : Shape := ⟨3, ![2048, 16, 4]⟩
abbrev S2048x16x4x4 : Shape := ⟨4, ![2048, 16, 4, 4]⟩
abbrev S2048x16x4x1 : Shape := ⟨4, ![2048, 16, 4, 1]⟩
abbrev S2048x16x1x2 : Shape := ⟨4, ![2048, 16, 1, 2]⟩
abbrev S2048x16x2 : Shape := ⟨3, ![2048, 16, 2]⟩
abbrev S2048x16x2x2 : Shape := ⟨4, ![2048, 16, 2, 2]⟩
abbrev S2048x16x2x1 : Shape := ⟨4, ![2048, 16, 2, 1]⟩
abbrev S2048 : Shape := ⟨1, ![2048]⟩
abbrev S2048x1 : Shape := ⟨2, ![2048, 1]⟩

abbrev nBuf : Space → Nat
  | .hbm => 459
  | .vmem => 0
  | .smem => 0
  | _ => 0

abbrev hbmTy0_0 (i : Nat) : BufTy := match i % 128 with
  | 0 => ⟨S16x2048x2048, .f32⟩
  | 1 => ⟨S2048x32, .i32⟩
  | 2 => ⟨S16x2048x2048, .f32⟩
  | 3 => ⟨S16x2048x2048, .f32⟩
  | 4 => ⟨S_, .f32⟩
  | 5 => ⟨S16x2048x2048, .f32⟩
  | 6 => ⟨S16x2048x2048, .f32⟩
  | 7 => ⟨S2048x32x1, .i32⟩
  | 8 => ⟨S2048x1x32, .i32⟩
  | 9 => ⟨S_, .i32⟩
  | 10 => ⟨S2048x32x1, .i32⟩
  | 11 => ⟨S2048x32x1, .i1⟩
  | 12 => ⟨S_, .i32⟩
  | 13 => ⟨S2048x32x1, .i32⟩
  | 14 => ⟨S2048x32x1, .i32⟩
  | 15 => ⟨S2048x32x1, .i32⟩
  | 16 => ⟨S_, .i32⟩
  | 17 => ⟨S2048x1x32, .i32⟩
  | 18 => ⟨S2048x1x32, .i1⟩
  | 19 => ⟨S_, .i32⟩
  | 20 => ⟨S2048x1x32, .i32⟩
  | 21 => ⟨S2048x1x32, .i32⟩
  | 22 => ⟨S2048x1x32, .i32⟩
  | 23 => ⟨S2048x32x32, .i32⟩
  | 24 => ⟨S2048x32x32, .i32⟩
  | 25 => ⟨S2048x32x32x1, .i32⟩
  | 26 => ⟨S2048x32x32x1, .i32⟩
  | 27 => ⟨S2048x32x32x2, .i32⟩
  | 28 => ⟨S16x2048x32x32, .f32⟩
  | 29 => ⟨S2048x16x32x32, .f32⟩
  | 30 => ⟨S2048x16x1x1, .f32⟩
  | 31 => ⟨S2048x16, .f32⟩
  | 32 => ⟨S2048x16, .f32⟩
  | 33 => ⟨S_, .f32⟩
  | 34 => ⟨S2048x16, .f32⟩
  | 35 => ⟨S2048x16, .f32⟩
  | 36 => ⟨S2048x16, .f32⟩
  | 37 => ⟨S2048x16, .f32⟩
  | 38 => ⟨S_, .f32⟩
  | 39 => ⟨S2048x16, .f32⟩
  | 40 => ⟨S2048x16, .f32⟩
  | 41 => ⟨S2048x16x1x30, .f32⟩
  | 42 => ⟨S2048x16x30, .f32⟩
  | 43 => ⟨S2048x16x1, .f32⟩
  | 44 => ⟨S2048x16x30, .f32⟩
  | 45 => ⟨S2048x16x30, .f32⟩
  | 46 => ⟨S2048x16x1x30, .f32⟩
  | 47 => ⟨S2048x16x30, .f32⟩
  | 48 => ⟨S2048x16x30x30, .f32⟩
  | 49 => ⟨S2048x16x30x1, .f32⟩
  | 50 => ⟨S2048x16x1x30, .f32⟩
  | 51 => ⟨S2048x16x30x30, .f32⟩
  | 52 => ⟨S2048x16x30x30, .f32⟩
  | 53 => ⟨S2048x16x30x30, .f32⟩
  | 54 => ⟨S2048x16x30x30, .f32⟩
  | 55 => ⟨S2048x16x30x1, .f32⟩
  | 56 => ⟨S2048x16x1x30, .f32⟩
  | 57 => ⟨S2048x16x30x30, .f32⟩
  | 58 => ⟨S2048x16x30x30, .f32⟩
  | 59 => ⟨S2048x16x30x30, .f32⟩
  | 60 => ⟨S2048x16x30x30, .f32⟩
  | 61 => ⟨S2048x16x1x1, .f32⟩
  | 62 => ⟨S2048x16, .f32⟩
  | 63 => ⟨S2048x16, .f32⟩
  | 64 => ⟨S2048x16, .f32⟩
  | 65 => ⟨S2048x16, .f32⟩
  | 66 => ⟨S2048x16, .f32⟩
  | 67 => ⟨S2048x16, .f32⟩
  | 68 => ⟨S2048x16x1x28, .f32⟩
  | 69 => ⟨S2048x16x28, .f32⟩
  | 70 => ⟨S2048x16x1, .f32⟩
  | 71 => ⟨S2048x16x28, .f32⟩
  | 72 => ⟨S2048x16x28, .f32⟩
  | 73 => ⟨S2048x16x1x28, .f32⟩
  | 74 => ⟨S2048x16x28, .f32⟩
  | 75 => ⟨S2048x16x28x28, .f32⟩
  | 76 => ⟨S2048x16x28x1, .f32⟩
  | 77 => ⟨S2048x16x1x28, .f32⟩
  | 78 => ⟨S2048x16x28x28, .f32⟩
  | 79 => ⟨S2048x16x28x28, .f32⟩
  | 80 => ⟨S2048x16x28x28, .f32⟩
  | 81 => ⟨S2048x16x28x28, .f32⟩
  | 82 => ⟨S2048x16x28x1, .f32⟩
  | 83 => ⟨S2048x16x1x28, .f32⟩
  | 84 => ⟨S2048x16x28x28, .f32⟩
  | 85 => ⟨S2048x16x28x28, .f32⟩
  | 86 => ⟨S2048x16x28x28, .f32⟩
  | 87 => ⟨S2048x16x28x28, .f32⟩
  | 88 => ⟨S2048x16x1x1, .f32⟩
  | 89 => ⟨S2048x16, .f32⟩
  | 90 => ⟨S2048x16, .f32⟩
  | 91 => ⟨S2048x16, .f32⟩
  | 92 => ⟨S2048x16, .f32⟩
  | 93 => ⟨S2048x16, .f32⟩
  | 94 => ⟨S2048x16, .f32⟩
  | 95 => ⟨S2048x16x1x26, .f32⟩
  | 96 => ⟨S2048x16x26, .f32⟩
  | 97 => ⟨S2048x16x1, .f32⟩
  | 98 => ⟨S2048x16x26, .f32⟩
  | 99 => ⟨S2048x16x26, .f32⟩
  | 100 => ⟨S2048x16x1x26, .f32⟩
  | 101 => ⟨S2048x16x26, .f32⟩
  | 102 => ⟨S2048x16x26x26, .f32⟩
  | 103 => ⟨S2048x16x26x1, .f32⟩
  | 104 => ⟨S2048x16x1x26, .f32⟩
  | 105 => ⟨S2048x16x26x26, .f32⟩
  | 106 => ⟨S2048x16x26x26, .f32⟩
  | 107 => ⟨S2048x16x26x26, .f32⟩
  | 108 => ⟨S2048x16x26x26, .f32⟩
  | 109 => ⟨S2048x16x26x1, .f32⟩
  | 110 => ⟨S2048x16x1x26, .f32⟩
  | 111 => ⟨S2048x16x26x26, .f32⟩
  | 112 => ⟨S2048x16x26x26, .f32⟩
  | 113 => ⟨S2048x16x26x26, .f32⟩
  | 114 => ⟨S2048x16x26x26, .f32⟩
  | 115 => ⟨S2048x16x1x1, .f32⟩
  | 116 => ⟨S2048x16, .f32⟩
  | 117 => ⟨S2048x16, .f32⟩
  | 118 => ⟨S2048x16, .f32⟩
  | 119 => ⟨S2048x16, .f32⟩
  | 120 => ⟨S2048x16, .f32⟩
  | 121 => ⟨S2048x16, .f32⟩
  | 122 => ⟨S2048x16x1x24, .f32⟩
  | 123 => ⟨S2048x16x24, .f32⟩
  | 124 => ⟨S2048x16x1, .f32⟩
  | 125 => ⟨S2048x16x24, .f32⟩
  | 126 => ⟨S2048x16x24, .f32⟩
  | 127 => ⟨S2048x16x1x24, .f32⟩
  | _ => ⟨S16x2048x2048, .f32⟩

abbrev hbmTy0_1 (i : Nat) : BufTy := match i % 128 with
  | 0 => ⟨S2048x16x24, .f32⟩
  | 1 => ⟨S2048x16x24x24, .f32⟩
  | 2 => ⟨S2048x16x24x1, .f32⟩
  | 3 => ⟨S2048x16x1x24, .f32⟩
  | 4 => ⟨S2048x16x24x24, .f32⟩
  | 5 => ⟨S2048x16x24x24, .f32⟩
  | 6 => ⟨S2048x16x24x24, .f32⟩
  | 7 => ⟨S2048x16x24x24, .f32⟩
  | 8 => ⟨S2048x16x24x1, .f32⟩
  | 9 => ⟨S2048x16x1x24, .f32⟩
  | 10 => ⟨S2048x16x24x24, .f32⟩
  | 11 => ⟨S2048x16x24x24, .f32⟩
  | 12 => ⟨S2048x16x24x24, .f32⟩
  | 13 => ⟨S2048x16x24x24, .f32⟩
  | 14 => ⟨S2048x16x1x1, .f32⟩
  | 15 => ⟨S2048x16, .f32⟩
  | 16 => ⟨S2048x16, .f32⟩
  | 17 => ⟨S2048x16, .f32⟩
  | 18 => ⟨S2048x16, .f32⟩
  | 19 => ⟨S2048x16, .f32⟩
  | 20 => ⟨S2048x16, .f32⟩
  | 21 => ⟨S2048x16x1x22, .f32⟩
  | 22 => ⟨S2048x16x22, .f32⟩
  | 23 => ⟨S2048x16x1, .f32⟩
  | 24 => ⟨S2048x16x22, .f32⟩
  | 25 => ⟨S2048x16x22, .f32⟩
  | 26 => ⟨S2048x16x1x22, .f32⟩
  | 27 => ⟨S2048x16x22, .f32⟩
  | 28 => ⟨S2048x16x22x22, .f32⟩
  | 29 => ⟨S2048x16x22x1, .f32⟩
  | 30 => ⟨S2048x16x1x22, .f32⟩
  | 31 => ⟨S2048x16x22x22, .f32⟩
  | 32 => ⟨S2048x16x22x22, .f32⟩
  | 33 => ⟨S2048x16x22x22, .f32⟩
  | 34 => ⟨S2048x16x22x22, .f32⟩
  | 35 => ⟨S2048x16x22x1, .f32⟩
  | 36 => ⟨S2048x16x1x22, .f32⟩
  | 37 => ⟨S2048x16x22x22, .f32⟩
  | 38 => ⟨S2048x16x22x22, .f32⟩
  | 39 => ⟨S2048x16x22x22, .f32⟩
  | 40 => ⟨S2048x16x22x22, .f32⟩
  | 41 => ⟨S2048x16x1x1, .f32⟩
  | 42 => ⟨S2048x16, .f32⟩
  | 43 => ⟨S2048x16, .f32⟩
  | 44 => ⟨S2048x16, .f32⟩
  | 45 => ⟨S2048x16, .f32⟩
  | 46 => ⟨S2048x16, .f32⟩
  | 47 => ⟨S2048x16, .f32⟩
  | 48 => ⟨S2048x16x1x20, .f32⟩
  | 49 => ⟨S2048x16x20, .f32⟩
  | 50 => ⟨S2048x16x1, .f32⟩
  | 51 => ⟨S2048x16x20, .f32⟩
  | 52 => ⟨S2048x16x20, .f32⟩
  | 53 => ⟨S2048x16x1x20, .f32⟩
  | 54 => ⟨S2048x16x20, .f32⟩
  | 55 => ⟨S2048x16x20x20, .f32⟩
  | 56 => ⟨S2048x16x20x1, .f32⟩
  | 57 => ⟨S2048x16x1x20, .f32⟩
  | 58 => ⟨S2048x16x20x20, .f32⟩
  | 59 => ⟨S2048x16x20x20, .f32⟩
  | 60 => ⟨S2048x16x20x20, .f32⟩
  | 61 => ⟨S2048x16x20x20, .f32⟩
  | 62 => ⟨S2048x16x20x1, .f32⟩
  | 63 => ⟨S2048x16x1x20, .f32⟩
  | 64 => ⟨S2048x16x20x20, .f32⟩
  | 65 => ⟨S2048x16x20x20, .f32⟩
  | 66 => ⟨S2048x16x20x20, .f32⟩
  | 67 => ⟨S2048x16x20x20, .f32⟩
  | 68 => ⟨S2048x16x1x1, .f32⟩
  | 69 => ⟨S2048x16, .f32⟩
  | 70 => ⟨S2048x16, .f32⟩
  | 71 => ⟨S2048x16, .f32⟩
  | 72 => ⟨S2048x16, .f32⟩
  | 73 => ⟨S2048x16, .f32⟩
  | 74 => ⟨S2048x16, .f32⟩
  | 75 => ⟨S2048x16x1x18, .f32⟩
  | 76 => ⟨S2048x16x18, .f32⟩
  | 77 => ⟨S2048x16x1, .f32⟩
  | 78 => ⟨S2048x16x18, .f32⟩
  | 79 => ⟨S2048x16x18, .f32⟩
  | 80 => ⟨S2048x16x1x18, .f32⟩
  | 81 => ⟨S2048x16x18, .f32⟩
  | 82 => ⟨S2048x16x18x18, .f32⟩
  | 83 => ⟨S2048x16x18x1, .f32⟩
  | 84 => ⟨S2048x16x1x18, .f32⟩
  | 85 => ⟨S2048x16x18x18, .f32⟩
  | 86 => ⟨S2048x16x18x18, .f32⟩
  | 87 => ⟨S2048x16x18x18, .f32⟩
  | 88 => ⟨S2048x16x18x18, .f32⟩
  | 89 => ⟨S2048x16x18x1, .f32⟩
  | 90 => ⟨S2048x16x1x18, .f32⟩
  | 91 => ⟨S2048x16x18x18, .f32⟩
  | 92 => ⟨S2048x16x18x18, .f32⟩
  | 93 => ⟨S2048x16x18x18, .f32⟩
  | 94 => ⟨S2048x16x18x18, .f32⟩
  | 95 => ⟨S2048x16x1x1, .f32⟩
  | 96 => ⟨S2048x16, .f32⟩
  | 97 => ⟨S2048x16, .f32⟩
  | 98 => ⟨S2048x16, .f32⟩
  | 99 => ⟨S2048x16, .f32⟩
  | 100 => ⟨S2048x16, .f32⟩
  | 101 => ⟨S2048x16, .f32⟩
  | 102 => ⟨S2048x16x1x16, .f32⟩
  | 103 => ⟨S2048x16x16, .f32⟩
  | 104 => ⟨S2048x16x1, .f32⟩
  | 105 => ⟨S2048x16x16, .f32⟩
  | 106 => ⟨S2048x16x16, .f32⟩
  | 107 => ⟨S2048x16x1x16, .f32⟩
  | 108 => ⟨S2048x16x16, .f32⟩
  | 109 => ⟨S2048x16x16x16, .f32⟩
  | 110 => ⟨S2048x16x16x1, .f32⟩
  | 111 => ⟨S2048x16x1x16, .f32⟩
  | 112 => ⟨S2048x16x16x16, .f32⟩
  | 113 => ⟨S2048x16x16x16, .f32⟩
  | 114 => ⟨S2048x16x16x16, .f32⟩
  | 115 => ⟨S2048x16x16x16, .f32⟩
  | 116 => ⟨S2048x16x16x1, .f32⟩
  | 117 => ⟨S2048x16x1x16, .f32⟩
  | 118 => ⟨S2048x16x16x16, .f32⟩
  | 119 => ⟨S2048x16x16x16, .f32⟩
  | 120 => ⟨S2048x16x16x16, .f32⟩
  | 121 => ⟨S2048x16x16x16, .f32⟩
  | 122 => ⟨S2048x16x1x1, .f32⟩
  | 123 => ⟨S2048x16, .f32⟩
  | 124 => ⟨S2048x16, .f32⟩
  | 125 => ⟨S2048x16, .f32⟩
  | 126 => ⟨S2048x16, .f32⟩
  | 127 => ⟨S2048x16, .f32⟩
  | _ => ⟨S16x2048x2048, .f32⟩

abbrev hbmTy0_2 (i : Nat) : BufTy := match i % 128 with
  | 0 => ⟨S2048x16, .f32⟩
  | 1 => ⟨S2048x16x1x14, .f32⟩
  | 2 => ⟨S2048x16x14, .f32⟩
  | 3 => ⟨S2048x16x1, .f32⟩
  | 4 => ⟨S2048x16x14, .f32⟩
  | 5 => ⟨S2048x16x14, .f32⟩
  | 6 => ⟨S2048x16x1x14, .f32⟩
  | 7 => ⟨S2048x16x14, .f32⟩
  | 8 => ⟨S2048x16x14x14, .f32⟩
  | 9 => ⟨S2048x16x14x1, .f32⟩
  | 10 => ⟨S2048x16x1x14, .f32⟩
  | 11 => ⟨S2048x16x14x14, .f32⟩
  | 12 => ⟨S2048x16x14x14, .f32⟩
  | 13 => ⟨S2048x16x14x14, .f32⟩
  | 14 => ⟨S2048x16x14x14, .f32⟩
  | 15 => ⟨S2048x16x14x1, .f32⟩
  | 16 => ⟨S2048x16x1x14, .f32⟩
  | 17 => ⟨S2048x16x14x14, .f32⟩
  | 18 => ⟨S2048x16x14x14, .f32⟩
  | 19 => ⟨S2048x16x14x14, .f32⟩
  | 20 => ⟨S2048x16x14x14, .f32⟩
  | 21 => ⟨S2048x16x1x1, .f32⟩
  | 22 => ⟨S2048x16, .f32⟩
  | 23 => ⟨S2048x16, .f32⟩
  | 24 => ⟨S2048x16, .f32⟩
  | 25 => ⟨S2048x16, .f32⟩
  | 26 => ⟨S2048x16, .f32⟩
  | 27 => ⟨S2048x16, .f32⟩
  | 28 => ⟨S2048x16x1x12, .f32⟩
  | 29 => ⟨S2048x16x12, .f32⟩
  | 30 => ⟨S2048x16x1, .f32⟩
  | 31 => ⟨S2048x16x12, .f32⟩
  | 32 => ⟨S2048x16x12, .f32⟩
  | 33 => ⟨S2048x16x1x12, .f32⟩
  | 34 => ⟨S2048x16x12, .f32⟩
  | 35 => ⟨S2048x16x12x12, .f32⟩
  | 36 => ⟨S2048x16x12x1, .f32⟩
  | 37 => ⟨S2048x16x1x12, .f32⟩
  | 38 => ⟨S2048x16x12x12, .f32⟩
  | 39 => ⟨S2048x16x12x12, .f32⟩
  | 40 => ⟨S2048x16x12x12, .f32⟩
  | 41 => ⟨S2048x16x12x12, .f32⟩
  | 42 => ⟨S2048x16x12x1, .f32⟩
  | 43 => ⟨S2048x16x1x12, .f32⟩
  | 44 => ⟨S2048x16x12x12, .f32⟩
  | 45 => ⟨S2048x16x12x12, .f32⟩
  | 46 => ⟨S2048x16x12x12, .f32⟩
  | 47 => ⟨S2048x16x12x12, .f32⟩
  | 48 => ⟨S2048x16x1x1, .f32⟩
  | 49 => ⟨S2048x16, .f32⟩
  | 50 => ⟨S2048x16, .f32⟩
  | 51 => ⟨S2048x16, .f32⟩
  | 52 => ⟨S2048x16, .f32⟩
  | 53 => ⟨S2048x16, .f32⟩
  | 54 => ⟨S2048x16, .f32⟩
  | 55 => ⟨S2048x16x1x10, .f32⟩
  | 56 => ⟨S2048x16x10, .f32⟩
  | 57 => ⟨S2048x16x1, .f32⟩
  | 58 => ⟨S2048x16x10, .f32⟩
  | 59 => ⟨S2048x16x10, .f32⟩
  | 60 => ⟨S2048x16x1x10, .f32⟩
  | 61 => ⟨S2048x16x10, .f32⟩
  | 62 => ⟨S2048x16x10x10, .f32⟩
  | 63 => ⟨S2048x16x10x1, .f32⟩
  | 64 => ⟨S2048x16x1x10, .f32⟩
  | 65 => ⟨S2048x16x10x10, .f32⟩
  | 66 => ⟨S2048x16x10x10, .f32⟩
  | 67 => ⟨S2048x16x10x10, .f32⟩
  | 68 => ⟨S2048x16x10x10, .f32⟩
  | 69 => ⟨S2048x16x10x1, .f32⟩
  | 70 => ⟨S2048x16x1x10, .f32⟩
  | 71 => ⟨S2048x16x10x10, .f32⟩
  | 72 => ⟨S2048x16x10x10, .f32⟩
  | 73 => ⟨S2048x16x10x10, .f32⟩
  | 74 => ⟨S2048x16x10x10, .f32⟩
  | 75 => ⟨S2048x16x1x1, .f32⟩
  | 76 => ⟨S2048x16, .f32⟩
  | 77 => ⟨S2048x16, .f32⟩
  | 78 => ⟨S2048x16, .f32⟩
  | 79 => ⟨S2048x16, .f32⟩
  | 80 => ⟨S2048x16, .f32⟩
  | 81 => ⟨S2048x16, .f32⟩
  | 82 => ⟨S2048x16x1x8, .f32⟩
  | 83 => ⟨S2048x16x8, .f32⟩
  | 84 => ⟨S2048x16x1, .f32⟩
  | 85 => ⟨S2048x16x8, .f32⟩
  | 86 => ⟨S2048x16x8, .f32⟩
  | 87 => ⟨S2048x16x1x8, .f32⟩
  | 88 => ⟨S2048x16x8, .f32⟩
  | 89 => ⟨S2048x16x8x8, .f32⟩
  | 90 => ⟨S2048x16x8x1, .f32⟩
  | 91 => ⟨S2048x16x1x8, .f32⟩
  | 92 => ⟨S2048x16x8x8, .f32⟩
  | 93 => ⟨S2048x16x8x8, .f32⟩
  | 94 => ⟨S2048x16x8x8, .f32⟩
  | 95 => ⟨S2048x16x8x8, .f32⟩
  | 96 => ⟨S2048x16x8x1, .f32⟩
  | 97 => ⟨S2048x16x1x8, .f32⟩
  | 98 => ⟨S2048x16x8x8, .f32⟩
  | 99 => ⟨S2048x16x8x8, .f32⟩
  | 100 => ⟨S2048x16x8x8, .f32⟩
  | 101 => ⟨S2048x16x8x8, .f32⟩
  | 102 => ⟨S2048x16x1x1, .f32⟩
  | 103 => ⟨S2048x16, .f32⟩
  | 104 => ⟨S2048x16, .f32⟩
  | 105 => ⟨S2048x16, .f32⟩
  | 106 => ⟨S2048x16, .f32⟩
  | 107 => ⟨S2048x16, .f32⟩
  | 108 => ⟨S2048x16, .f32⟩
  | 109 => ⟨S2048x16x1x6, .f32⟩
  | 110 => ⟨S2048x16x6, .f32⟩
  | 111 => ⟨S2048x16x1, .f32⟩
  | 112 => ⟨S2048x16x6, .f32⟩
  | 113 => ⟨S2048x16x6, .f32⟩
  | 114 => ⟨S2048x16x1x6, .f32⟩
  | 115 => ⟨S2048x16x6, .f32⟩
  | 116 => ⟨S2048x16x6x6, .f32⟩
  | 117 => ⟨S2048x16x6x1, .f32⟩
  | 118 => ⟨S2048x16x1x6, .f32⟩
  | 119 => ⟨S2048x16x6x6, .f32⟩
  | 120 => ⟨S2048x16x6x6, .f32⟩
  | 121 => ⟨S2048x16x6x6, .f32⟩
  | 122 => ⟨S2048x16x6x6, .f32⟩
  | 123 => ⟨S2048x16x6x1, .f32⟩
  | 124 => ⟨S2048x16x1x6, .f32⟩
  | 125 => ⟨S2048x16x6x6, .f32⟩
  | 126 => ⟨S2048x16x6x6, .f32⟩
  | 127 => ⟨S2048x16x6x6, .f32⟩
  | _ => ⟨S16x2048x2048, .f32⟩

abbrev hbmTy0_3 (i : Nat) : BufTy := match i % 128 with
  | 0 => ⟨S2048x16x6x6, .f32⟩
  | 1 => ⟨S2048x16x1x1, .f32⟩
  | 2 => ⟨S2048x16, .f32⟩
  | 3 => ⟨S2048x16, .f32⟩
  | 4 => ⟨S2048x16, .f32⟩
  | 5 => ⟨S2048x16, .f32⟩
  | 6 => ⟨S2048x16, .f32⟩
  | 7 => ⟨S2048x16, .f32⟩
  | 8 => ⟨S2048x16x1x4, .f32⟩
  | 9 => ⟨S2048x16x4, .f32⟩
  | 10 => ⟨S2048x16x1, .f32⟩
  | 11 => ⟨S2048x16x4, .f32⟩
  | 12 => ⟨S2048x16x4, .f32⟩
  | 13 => ⟨S2048x16x1x4, .f32⟩
  | 14 => ⟨S2048x16x4, .f32⟩
  | 15 => ⟨S2048x16x4x4, .f32⟩
  | 16 => ⟨S2048x16x4x1, .f32⟩
  | 17 => ⟨S2048x16x1x4, .f32⟩
  | 18 => ⟨S2048x16x4x4, .f32⟩
  | 19 => ⟨S2048x16x4x4, .f32⟩
  | 20 => ⟨S2048x16x4x4, .f32⟩
  | 21 => ⟨S2048x16x4x4, .f32⟩
  | 22 => ⟨S2048x16x4x1, .f32⟩
  | 23 => ⟨S2048x16x1x4, .f32⟩
  | 24 => ⟨S2048x16x4x4, .f32⟩
  | 25 => ⟨S2048x16x4x4, .f32⟩
  | 26 => ⟨S2048x16x4x4, .f32⟩
  | 27 => ⟨S2048x16x4x4, .f32⟩
  | 28 => ⟨S2048x16x1x1, .f32⟩
  | 29 => ⟨S2048x16, .f32⟩
  | 30 => ⟨S2048x16, .f32⟩
  | 31 => ⟨S2048x16, .f32⟩
  | 32 => ⟨S2048x16, .f32⟩
  | 33 => ⟨S2048x16, .f32⟩
  | 34 => ⟨S2048x16, .f32⟩
  | 35 => ⟨S2048x16x1x2, .f32⟩
  | 36 => ⟨S2048x16x2, .f32⟩
  | 37 => ⟨S2048x16x1, .f32⟩
  | 38 => ⟨S2048x16x2, .f32⟩
  | 39 => ⟨S2048x16x2, .f32⟩
  | 40 => ⟨S2048x16x1x2, .f32⟩
  | 41 => ⟨S2048x16x2, .f32⟩
  | 42 => ⟨S2048x16x2x2, .f32⟩
  | 43 => ⟨S2048x16x2x1, .f32⟩
  | 44 => ⟨S2048x16x1x2, .f32⟩
  | 45 => ⟨S2048x16x2x2, .f32⟩
  | 46 => ⟨S2048x16x2x2, .f32⟩
  | 47 => ⟨S2048x16x2x2, .f32⟩
  | 48 => ⟨S2048x16x2x2, .f32⟩
  | 49 => ⟨S2048x16x2x1, .f32⟩
  | 50 => ⟨S2048x16x1x2, .f32⟩
  | 51 => ⟨S2048x16x2x2, .f32⟩
  | 52 => ⟨S2048x16x2x2, .f32⟩
  | 53 => ⟨S2048x16x2x2, .f32⟩
  | 54 => ⟨S2048x16x2x2, .f32⟩
  | 55 => ⟨S2048x16x1x1, .f32⟩
  | 56 => ⟨S2048x16, .f32⟩
  | 57 => ⟨S2048x16, .f32⟩
  | 58 => ⟨S2048x16, .f32⟩
  | 59 => ⟨S2048x16, .f32⟩
  | 60 => ⟨S2048x16, .f32⟩
  | 61 => ⟨S2048x16, .f32⟩
  | 62 => ⟨S_, .f32⟩
  | 63 => ⟨S2048, .f32⟩
  | 64 => ⟨S2048x1, .f32⟩
  | 65 => ⟨S2048x16, .f32⟩
  | 66 => ⟨S2048x16, .f32⟩
  | 67 => ⟨S2048x16, .f32⟩
  | 68 => ⟨S2048x16, .f32⟩
  | 69 => ⟨S_, .f32⟩
  | 70 => ⟨S2048, .f32⟩
  | 71 => ⟨S2048, .f32⟩
  | 72 => ⟨S2048, .f32⟩
  | 73 => ⟨S2048, .f32⟩
  | 74 => ⟨S2048, .f32⟩
  | _ => ⟨S16x2048x2048, .f32⟩

abbrev hbmTy (i : Nat) : BufTy := match i / 128 with
  | 0 => hbmTy0_0 i
  | 1 => hbmTy0_1 i
  | 2 => hbmTy0_2 i
  | 3 => hbmTy0_3 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250 : Ref sig .tc := ⟨.hbm, 259, rfl⟩
abbrev main_v251 : Ref sig .tc := ⟨.hbm, 260, rfl⟩
abbrev main_v252 : Ref sig .tc := ⟨.hbm, 261, rfl⟩
abbrev main_v253 : Ref sig .tc := ⟨.hbm, 262, rfl⟩
abbrev main_v254 : Ref sig .tc := ⟨.hbm, 263, rfl⟩
abbrev main_v255 : Ref sig .tc := ⟨.hbm, 264, rfl⟩
abbrev main_v256 : Ref sig .tc := ⟨.hbm, 265, rfl⟩
abbrev main_v257 : Ref sig .tc := ⟨.hbm, 266, rfl⟩
abbrev main_v258 : Ref sig .tc := ⟨.hbm, 267, rfl⟩
abbrev main_v259 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩
abbrev main_v264 : Ref sig .tc := ⟨.hbm, 273, rfl⟩
abbrev main_v265 : Ref sig .tc := ⟨.hbm, 274, rfl⟩
abbrev main_v266 : Ref sig .tc := ⟨.hbm, 275, rfl⟩
abbrev main_v267 : Ref sig .tc := ⟨.hbm, 276, rfl⟩
abbrev main_v268 : Ref sig .tc := ⟨.hbm, 277, rfl⟩
abbrev main_v269 : Ref sig .tc := ⟨.hbm, 278, rfl⟩
abbrev main_v270 : Ref sig .tc := ⟨.hbm, 279, rfl⟩
abbrev main_v271 : Ref sig .tc := ⟨.hbm, 280, rfl⟩
abbrev main_v272 : Ref sig .tc := ⟨.hbm, 281, rfl⟩
abbrev main_v273 : Ref sig .tc := ⟨.hbm, 282, rfl⟩
abbrev main_v274 : Ref sig .tc := ⟨.hbm, 283, rfl⟩
abbrev main_v275 : Ref sig .tc := ⟨.hbm, 284, rfl⟩
abbrev main_v276 : Ref sig .tc := ⟨.hbm, 285, rfl⟩
abbrev main_v277 : Ref sig .tc := ⟨.hbm, 286, rfl⟩
abbrev main_v278 : Ref sig .tc := ⟨.hbm, 287, rfl⟩
abbrev main_v279 : Ref sig .tc := ⟨.hbm, 288, rfl⟩
abbrev main_v280 : Ref sig .tc := ⟨.hbm, 289, rfl⟩
abbrev main_v281 : Ref sig .tc := ⟨.hbm, 290, rfl⟩
abbrev main_v282 : Ref sig .tc := ⟨.hbm, 291, rfl⟩
abbrev main_v283 : Ref sig .tc := ⟨.hbm, 292, rfl⟩
abbrev main_v284 : Ref sig .tc := ⟨.hbm, 293, rfl⟩
abbrev main_v285 : Ref sig .tc := ⟨.hbm, 294, rfl⟩
abbrev main_v286 : Ref sig .tc := ⟨.hbm, 295, rfl⟩
abbrev main_v287 : Ref sig .tc := ⟨.hbm, 296, rfl⟩
abbrev main_v288 : Ref sig .tc := ⟨.hbm, 297, rfl⟩
abbrev main_v289 : Ref sig .tc := ⟨.hbm, 298, rfl⟩
abbrev main_v290 : Ref sig .tc := ⟨.hbm, 299, rfl⟩
abbrev main_v291 : Ref sig .tc := ⟨.hbm, 300, rfl⟩
abbrev main_v292 : Ref sig .tc := ⟨.hbm, 301, rfl⟩
abbrev main_v293 : Ref sig .tc := ⟨.hbm, 302, rfl⟩
abbrev main_v294 : Ref sig .tc := ⟨.hbm, 303, rfl⟩
abbrev main_v295 : Ref sig .tc := ⟨.hbm, 304, rfl⟩
abbrev main_v296 : Ref sig .tc := ⟨.hbm, 305, rfl⟩
abbrev main_v297 : Ref sig .tc := ⟨.hbm, 306, rfl⟩
abbrev main_v298 : Ref sig .tc := ⟨.hbm, 307, rfl⟩
abbrev main_v299 : Ref sig .tc := ⟨.hbm, 308, rfl⟩
abbrev main_v300 : Ref sig .tc := ⟨.hbm, 309, rfl⟩
abbrev main_v301 : Ref sig .tc := ⟨.hbm, 310, rfl⟩
abbrev main_v302 : Ref sig .tc := ⟨.hbm, 311, rfl⟩
abbrev main_v303 : Ref sig .tc := ⟨.hbm, 312, rfl⟩
abbrev main_v304 : Ref sig .tc := ⟨.hbm, 313, rfl⟩
abbrev main_v305 : Ref sig .tc := ⟨.hbm, 314, rfl⟩
abbrev main_v306 : Ref sig .tc := ⟨.hbm, 315, rfl⟩
abbrev main_v307 : Ref sig .tc := ⟨.hbm, 316, rfl⟩
abbrev main_v308 : Ref sig .tc := ⟨.hbm, 317, rfl⟩
abbrev main_v309 : Ref sig .tc := ⟨.hbm, 318, rfl⟩
abbrev main_v310 : Ref sig .tc := ⟨.hbm, 319, rfl⟩
abbrev main_v311 : Ref sig .tc := ⟨.hbm, 320, rfl⟩
abbrev main_v312 : Ref sig .tc := ⟨.hbm, 321, rfl⟩
abbrev main_v313 : Ref sig .tc := ⟨.hbm, 322, rfl⟩
abbrev main_v314 : Ref sig .tc := ⟨.hbm, 323, rfl⟩
abbrev main_v315 : Ref sig .tc := ⟨.hbm, 324, rfl⟩
abbrev main_v316 : Ref sig .tc := ⟨.hbm, 325, rfl⟩
abbrev main_v317 : Ref sig .tc := ⟨.hbm, 326, rfl⟩
abbrev main_v318 : Ref sig .tc := ⟨.hbm, 327, rfl⟩
abbrev main_v319 : Ref sig .tc := ⟨.hbm, 328, rfl⟩
abbrev main_v320 : Ref sig .tc := ⟨.hbm, 329, rfl⟩
abbrev main_v321 : Ref sig .tc := ⟨.hbm, 330, rfl⟩
abbrev main_v322 : Ref sig .tc := ⟨.hbm, 331, rfl⟩
abbrev main_v323 : Ref sig .tc := ⟨.hbm, 332, rfl⟩
abbrev main_v324 : Ref sig .tc := ⟨.hbm, 333, rfl⟩
abbrev main_v325 : Ref sig .tc := ⟨.hbm, 334, rfl⟩
abbrev main_v326 : Ref sig .tc := ⟨.hbm, 335, rfl⟩
abbrev main_v327 : Ref sig .tc := ⟨.hbm, 336, rfl⟩
abbrev main_v328 : Ref sig .tc := ⟨.hbm, 337, rfl⟩
abbrev main_v329 : Ref sig .tc := ⟨.hbm, 338, rfl⟩
abbrev main_v330 : Ref sig .tc := ⟨.hbm, 339, rfl⟩
abbrev main_v331 : Ref sig .tc := ⟨.hbm, 340, rfl⟩
abbrev main_v332 : Ref sig .tc := ⟨.hbm, 341, rfl⟩
abbrev main_v333 : Ref sig .tc := ⟨.hbm, 342, rfl⟩
abbrev main_v334 : Ref sig .tc := ⟨.hbm, 343, rfl⟩
abbrev main_v335 : Ref sig .tc := ⟨.hbm, 344, rfl⟩
abbrev main_v336 : Ref sig .tc := ⟨.hbm, 345, rfl⟩
abbrev main_v337 : Ref sig .tc := ⟨.hbm, 346, rfl⟩
abbrev main_v338 : Ref sig .tc := ⟨.hbm, 347, rfl⟩
abbrev main_v339 : Ref sig .tc := ⟨.hbm, 348, rfl⟩
abbrev main_v340 : Ref sig .tc := ⟨.hbm, 349, rfl⟩
abbrev main_v341 : Ref sig .tc := ⟨.hbm, 350, rfl⟩
abbrev main_v342 : Ref sig .tc := ⟨.hbm, 351, rfl⟩
abbrev main_v343 : Ref sig .tc := ⟨.hbm, 352, rfl⟩
abbrev main_v344 : Ref sig .tc := ⟨.hbm, 353, rfl⟩
abbrev main_v345 : Ref sig .tc := ⟨.hbm, 354, rfl⟩
abbrev main_v346 : Ref sig .tc := ⟨.hbm, 355, rfl⟩
abbrev main_v347 : Ref sig .tc := ⟨.hbm, 356, rfl⟩
abbrev main_v348 : Ref sig .tc := ⟨.hbm, 357, rfl⟩
abbrev main_v349 : Ref sig .tc := ⟨.hbm, 358, rfl⟩
abbrev main_v350 : Ref sig .tc := ⟨.hbm, 359, rfl⟩
abbrev main_v351 : Ref sig .tc := ⟨.hbm, 360, rfl⟩
abbrev main_v352 : Ref sig .tc := ⟨.hbm, 361, rfl⟩
abbrev main_v353 : Ref sig .tc := ⟨.hbm, 362, rfl⟩
abbrev main_v354 : Ref sig .tc := ⟨.hbm, 363, rfl⟩
abbrev main_v355 : Ref sig .tc := ⟨.hbm, 364, rfl⟩
abbrev main_v356 : Ref sig .tc := ⟨.hbm, 365, rfl⟩
abbrev main_v357 : Ref sig .tc := ⟨.hbm, 366, rfl⟩
abbrev main_v358 : Ref sig .tc := ⟨.hbm, 367, rfl⟩
abbrev main_v359 : Ref sig .tc := ⟨.hbm, 368, rfl⟩
abbrev main_v360 : Ref sig .tc := ⟨.hbm, 369, rfl⟩
abbrev main_v361 : Ref sig .tc := ⟨.hbm, 370, rfl⟩
abbrev main_v362 : Ref sig .tc := ⟨.hbm, 371, rfl⟩
abbrev main_v363 : Ref sig .tc := ⟨.hbm, 372, rfl⟩
abbrev main_v364 : Ref sig .tc := ⟨.hbm, 373, rfl⟩
abbrev main_v365 : Ref sig .tc := ⟨.hbm, 374, rfl⟩
abbrev main_v366 : Ref sig .tc := ⟨.hbm, 375, rfl⟩
abbrev main_v367 : Ref sig .tc := ⟨.hbm, 376, rfl⟩
abbrev main_v368 : Ref sig .tc := ⟨.hbm, 377, rfl⟩
abbrev main_v369 : Ref sig .tc := ⟨.hbm, 378, rfl⟩
abbrev main_v370 : Ref sig .tc := ⟨.hbm, 379, rfl⟩
abbrev main_v371 : Ref sig .tc := ⟨.hbm, 380, rfl⟩
abbrev main_v372 : Ref sig .tc := ⟨.hbm, 381, rfl⟩
abbrev main_v373 : Ref sig .tc := ⟨.hbm, 382, rfl⟩
abbrev main_v374 : Ref sig .tc := ⟨.hbm, 383, rfl⟩
abbrev main_v375 : Ref sig .tc := ⟨.hbm, 384, rfl⟩
abbrev main_v376 : Ref sig .tc := ⟨.hbm, 385, rfl⟩
abbrev main_v377 : Ref sig .tc := ⟨.hbm, 386, rfl⟩
abbrev main_v378 : Ref sig .tc := ⟨.hbm, 387, rfl⟩
abbrev main_v379 : Ref sig .tc := ⟨.hbm, 388, rfl⟩
abbrev main_v380 : Ref sig .tc := ⟨.hbm, 389, rfl⟩
abbrev main_v381 : Ref sig .tc := ⟨.hbm, 390, rfl⟩
abbrev main_v382 : Ref sig .tc := ⟨.hbm, 391, rfl⟩
abbrev main_v383 : Ref sig .tc := ⟨.hbm, 392, rfl⟩
abbrev main_v384 : Ref sig .tc := ⟨.hbm, 393, rfl⟩
abbrev main_v385 : Ref sig .tc := ⟨.hbm, 394, rfl⟩
abbrev main_v386 : Ref sig .tc := ⟨.hbm, 395, rfl⟩
abbrev main_v387 : Ref sig .tc := ⟨.hbm, 396, rfl⟩
abbrev main_v388 : Ref sig .tc := ⟨.hbm, 397, rfl⟩
abbrev main_v389 : Ref sig .tc := ⟨.hbm, 398, rfl⟩
abbrev main_v390 : Ref sig .tc := ⟨.hbm, 399, rfl⟩
abbrev main_v391 : Ref sig .tc := ⟨.hbm, 400, rfl⟩
abbrev main_v392 : Ref sig .tc := ⟨.hbm, 401, rfl⟩
abbrev main_v393 : Ref sig .tc := ⟨.hbm, 402, rfl⟩
abbrev main_v394 : Ref sig .tc := ⟨.hbm, 403, rfl⟩
abbrev main_v395 : Ref sig .tc := ⟨.hbm, 404, rfl⟩
abbrev main_v396 : Ref sig .tc := ⟨.hbm, 405, rfl⟩
abbrev main_v397 : Ref sig .tc := ⟨.hbm, 406, rfl⟩
abbrev main_v398 : Ref sig .tc := ⟨.hbm, 407, rfl⟩
abbrev main_v399 : Ref sig .tc := ⟨.hbm, 408, rfl⟩
abbrev main_v400 : Ref sig .tc := ⟨.hbm, 409, rfl⟩
abbrev main_v401 : Ref sig .tc := ⟨.hbm, 410, rfl⟩
abbrev main_v402 : Ref sig .tc := ⟨.hbm, 411, rfl⟩
abbrev main_v403 : Ref sig .tc := ⟨.hbm, 412, rfl⟩
abbrev main_v404 : Ref sig .tc := ⟨.hbm, 413, rfl⟩
abbrev main_v405 : Ref sig .tc := ⟨.hbm, 414, rfl⟩
abbrev main_v406 : Ref sig .tc := ⟨.hbm, 415, rfl⟩
abbrev main_v407 : Ref sig .tc := ⟨.hbm, 416, rfl⟩
abbrev main_v408 : Ref sig .tc := ⟨.hbm, 417, rfl⟩
abbrev main_v409 : Ref sig .tc := ⟨.hbm, 418, rfl⟩
abbrev main_v410 : Ref sig .tc := ⟨.hbm, 419, rfl⟩
abbrev main_v411 : Ref sig .tc := ⟨.hbm, 420, rfl⟩
abbrev main_v412 : Ref sig .tc := ⟨.hbm, 421, rfl⟩
abbrev main_v413 : Ref sig .tc := ⟨.hbm, 422, rfl⟩
abbrev main_v414 : Ref sig .tc := ⟨.hbm, 423, rfl⟩
abbrev main_v415 : Ref sig .tc := ⟨.hbm, 424, rfl⟩
abbrev main_v416 : Ref sig .tc := ⟨.hbm, 425, rfl⟩
abbrev main_v417 : Ref sig .tc := ⟨.hbm, 426, rfl⟩
abbrev main_v418 : Ref sig .tc := ⟨.hbm, 427, rfl⟩
abbrev main_v419 : Ref sig .tc := ⟨.hbm, 428, rfl⟩
abbrev main_v420 : Ref sig .tc := ⟨.hbm, 429, rfl⟩
abbrev main_v421 : Ref sig .tc := ⟨.hbm, 430, rfl⟩
abbrev main_v422 : Ref sig .tc := ⟨.hbm, 431, rfl⟩
abbrev main_v423 : Ref sig .tc := ⟨.hbm, 432, rfl⟩
abbrev main_v424 : Ref sig .tc := ⟨.hbm, 433, rfl⟩
abbrev main_v425 : Ref sig .tc := ⟨.hbm, 434, rfl⟩
abbrev main_v426 : Ref sig .tc := ⟨.hbm, 435, rfl⟩
abbrev main_v427 : Ref sig .tc := ⟨.hbm, 436, rfl⟩
abbrev main_v428 : Ref sig .tc := ⟨.hbm, 437, rfl⟩
abbrev main_v429 : Ref sig .tc := ⟨.hbm, 438, rfl⟩
abbrev main_v430 : Ref sig .tc := ⟨.hbm, 439, rfl⟩
abbrev main_v431 : Ref sig .tc := ⟨.hbm, 440, rfl⟩
abbrev main_v432 : Ref sig .tc := ⟨.hbm, 441, rfl⟩
abbrev main_v433 : Ref sig .tc := ⟨.hbm, 442, rfl⟩
abbrev main_v434 : Ref sig .tc := ⟨.hbm, 443, rfl⟩
abbrev main_v435 : Ref sig .tc := ⟨.hbm, 444, rfl⟩
abbrev main_v436 : Ref sig .tc := ⟨.hbm, 445, rfl⟩
abbrev main_cst_5 : Ref sig .tc := ⟨.hbm, 446, rfl⟩
abbrev main_v437 : Ref sig .tc := ⟨.hbm, 447, rfl⟩
abbrev main_v438 : Ref sig .tc := ⟨.hbm, 448, rfl⟩
abbrev main_v439 : Ref sig .tc := ⟨.hbm, 449, rfl⟩
abbrev main_v440 : Ref sig .tc := ⟨.hbm, 450, rfl⟩
abbrev main_v441 : Ref sig .tc := ⟨.hbm, 451, rfl⟩
abbrev main_v442 : Ref sig .tc := ⟨.hbm, 452, rfl⟩
abbrev main_cst_6 : Ref sig .tc := ⟨.hbm, 453, rfl⟩
abbrev main_v443 : Ref sig .tc := ⟨.hbm, 454, rfl⟩
abbrev main_v444 : Ref sig .tc := ⟨.hbm, 455, rfl⟩
abbrev main_v445 : Ref sig .tc := ⟨.hbm, 456, rfl⟩
abbrev main_v446 : Ref sig .tc := ⟨.hbm, 457, rfl⟩
abbrev main_v447 : Ref sig .tc := ⟨.hbm, 458, rfl⟩

abbrev nD : Nat := 1
abbrev τ : Topo := Topo.v7x

variable {F : FTy → Type} [FloatOps F]

class Facts₀ : Prop where
  transposes_S16x2048x2048_S16x2048x2048_0_2_1 : S16x2048x2048.Transposes [0, 2, 1] S16x2048x2048
  bcast_S_S16x2048x2048 : S_.BroadcastsInDim S16x2048x2048 (![] : Fin 0 → Fin S16x2048x2048.rank)
  bcast_S2048x32_S2048x32x1_0_1 : S2048x32.BroadcastsInDim S2048x32x1 (![0, 1] : Fin 2 → Fin S2048x32x1.rank)
  bcast_S2048x32_S2048x1x32_0_2 : S2048x32.BroadcastsInDim S2048x1x32 (![0, 2] : Fin 2 → Fin S2048x1x32.rank)
  bcast_S_S2048x32x1 : S_.BroadcastsInDim S2048x32x1 (![] : Fin 0 → Fin S2048x32x1.rank)
  bcast_S_S2048x1x32 : S_.BroadcastsInDim S2048x1x32 (![] : Fin 0 → Fin S2048x1x32.rank)
  bcast_S2048x32x1_S2048x32x32_0_1_2 : S2048x32x1.BroadcastsInDim S2048x32x32 (![0, 1, 2] : Fin 3 → Fin S2048x32x32.rank)
  bcast_S2048x1x32_S2048x32x32_0_1_2 : S2048x1x32.BroadcastsInDim S2048x32x32 (![0, 1, 2] : Fin 3 → Fin S2048x32x32.rank)
  bcast_S2048x32x32_S2048x32x32x1_0_1_2 : S2048x32x32.BroadcastsInDim S2048x32x32x1 (![0, 1, 2] : Fin 3 → Fin S2048x32x32x1.rank)
  concatenates_S2048x32x32x1_S2048x32x32x1_S2048x32x32x2_d3 : Shape.Concatenates [S2048x32x32x1, S2048x32x32x1] S2048x32x32x2 3
  transposes_S16x2048x32x32_S2048x16x32x32_1_0_2_3 : S16x2048x32x32.Transposes [1, 0, 2, 3] S2048x16x32x32
  slices_S2048x16x32x32_S2048x16x1x1_0_0_0_1 : S2048x16x32x32.Slices ![0, 0, 0, 1] S2048x16x1x1
  shapeCasts_S2048x16x1x1_S2048x16 : S2048x16x1x1.ShapeCasts S2048x16
  bcast_S_S2048x16 : S_.BroadcastsInDim S2048x16 (![] : Fin 0 → Fin S2048x16.rank)
  slices_S2048x16x32x32_S2048x16x1x30_0_0_0_2 : S2048x16x32x32.Slices ![0, 0, 0, 2] S2048x16x1x30
  shapeCasts_S2048x16x1x30_S2048x16x30 : S2048x16x1x30.ShapeCasts S2048x16x30
  bcast_S2048x16_S2048x16x1_0_1 : S2048x16.BroadcastsInDim S2048x16x1 (![0, 1] : Fin 2 → Fin S2048x16x1.rank)
  bcast_S2048x16x1_S2048x16x30_0_1_2 : S2048x16x1.BroadcastsInDim S2048x16x30 (![0, 1, 2] : Fin 3 → Fin S2048x16x30.rank)
  slices_S2048x16x32x32_S2048x16x1x30_0_0_1_2 : S2048x16x32x32.Slices ![0, 0, 1, 2] S2048x16x1x30
  slices_S2048x16x32x32_S2048x16x30x30_0_0_2_2 : S2048x16x32x32.Slices ![0, 0, 2, 2] S2048x16x30x30
  bcast_S2048x16x30_S2048x16x30x1_0_1_2 : S2048x16x30.BroadcastsInDim S2048x16x30x1 (![0, 1, 2] : Fin 3 → Fin S2048x16x30x1.rank)
  bcast_S2048x16x30_S2048x16x1x30_0_1_3 : S2048x16x30.BroadcastsInDim S2048x16x1x30 (![0, 1, 3] : Fin 3 → Fin S2048x16x1x30.rank)
  bcast_S2048x16x30x1_S2048x16x30x30_0_1_2_3 : S2048x16x30x1.BroadcastsInDim S2048x16x30x30 (![0, 1, 2, 3] : Fin 4 → Fin S2048x16x30x30.rank)
  bcast_S2048x16x1x30_S2048x16x30x30_0_1_2_3 : S2048x16x1x30.BroadcastsInDim S2048x16x30x30 (![0, 1, 2, 3] : Fin 4 → Fin S2048x16x30x30.rank)
  slices_S2048x16x30x30_S2048x16x1x1_0_0_0_1 : S2048x16x30x30.Slices ![0, 0, 0, 1] S2048x16x1x1
  slices_S2048x16x30x30_S2048x16x1x28_0_0_0_2 : S2048x16x30x30.Slices ![0, 0, 0, 2] S2048x16x1x28
  shapeCasts_S2048x16x1x28_S2048x16x28 : S2048x16x1x28.ShapeCasts S2048x16x28
  bcast_S2048x16x1_S2048x16x28_0_1_2 : S2048x16x1.BroadcastsInDim S2048x16x28 (![0, 1, 2] : Fin 3 → Fin S2048x16x28.rank)
  slices_S2048x16x30x30_S2048x16x1x28_0_0_1_2 : S2048x16x30x30.Slices ![0, 0, 1, 2] S2048x16x1x28
  slices_S2048x16x30x30_S2048x16x28x28_0_0_2_2 : S2048x16x30x30.Slices ![0, 0, 2, 2] S2048x16x28x28
  bcast_S2048x16x28_S2048x16x28x1_0_1_2 : S2048x16x28.BroadcastsInDim S2048x16x28x1 (![0, 1, 2] : Fin 3 → Fin S2048x16x28x1.rank)
  bcast_S2048x16x28_S2048x16x1x28_0_1_3 : S2048x16x28.BroadcastsInDim S2048x16x1x28 (![0, 1, 3] : Fin 3 → Fin S2048x16x1x28.rank)
  bcast_S2048x16x28x1_S2048x16x28x28_0_1_2_3 : S2048x16x28x1.BroadcastsInDim S2048x16x28x28 (![0, 1, 2, 3] : Fin 4 → Fin S2048x16x28x28.rank)
  bcast_S2048x16x1x28_S2048x16x28x28_0_1_2_3 : S2048x16x1x28.BroadcastsInDim S2048x16x28x28 (![0, 1, 2, 3] : Fin 4 → Fin S2048x16x28x28.rank)
  slices_S2048x16x28x28_S2048x16x1x1_0_0_0_1 : S2048x16x28x28.Slices ![0, 0, 0, 1] S2048x16x1x1
  slices_S2048x16x28x28_S2048x16x1x26_0_0_0_2 : S2048x16x28x28.Slices ![0, 0, 0, 2] S2048x16x1x26
  shapeCasts_S2048x16x1x26_S2048x16x26 : S2048x16x1x26.ShapeCasts S2048x16x26
  bcast_S2048x16x1_S2048x16x26_0_1_2 : S2048x16x1.BroadcastsInDim S2048x16x26 (![0, 1, 2] : Fin 3 → Fin S2048x16x26.rank)
  slices_S2048x16x28x28_S2048x16x1x26_0_0_1_2 : S2048x16x28x28.Slices ![0, 0, 1, 2] S2048x16x1x26
  slices_S2048x16x28x28_S2048x16x26x26_0_0_2_2 : S2048x16x28x28.Slices ![0, 0, 2, 2] S2048x16x26x26
  bcast_S2048x16x26_S2048x16x26x1_0_1_2 : S2048x16x26.BroadcastsInDim S2048x16x26x1 (![0, 1, 2] : Fin 3 → Fin S2048x16x26x1.rank)
  bcast_S2048x16x26_S2048x16x1x26_0_1_3 : S2048x16x26.BroadcastsInDim S2048x16x1x26 (![0, 1, 3] : Fin 3 → Fin S2048x16x1x26.rank)
  bcast_S2048x16x26x1_S2048x16x26x26_0_1_2_3 : S2048x16x26x1.BroadcastsInDim S2048x16x26x26 (![0, 1, 2, 3] : Fin 4 → Fin S2048x16x26x26.rank)
  bcast_S2048x16x1x26_S2048x16x26x26_0_1_2_3 : S2048x16x1x26.BroadcastsInDim S2048x16x26x26 (![0, 1, 2, 3] : Fin 4 → Fin S2048x16x26x26.rank)
  slices_S2048x16x26x26_S2048x16x1x1_0_0_0_1 : S2048x16x26x26.Slices ![0, 0, 0, 1] S2048x16x1x1
  slices_S2048x16x26x26_S2048x16x1x24_0_0_0_2 : S2048x16x26x26.Slices ![0, 0, 0, 2] S2048x16x1x24
  shapeCasts_S2048x16x1x24_S2048x16x24 : S2048x16x1x24.ShapeCasts S2048x16x24
  bcast_S2048x16x1_S2048x16x24_0_1_2 : S2048x16x1.BroadcastsInDim S2048x16x24 (![0, 1, 2] : Fin 3 → Fin S2048x16x24.rank)
  slices_S2048x16x26x26_S2048x16x1x24_0_0_1_2 : S2048x16x26x26.Slices ![0, 0, 1, 2] S2048x16x1x24
  slices_S2048x16x26x26_S2048x16x24x24_0_0_2_2 : S2048x16x26x26.Slices ![0, 0, 2, 2] S2048x16x24x24
  bcast_S2048x16x24_S2048x16x24x1_0_1_2 : S2048x16x24.BroadcastsInDim S2048x16x24x1 (![0, 1, 2] : Fin 3 → Fin S2048x16x24x1.rank)
  bcast_S2048x16x24_S2048x16x1x24_0_1_3 : S2048x16x24.BroadcastsInDim S2048x16x1x24 (![0, 1, 3] : Fin 3 → Fin S2048x16x1x24.rank)
  bcast_S2048x16x24x1_S2048x16x24x24_0_1_2_3 : S2048x16x24x1.BroadcastsInDim S2048x16x24x24 (![0, 1, 2, 3] : Fin 4 → Fin S2048x16x24x24.rank)
  bcast_S2048x16x1x24_S2048x16x24x24_0_1_2_3 : S2048x16x1x24.BroadcastsInDim S2048x16x24x24 (![0, 1, 2, 3] : Fin 4 → Fin S2048x16x24x24.rank)
  slices_S2048x16x24x24_S2048x16x1x1_0_0_0_1 : S2048x16x24x24.Slices ![0, 0, 0, 1] S2048x16x1x1
  slices_S2048x16x24x24_S2048x16x1x22_0_0_0_2 : S2048x16x24x24.Slices ![0, 0, 0, 2] S2048x16x1x22
  shapeCasts_S2048x16x1x22_S2048x16x22 : S2048x16x1x22.ShapeCasts S2048x16x22
  bcast_S2048x16x1_S2048x16x22_0_1_2 : S2048x16x1.BroadcastsInDim S2048x16x22 (![0, 1, 2] : Fin 3 → Fin S2048x16x22.rank)
  slices_S2048x16x24x24_S2048x16x1x22_0_0_1_2 : S2048x16x24x24.Slices ![0, 0, 1, 2] S2048x16x1x22
  slices_S2048x16x24x24_S2048x16x22x22_0_0_2_2 : S2048x16x24x24.Slices ![0, 0, 2, 2] S2048x16x22x22
  bcast_S2048x16x22_S2048x16x22x1_0_1_2 : S2048x16x22.BroadcastsInDim S2048x16x22x1 (![0, 1, 2] : Fin 3 → Fin S2048x16x22x1.rank)
  bcast_S2048x16x22_S2048x16x1x22_0_1_3 : S2048x16x22.BroadcastsInDim S2048x16x1x22 (![0, 1, 3] : Fin 3 → Fin S2048x16x1x22.rank)
  bcast_S2048x16x22x1_S2048x16x22x22_0_1_2_3 : S2048x16x22x1.BroadcastsInDim S2048x16x22x22 (![0, 1, 2, 3] : Fin 4 → Fin S2048x16x22x22.rank)
  bcast_S2048x16x1x22_S2048x16x22x22_0_1_2_3 : S2048x16x1x22.BroadcastsInDim S2048x16x22x22 (![0, 1, 2, 3] : Fin 4 → Fin S2048x16x22x22.rank)
  slices_S2048x16x22x22_S2048x16x1x1_0_0_0_1 : S2048x16x22x22.Slices ![0, 0, 0, 1] S2048x16x1x1
  slices_S2048x16x22x22_S2048x16x1x20_0_0_0_2 : S2048x16x22x22.Slices ![0, 0, 0, 2] S2048x16x1x20
  shapeCasts_S2048x16x1x20_S2048x16x20 : S2048x16x1x20.ShapeCasts S2048x16x20
  bcast_S2048x16x1_S2048x16x20_0_1_2 : S2048x16x1.BroadcastsInDim S2048x16x20 (![0, 1, 2] : Fin 3 → Fin S2048x16x20.rank)
  slices_S2048x16x22x22_S2048x16x1x20_0_0_1_2 : S2048x16x22x22.Slices ![0, 0, 1, 2] S2048x16x1x20
  slices_S2048x16x22x22_S2048x16x20x20_0_0_2_2 : S2048x16x22x22.Slices ![0, 0, 2, 2] S2048x16x20x20
  bcast_S2048x16x20_S2048x16x20x1_0_1_2 : S2048x16x20.BroadcastsInDim S2048x16x20x1 (![0, 1, 2] : Fin 3 → Fin S2048x16x20x1.rank)
  bcast_S2048x16x20_S2048x16x1x20_0_1_3 : S2048x16x20.BroadcastsInDim S2048x16x1x20 (![0, 1, 3] : Fin 3 → Fin S2048x16x1x20.rank)
  bcast_S2048x16x20x1_S2048x16x20x20_0_1_2_3 : S2048x16x20x1.BroadcastsInDim S2048x16x20x20 (![0, 1, 2, 3] : Fin 4 → Fin S2048x16x20x20.rank)
  bcast_S2048x16x1x20_S2048x16x20x20_0_1_2_3 : S2048x16x1x20.BroadcastsInDim S2048x16x20x20 (![0, 1, 2, 3] : Fin 4 → Fin S2048x16x20x20.rank)
  slices_S2048x16x20x20_S2048x16x1x1_0_0_0_1 : S2048x16x20x20.Slices ![0, 0, 0, 1] S2048x16x1x1
  slices_S2048x16x20x20_S2048x16x1x18_0_0_0_2 : S2048x16x20x20.Slices ![0, 0, 0, 2] S2048x16x1x18
  shapeCasts_S2048x16x1x18_S2048x16x18 : S2048x16x1x18.ShapeCasts S2048x16x18
  bcast_S2048x16x1_S2048x16x18_0_1_2 : S2048x16x1.BroadcastsInDim S2048x16x18 (![0, 1, 2] : Fin 3 → Fin S2048x16x18.rank)
  slices_S2048x16x20x20_S2048x16x1x18_0_0_1_2 : S2048x16x20x20.Slices ![0, 0, 1, 2] S2048x16x1x18
  slices_S2048x16x20x20_S2048x16x18x18_0_0_2_2 : S2048x16x20x20.Slices ![0, 0, 2, 2] S2048x16x18x18
  bcast_S2048x16x18_S2048x16x18x1_0_1_2 : S2048x16x18.BroadcastsInDim S2048x16x18x1 (![0, 1, 2] : Fin 3 → Fin S2048x16x18x1.rank)
  bcast_S2048x16x18_S2048x16x1x18_0_1_3 : S2048x16x18.BroadcastsInDim S2048x16x1x18 (![0, 1, 3] : Fin 3 → Fin S2048x16x1x18.rank)
  bcast_S2048x16x18x1_S2048x16x18x18_0_1_2_3 : S2048x16x18x1.BroadcastsInDim S2048x16x18x18 (![0, 1, 2, 3] : Fin 4 → Fin S2048x16x18x18.rank)
  bcast_S2048x16x1x18_S2048x16x18x18_0_1_2_3 : S2048x16x1x18.BroadcastsInDim S2048x16x18x18 (![0, 1, 2, 3] : Fin 4 → Fin S2048x16x18x18.rank)
  slices_S2048x16x18x18_S2048x16x1x1_0_0_0_1 : S2048x16x18x18.Slices ![0, 0, 0, 1] S2048x16x1x1
  slices_S2048x16x18x18_S2048x16x1x16_0_0_0_2 : S2048x16x18x18.Slices ![0, 0, 0, 2] S2048x16x1x16
  shapeCasts_S2048x16x1x16_S2048x16x16 : S2048x16x1x16.ShapeCasts S2048x16x16
  bcast_S2048x16x1_S2048x16x16_0_1_2 : S2048x16x1.BroadcastsInDim S2048x16x16 (![0, 1, 2] : Fin 3 → Fin S2048x16x16.rank)
  slices_S2048x16x18x18_S2048x16x1x16_0_0_1_2 : S2048x16x18x18.Slices ![0, 0, 1, 2] S2048x16x1x16
  slices_S2048x16x18x18_S2048x16x16x16_0_0_2_2 : S2048x16x18x18.Slices ![0, 0, 2, 2] S2048x16x16x16
  bcast_S2048x16x16_S2048x16x16x1_0_1_2 : S2048x16x16.BroadcastsInDim S2048x16x16x1 (![0, 1, 2] : Fin 3 → Fin S2048x16x16x1.rank)
  bcast_S2048x16x16_S2048x16x1x16_0_1_3 : S2048x16x16.BroadcastsInDim S2048x16x1x16 (![0, 1, 3] : Fin 3 → Fin S2048x16x1x16.rank)
  bcast_S2048x16x16x1_S2048x16x16x16_0_1_2_3 : S2048x16x16x1.BroadcastsInDim S2048x16x16x16 (![0, 1, 2, 3] : Fin 4 → Fin S2048x16x16x16.rank)
  bcast_S2048x16x1x16_S2048x16x16x16_0_1_2_3 : S2048x16x1x16.BroadcastsInDim S2048x16x16x16 (![0, 1, 2, 3] : Fin 4 → Fin S2048x16x16x16.rank)
  slices_S2048x16x16x16_S2048x16x1x1_0_0_0_1 : S2048x16x16x16.Slices ![0, 0, 0, 1] S2048x16x1x1
  slices_S2048x16x16x16_S2048x16x1x14_0_0_0_2 : S2048x16x16x16.Slices ![0, 0, 0, 2] S2048x16x1x14
  shapeCasts_S2048x16x1x14_S2048x16x14 : S2048x16x1x14.ShapeCasts S2048x16x14
  bcast_S2048x16x1_S2048x16x14_0_1_2 : S2048x16x1.BroadcastsInDim S2048x16x14 (![0, 1, 2] : Fin 3 → Fin S2048x16x14.rank)
  slices_S2048x16x16x16_S2048x16x1x14_0_0_1_2 : S2048x16x16x16.Slices ![0, 0, 1, 2] S2048x16x1x14
  slices_S2048x16x16x16_S2048x16x14x14_0_0_2_2 : S2048x16x16x16.Slices ![0, 0, 2, 2] S2048x16x14x14
  bcast_S2048x16x14_S2048x16x14x1_0_1_2 : S2048x16x14.BroadcastsInDim S2048x16x14x1 (![0, 1, 2] : Fin 3 → Fin S2048x16x14x1.rank)
  bcast_S2048x16x14_S2048x16x1x14_0_1_3 : S2048x16x14.BroadcastsInDim S2048x16x1x14 (![0, 1, 3] : Fin 3 → Fin S2048x16x1x14.rank)
  bcast_S2048x16x14x1_S2048x16x14x14_0_1_2_3 : S2048x16x14x1.BroadcastsInDim S2048x16x14x14 (![0, 1, 2, 3] : Fin 4 → Fin S2048x16x14x14.rank)
  bcast_S2048x16x1x14_S2048x16x14x14_0_1_2_3 : S2048x16x1x14.BroadcastsInDim S2048x16x14x14 (![0, 1, 2, 3] : Fin 4 → Fin S2048x16x14x14.rank)
  slices_S2048x16x14x14_S2048x16x1x1_0_0_0_1 : S2048x16x14x14.Slices ![0, 0, 0, 1] S2048x16x1x1
  slices_S2048x16x14x14_S2048x16x1x12_0_0_0_2 : S2048x16x14x14.Slices ![0, 0, 0, 2] S2048x16x1x12
  shapeCasts_S2048x16x1x12_S2048x16x12 : S2048x16x1x12.ShapeCasts S2048x16x12
  bcast_S2048x16x1_S2048x16x12_0_1_2 : S2048x16x1.BroadcastsInDim S2048x16x12 (![0, 1, 2] : Fin 3 → Fin S2048x16x12.rank)
  slices_S2048x16x14x14_S2048x16x1x12_0_0_1_2 : S2048x16x14x14.Slices ![0, 0, 1, 2] S2048x16x1x12
  slices_S2048x16x14x14_S2048x16x12x12_0_0_2_2 : S2048x16x14x14.Slices ![0, 0, 2, 2] S2048x16x12x12
  bcast_S2048x16x12_S2048x16x12x1_0_1_2 : S2048x16x12.BroadcastsInDim S2048x16x12x1 (![0, 1, 2] : Fin 3 → Fin S2048x16x12x1.rank)
  bcast_S2048x16x12_S2048x16x1x12_0_1_3 : S2048x16x12.BroadcastsInDim S2048x16x1x12 (![0, 1, 3] : Fin 3 → Fin S2048x16x1x12.rank)
  bcast_S2048x16x12x1_S2048x16x12x12_0_1_2_3 : S2048x16x12x1.BroadcastsInDim S2048x16x12x12 (![0, 1, 2, 3] : Fin 4 → Fin S2048x16x12x12.rank)
  bcast_S2048x16x1x12_S2048x16x12x12_0_1_2_3 : S2048x16x1x12.BroadcastsInDim S2048x16x12x12 (![0, 1, 2, 3] : Fin 4 → Fin S2048x16x12x12.rank)
  slices_S2048x16x12x12_S2048x16x1x1_0_0_0_1 : S2048x16x12x12.Slices ![0, 0, 0, 1] S2048x16x1x1
  slices_S2048x16x12x12_S2048x16x1x10_0_0_0_2 : S2048x16x12x12.Slices ![0, 0, 0, 2] S2048x16x1x10
  shapeCasts_S2048x16x1x10_S2048x16x10 : S2048x16x1x10.ShapeCasts S2048x16x10
  bcast_S2048x16x1_S2048x16x10_0_1_2 : S2048x16x1.BroadcastsInDim S2048x16x10 (![0, 1, 2] : Fin 3 → Fin S2048x16x10.rank)
  slices_S2048x16x12x12_S2048x16x1x10_0_0_1_2 : S2048x16x12x12.Slices ![0, 0, 1, 2] S2048x16x1x10
  slices_S2048x16x12x12_S2048x16x10x10_0_0_2_2 : S2048x16x12x12.Slices ![0, 0, 2, 2] S2048x16x10x10
  bcast_S2048x16x10_S2048x16x10x1_0_1_2 : S2048x16x10.BroadcastsInDim S2048x16x10x1 (![0, 1, 2] : Fin 3 → Fin S2048x16x10x1.rank)
  bcast_S2048x16x10_S2048x16x1x10_0_1_3 : S2048x16x10.BroadcastsInDim S2048x16x1x10 (![0, 1, 3] : Fin 3 → Fin S2048x16x1x10.rank)
  bcast_S2048x16x10x1_S2048x16x10x10_0_1_2_3 : S2048x16x10x1.BroadcastsInDim S2048x16x10x10 (![0, 1, 2, 3] : Fin 4 → Fin S2048x16x10x10.rank)
  bcast_S2048x16x1x10_S2048x16x10x10_0_1_2_3 : S2048x16x1x10.BroadcastsInDim S2048x16x10x10 (![0, 1, 2, 3] : Fin 4 → Fin S2048x16x10x10.rank)
  slices_S2048x16x10x10_S2048x16x1x1_0_0_0_1 : S2048x16x10x10.Slices ![0, 0, 0, 1] S2048x16x1x1
  slices_S2048x16x10x10_S2048x16x1x8_0_0_0_2 : S2048x16x10x10.Slices ![0, 0, 0, 2] S2048x16x1x8
  shapeCasts_S2048x16x1x8_S2048x16x8 : S2048x16x1x8.ShapeCasts S2048x16x8
  bcast_S2048x16x1_S2048x16x8_0_1_2 : S2048x16x1.BroadcastsInDim S2048x16x8 (![0, 1, 2] : Fin 3 → Fin S2048x16x8.rank)
  slices_S2048x16x10x10_S2048x16x1x8_0_0_1_2 : S2048x16x10x10.Slices ![0, 0, 1, 2] S2048x16x1x8
  slices_S2048x16x10x10_S2048x16x8x8_0_0_2_2 : S2048x16x10x10.Slices ![0, 0, 2, 2] S2048x16x8x8
  bcast_S2048x16x8_S2048x16x8x1_0_1_2 : S2048x16x8.BroadcastsInDim S2048x16x8x1 (![0, 1, 2] : Fin 3 → Fin S2048x16x8x1.rank)
  bcast_S2048x16x8_S2048x16x1x8_0_1_3 : S2048x16x8.BroadcastsInDim S2048x16x1x8 (![0, 1, 3] : Fin 3 → Fin S2048x16x1x8.rank)
  bcast_S2048x16x8x1_S2048x16x8x8_0_1_2_3 : S2048x16x8x1.BroadcastsInDim S2048x16x8x8 (![0, 1, 2, 3] : Fin 4 → Fin S2048x16x8x8.rank)
  bcast_S2048x16x1x8_S2048x16x8x8_0_1_2_3 : S2048x16x1x8.BroadcastsInDim S2048x16x8x8 (![0, 1, 2, 3] : Fin 4 → Fin S2048x16x8x8.rank)
  slices_S2048x16x8x8_S2048x16x1x1_0_0_0_1 : S2048x16x8x8.Slices ![0, 0, 0, 1] S2048x16x1x1
  slices_S2048x16x8x8_S2048x16x1x6_0_0_0_2 : S2048x16x8x8.Slices ![0, 0, 0, 2] S2048x16x1x6
  shapeCasts_S2048x16x1x6_S2048x16x6 : S2048x16x1x6.ShapeCasts S2048x16x6
  bcast_S2048x16x1_S2048x16x6_0_1_2 : S2048x16x1.BroadcastsInDim S2048x16x6 (![0, 1, 2] : Fin 3 → Fin S2048x16x6.rank)
  slices_S2048x16x8x8_S2048x16x1x6_0_0_1_2 : S2048x16x8x8.Slices ![0, 0, 1, 2] S2048x16x1x6
  slices_S2048x16x8x8_S2048x16x6x6_0_0_2_2 : S2048x16x8x8.Slices ![0, 0, 2, 2] S2048x16x6x6
  bcast_S2048x16x6_S2048x16x6x1_0_1_2 : S2048x16x6.BroadcastsInDim S2048x16x6x1 (![0, 1, 2] : Fin 3 → Fin S2048x16x6x1.rank)
  bcast_S2048x16x6_S2048x16x1x6_0_1_3 : S2048x16x6.BroadcastsInDim S2048x16x1x6 (![0, 1, 3] : Fin 3 → Fin S2048x16x1x6.rank)
  bcast_S2048x16x6x1_S2048x16x6x6_0_1_2_3 : S2048x16x6x1.BroadcastsInDim S2048x16x6x6 (![0, 1, 2, 3] : Fin 4 → Fin S2048x16x6x6.rank)
  bcast_S2048x16x1x6_S2048x16x6x6_0_1_2_3 : S2048x16x1x6.BroadcastsInDim S2048x16x6x6 (![0, 1, 2, 3] : Fin 4 → Fin S2048x16x6x6.rank)
  slices_S2048x16x6x6_S2048x16x1x1_0_0_0_1 : S2048x16x6x6.Slices ![0, 0, 0, 1] S2048x16x1x1
  slices_S2048x16x6x6_S2048x16x1x4_0_0_0_2 : S2048x16x6x6.Slices ![0, 0, 0, 2] S2048x16x1x4
  shapeCasts_S2048x16x1x4_S2048x16x4 : S2048x16x1x4.ShapeCasts S2048x16x4
  bcast_S2048x16x1_S2048x16x4_0_1_2 : S2048x16x1.BroadcastsInDim S2048x16x4 (![0, 1, 2] : Fin 3 → Fin S2048x16x4.rank)
  slices_S2048x16x6x6_S2048x16x1x4_0_0_1_2 : S2048x16x6x6.Slices ![0, 0, 1, 2] S2048x16x1x4
  slices_S2048x16x6x6_S2048x16x4x4_0_0_2_2 : S2048x16x6x6.Slices ![0, 0, 2, 2] S2048x16x4x4
  bcast_S2048x16x4_S2048x16x4x1_0_1_2 : S2048x16x4.BroadcastsInDim S2048x16x4x1 (![0, 1, 2] : Fin 3 → Fin S2048x16x4x1.rank)
  bcast_S2048x16x4_S2048x16x1x4_0_1_3 : S2048x16x4.BroadcastsInDim S2048x16x1x4 (![0, 1, 3] : Fin 3 → Fin S2048x16x1x4.rank)
  bcast_S2048x16x4x1_S2048x16x4x4_0_1_2_3 : S2048x16x4x1.BroadcastsInDim S2048x16x4x4 (![0, 1, 2, 3] : Fin 4 → Fin S2048x16x4x4.rank)
  bcast_S2048x16x1x4_S2048x16x4x4_0_1_2_3 : S2048x16x1x4.BroadcastsInDim S2048x16x4x4 (![0, 1, 2, 3] : Fin 4 → Fin S2048x16x4x4.rank)
  slices_S2048x16x4x4_S2048x16x1x1_0_0_0_1 : S2048x16x4x4.Slices ![0, 0, 0, 1] S2048x16x1x1
  slices_S2048x16x4x4_S2048x16x1x2_0_0_0_2 : S2048x16x4x4.Slices ![0, 0, 0, 2] S2048x16x1x2
  shapeCasts_S2048x16x1x2_S2048x16x2 : S2048x16x1x2.ShapeCasts S2048x16x2
  bcast_S2048x16x1_S2048x16x2_0_1_2 : S2048x16x1.BroadcastsInDim S2048x16x2 (![0, 1, 2] : Fin 3 → Fin S2048x16x2.rank)
  slices_S2048x16x4x4_S2048x16x1x2_0_0_1_2 : S2048x16x4x4.Slices ![0, 0, 1, 2] S2048x16x1x2
  slices_S2048x16x4x4_S2048x16x2x2_0_0_2_2 : S2048x16x4x4.Slices ![0, 0, 2, 2] S2048x16x2x2
  bcast_S2048x16x2_S2048x16x2x1_0_1_2 : S2048x16x2.BroadcastsInDim S2048x16x2x1 (![0, 1, 2] : Fin 3 → Fin S2048x16x2x1.rank)
  bcast_S2048x16x2_S2048x16x1x2_0_1_3 : S2048x16x2.BroadcastsInDim S2048x16x1x2 (![0, 1, 3] : Fin 3 → Fin S2048x16x1x2.rank)
  bcast_S2048x16x2x1_S2048x16x2x2_0_1_2_3 : S2048x16x2x1.BroadcastsInDim S2048x16x2x2 (![0, 1, 2, 3] : Fin 4 → Fin S2048x16x2x2.rank)
  bcast_S2048x16x1x2_S2048x16x2x2_0_1_2_3 : S2048x16x1x2.BroadcastsInDim S2048x16x2x2 (![0, 1, 2, 3] : Fin 4 → Fin S2048x16x2x2.rank)
  slices_S2048x16x2x2_S2048x16x1x1_0_0_0_1 : S2048x16x2x2.Slices ![0, 0, 0, 1] S2048x16x1x1
  reducesTo_S2048x16_S2048_d1 : S2048x16.ReducesTo [1] S2048
  h_S_ : 0 < S_.numel
  bcast_S2048_S2048x1_0 : S2048.BroadcastsInDim S2048x1 (![0] : Fin 1 → Fin S2048x1.rank)
  bcast_S2048x1_S2048x16_0_1 : S2048x1.BroadcastsInDim S2048x16 (![0, 1] : Fin 2 → Fin S2048x16.rank)
  gather_S16x2048x2048_S2048x32x32x2_S16x2048x32x32_0_12_n_n_12_3_1611_wf : GatherDims.WF S16x2048x2048 S2048x32x32x2 S16x2048x32x32 [0] [1, 2] [] [1, 2] [] 3 ![16, 1, 1]

variable [Facts₀]

def gather_S16x2048x2048_S2048x32x32x2_S16x2048x32x32_0_12_n_n_12_3_1611 : GatherDims S16x2048x2048 S2048x32x32x2 S16x2048x32x32 where
  offsetDims := [0]
  collapsedSliceDims := [1, 2]
  operandBatchingDims := []
  startIndicesBatchingDims := []
  startIndexMap := [1, 2]
  indexVectorDim := 3
  sliceSizes := ![16, 1, 1]
  wf := gather_S16x2048x2048_S2048x32x32x2_S16x2048x32x32_0_12_n_n_12_3_1611_wf

class Facts : Prop extends Facts₀ where

variable [Facts]
-- ==== Proof.KBodyK.lean ====
/-
  The word-level kernel body's two stored values as functions of its two loads, and the kernel function as its
  memory operations.

  The word-level program is the same body before the sign-bit idiom is replaced: each of the sixteen pivots' signs is
  built from the pivot's word. Its chain of intermediate values is written out once, each value named as in the
  printed body; between its two loads and its two stores the function only computes, so it is: load the table slab,
  load the index block, then for each output load its buffer (unused) and store the chain's value. The equation
  holds by unfolding alone. Only the frame is claimed of this program, so nothing is read off the values.
-/
import proofs.«416707_j11175504904264_4_alg».proof.Proof.Gen.Kernel.Skeleton

set_option maxRecDepth 65536

noncomputable section

namespace Cert.Kernel.Body

open Cert.Kernel Cert.Kernel.Gen Idealize.ShloMosaic Idealize.SL.Sem

variable {F : FTy → Type} [BitOps F]

/-- The first stored value: the accumulated signs, as a [1, 128, 1] block. -/
def bodySign (v0 : Vec F S1x2048x2048 .f32) (v2 : Vec F S128x32 .i32) : FVec F S1x128x1 .f32 :=
  let v1 := k0_pay1 v0
  let v3 : IVec S1x1x2048 32 := iota .tc S1x1x2048 32 [2] iota_S1x1x2048_d2_w32
  let v19 := k0_pay2 v0 v2
  let v35 := k0_pay3 v0 v2
  let v42 := k0_pay4 v2
  let v45 := k0_pay5 v0 v2
  let v83 := k0_pay8 v1 v2 v3 v19 v35 v42 v45
  let v86 := k0_pay9 v1 v2 v3 v19 v35 v42 v45
  let v91 := k0_pay10 v1 v2 v3 v19 v35 v42 v45
  let v93 := k0_pay11 v1 v2 v3 v19 v35 v42 v45
  let v94 := k0_pay12 v1 v2 v3 v19 v35 v42 v45
  let v95 := k0_pay13 v1 v2 v3 v19 v35 v42 v45
  let v119 := k0_pay16 v83 v91 v93 v94 v95
  let v122 := k0_pay17 v86 v91 v93 v94 v95
  let v142 := k0_pay18 v91 v93 v94 v95
  let v144 := k0_pay19 v91 v93 v94 v95
  let v150 := k0_pay20 v91 v93 v94 v95
  let v191 := k0_pay23 v119 v142 v144 v150
  let v194 := k0_pay24 v122 v142 v144
  let v199 := k0_pay25 v142 v144
  let v201 := k0_pay26 v142 v144
  let v202 := k0_pay27 v142 v144
  let v205 := k0_pay28 v142 v144
  let v206 := k0_pay29 v142 v144
  let v227 := k0_pay32 v191 v199 v201 v202 v205 v206
  let v230 := k0_pay33 v194 v199 v201 v202 v205 v206
  let v250 := k0_pay34 v199 v201 v202 v205 v206
  let v252 := k0_pay35 v199 v201 v202 v205 v206
  let v258 := k0_pay36 v199 v201 v202 v205 v206
  let v259 := k0_pay37 v199 v201 v202 v205 v206
  let v260 : FVec F S128 .f32 := k0_pay38 (F := F)
  let v299 := k0_pay41 v227 v250 v252 v258 v259 v260
  let v302 := k0_pay42 v230 v250 v252
  let v309 := k0_pay44 v250 v252
  let v316 := k0_pay45 v250 v252
  let v317 := k0_pay46 v250 v252
  let v338 := k0_pay49 v302 v309 v316 v317
  let v358 := k0_pay50 v309 v316 v317
  let v360 := k0_pay51 v309 v316 v317
  let v371 := k0_pay52 v299 v309 v316 v317
  let v407 := k0_pay55 v358 v360 v371
  let v410 := k0_pay56 v338 v358 v360
  let v424 := k0_pay59 v358 v360
  let v427 := k0_pay60 v358 v360
  let v428 := k0_pay61 v358 v360
  let v466 := k0_pay64 v424 v427 v428
  let v468 := k0_pay65 v424 v427 v428
  let v479 := k0_pay66 v407 v424 v427 v428
  let v482 := k0_pay67 v410 v424 v427 v428
  let v515 := k0_pay70 v466 v468 v479
  let v518 := k0_pay71 v466 v468 v482
  let v538 := k0_pay72 v466 v468
  let v539 := k0_pay73 v466 v468
  let v574 := k0_pay75 v538 v539
  let v587 := k0_pay77 v515 v538 v539
  let v592 := k0_pay79 v538 v539
  let v593 := k0_pay80 v538 v539
  k0_pay82 v574 v587 v592 v593

/-- The second stored value: the accumulated logarithms, as a [1, 128, 1] block. -/
def bodyLog (v0 : Vec F S1x2048x2048 .f32) (v2 : Vec F S128x32 .i32) : FVec F S1x128x1 .f32 :=
  let v1 := k0_pay1 v0
  let v3 : IVec S1x1x2048 32 := iota .tc S1x1x2048 32 [2] iota_S1x1x2048_d2_w32
  let v19 := k0_pay2 v0 v2
  let v35 := k0_pay3 v0 v2
  let v42 := k0_pay4 v2
  let v45 := k0_pay5 v0 v2
  let v83 := k0_pay8 v1 v2 v3 v19 v35 v42 v45
  let v86 := k0_pay9 v1 v2 v3 v19 v35 v42 v45
  let v91 := k0_pay10 v1 v2 v3 v19 v35 v42 v45
  let v93 := k0_pay11 v1 v2 v3 v19 v35 v42 v45
  let v94 := k0_pay12 v1 v2 v3 v19 v35 v42 v45
  let v95 := k0_pay13 v1 v2 v3 v19 v35 v42 v45
  let v119 := k0_pay16 v83 v91 v93 v94 v95
  let v122 := k0_pay17 v86 v91 v93 v94 v95
  let v142 := k0_pay18 v91 v93 v94 v95
  let v144 := k0_pay19 v91 v93 v94 v95
  let v150 := k0_pay20 v91 v93 v94 v95
  let v191 := k0_pay23 v119 v142 v144 v150
  let v194 := k0_pay24 v122 v142 v144
  let v199 := k0_pay25 v142 v144
  let v201 := k0_pay26 v142 v144
  let v202 := k0_pay27 v142 v144
  let v205 := k0_pay28 v142 v144
  let v206 := k0_pay29 v142 v144
  let v227 := k0_pay32 v191 v199 v201 v202 v205 v206
  let v230 := k0_pay33 v194 v199 v201 v202 v205 v206
  let v250 := k0_pay34 v199 v201 v202 v205 v206
  let v252 := k0_pay35 v199 v201 v202 v205 v206
  let v258 := k0_pay36 v199 v201 v202 v205 v206
  let v259 := k0_pay37 v199 v201 v202 v205 v206
  let v260 : FVec F S128 .f32 := k0_pay38 (F := F)
  let v299 := k0_pay41 v227 v250 v252 v258 v259 v260
  let v302 := k0_pay42 v230 v250 v252
  let v309 := k0_pay44 v250 v252
  let v316 := k0_pay45 v250 v252
  let v317 := k0_pay46 v250 v252
  let v338 := k0_pay49 v302 v309 v316 v317
  let v358 := k0_pay50 v309 v316 v317
  let v360 := k0_pay51 v309 v316 v317
  let v371 := k0_pay52 v299 v309 v316 v317
  let v407 := k0_pay55 v358 v360 v371
  let v410 := k0_pay56 v338 v358 v360
  let v424 := k0_pay59 v358 v360
  let v427 := k0_pay60 v358 v360
  let v428 := k0_pay61 v358 v360
  let v466 := k0_pay64 v424 v427 v428
  let v468 := k0_pay65 v424 v427 v428
  let v479 := k0_pay66 v407 v424 v427 v428
  let v482 := k0_pay67 v410 v424 v427 v428
  let v515 := k0_pay70 v466 v468 v479
  let v518 := k0_pay71 v466 v468 v482
  let v538 := k0_pay72 v466 v468
  let v539 := k0_pay73 v466 v468
  let v574 := k0_pay75 v538 v539
  let v590 := k0_pay78 v518 v538 v539
  let v592 := k0_pay79 v538 v539
  let v593 := k0_pay80 v538 v539
  k0_pay83 v574 v590 v592 v593

/-- The kernel function is seven memory operations over the two stored values. -/
theorem body_eq (i : grid0.Coords) (arg2 : Memref sig .tc .vmem S1x2048x2048 .f32) (harg2 : arg2.IsWhole) (arg3 : Memref sig .tc .vmem S128x32 .i32) (harg3 : arg3.IsWhole) (arg4 : Memref sig .tc .vmem S1x128x1 .f32) (harg4 : arg4.IsWhole) (arg5 : Memref sig .tc .vmem S1x128x1 .f32) (harg5 : arg5.IsWhole) :
    cc0__gather_pf_kernel (F := F) i arg2 harg2 arg3 harg3 arg4 harg4 arg5 harg5 = (do
      let v0 : Vec F S1x2048x2048 .f32 ← Prog.lift (.load arg2 (Rect.unit (s := S1x2048x2048) ![0, 0, 0] S1x2048x2048.size inb_S1x2048x2048_S1x2048x2048_0_0_0).toLoadRect (View.loadsAt_vmem h_S1x2048x2048))
      let v2 : Vec F S128x32 .i32 ← Prog.lift (.load arg3 (Rect.unit (s := S128x32) ![0, 0] S128x32.size inb_S128x32_S128x32_0_0).toLoadRect (View.loadsAt_vmem h_S128x32))
      let _v627 : Vec F S1x128x1 .f32 ← Prog.lift (.load arg4 (Rect.unit (s := S1x128x1) ![0, 0, 0] S1x128x1.size inb_S1x128x1_S1x128x1_0_0_0).toLoadRect (View.loadsAt_vmem h_S1x128x1))
      Prog.lift (.store arg4 (Rect.unit (s := S1x128x1) ![0, 0, 0] S1x128x1.size inb_S1x128x1_S1x128x1_0_0_0) (Cert.Kernel.Body.bodySign v0 v2) Finset.univ (View.stores_vmem_bits_univ h_S1x128x1 rfl) (.inl rfl))
      let _v630 : Vec F S1x128x1 .f32 ← Prog.lift (.load arg5 (Rect.unit (s := S1x128x1) ![0, 0, 0] S1x128x1.size inb_S1x128x1_S1x128x1_0_0_0).toLoadRect (View.loadsAt_vmem h_S1x128x1))
      Prog.lift (.store arg5 (Rect.unit (s := S1x128x1) ![0, 0, 0] S1x128x1.size inb_S1x128x1_S1x128x1_0_0_0) (Cert.Kernel.Body.bodyLog v0 v2) Finset.univ (View.stores_vmem_bits_univ h_S1x128x1 rfl) (.inl rfl))
      pure ⟨⟩ : Prog (TpuEff nD τ sig (Elt F) Λ₀ .tc) PUnit) := by
  simp only [cc0__gather_pf_kernel_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  rfl

end Cert.Kernel.Body

end
-- ==== Proof.KBody.lean ====
/-
  The kernel body's two stored values as functions of its two loads.

  The body loads one [1, 2048, 2048] slab of the table and one [128, 32] block of indices, builds the 128 gathered
  antisymmetrised matrices with the batch on the lanes, runs the sixteen pivots of the elimination and stores the
  accumulated signs and logarithms as two [1, 128, 1] blocks. Here the chain of intermediate values is written out
  once, each value named as in the printed body, so that what each value holds at a lane can be stated and proved
  one value at a time.
-/
import proofs.«416707_j11175504904264_4_alg».proof.Proof.Gen.KernelIdeal.Skeleton

noncomputable section

namespace Cert.KernelIdeal.Body

open Cert.KernelIdeal Cert.KernelIdeal.Gen Idealize.ShloMosaic

variable {F : FTy → Type} [FloatOps F]

/-- The lane numbers 0 … 2047 along the last axis, which the one-hot test compares the indices with. -/
abbrev iota3 : IVec S1x1x2048 32 := iota .tc S1x1x2048 32 [2] iota_S1x1x2048_d2_w32

/-- The 128 gathered matrices, [32, 32, 128], from the two loads. -/
def A0 (v0 : Vec F S1x2048x2048 .f32) (v2 : Vec F S128x32 .i32) : FVec F S32x32x128 .f32 :=
  k0_pay7 (k0_pay2 v0) v2 iota3 (k0_pay3 v0 v2) (k0_pay4 v0 v2) (k0_pay5 v2) (k0_pay6 v0 v2)

/-- The accumulated signs as stored: the [1, 128, 1] block the body writes to its first output. -/
def bodySign (v0 : Vec F S1x2048x2048 .f32) (v2 : Vec F S128x32 .i32) : FVec F S1x128x1 .f32 :=
  let v1 := k0_pay2 v0
  let v3 : IVec S1x1x2048 32 := iota3
  let v19 := k0_pay3 v0 v2
  let v35 := k0_pay4 v0 v2
  let v42 := k0_pay5 v2
  let v45 := k0_pay6 v0 v2
  let v83 := k0_pay9 v1 v2 v3 v19 v35 v42 v45
  let v91 := k0_pay11 v1 v2 v3 v19 v35 v42 v45
  let v93 := k0_pay12 v1 v2 v3 v19 v35 v42 v45
  let v94 := k0_pay13 v1 v2 v3 v19 v35 v42 v45
  let v97 := k0_pay14 v1 v2 v3 v19 v35 v42 v45
  let v98 := k0_pay15 v1 v2 v3 v19 v35 v42 v45
  let v142 := k0_pay18 v91 v93 v94 v97 v98
  let v144 := k0_pay19 v91 v93 v94 v97 v98
  let v155 := k0_pay20 v83 v91 v93 v94 v97 v98
  let v191 := k0_pay24 v142 v144 v155
  let v214 := k0_pay26 v142 v144
  let v216 := k0_pay27 v142 v144
  let v263 := k0_pay30 v191 v214 v216
  let v271 := k0_pay32 v214 v216
  let v273 := k0_pay33 v214 v216
  let v274 := k0_pay34 v214 v216
  let v277 := k0_pay35 v214 v216
  let v278 := k0_pay36 v214 v216
  let v322 := k0_pay39 v271 v273 v274 v277 v278
  let v324 := k0_pay40 v271 v273 v274 v277 v278
  let v335 := k0_pay41 v263 v271 v273 v274 v277 v278
  let v371 := k0_pay45 v322 v324 v335
  let v394 := k0_pay47 v322 v324
  let v396 := k0_pay48 v322 v324
  let v443 := k0_pay51 v371 v394 v396
  let v451 := k0_pay53 v394 v396
  let v453 := k0_pay54 v394 v396
  let v454 := k0_pay55 v394 v396
  let v457 := k0_pay56 v394 v396
  let v458 := k0_pay57 v394 v396
  let v502 := k0_pay60 v451 v453 v454 v457 v458
  let v504 := k0_pay61 v451 v453 v454 v457 v458
  let v515 := k0_pay62 v443 v451 v453 v454 v457 v458
  let v551 := k0_pay66 v502 v504 v515
  let v574 := k0_pay68 v502 v504
  let v576 := k0_pay69 v502 v504
  k0_pay72 v551 v574 v576

/-- The accumulated logarithms as stored: the [1, 128, 1] block the body writes to its second output. -/
def bodyLog (v0 : Vec F S1x2048x2048 .f32) (v2 : Vec F S128x32 .i32) : FVec F S1x128x1 .f32 :=
  let v1 := k0_pay2 v0
  let v3 : IVec S1x1x2048 32 := iota3
  let v19 := k0_pay3 v0 v2
  let v35 := k0_pay4 v0 v2
  let v42 := k0_pay5 v2
  let v45 := k0_pay6 v0 v2
  let v86 := k0_pay10 v1 v2 v3 v19 v35 v42 v45
  let v91 := k0_pay11 v1 v2 v3 v19 v35 v42 v45
  let v93 := k0_pay12 v1 v2 v3 v19 v35 v42 v45
  let v94 := k0_pay13 v1 v2 v3 v19 v35 v42 v45
  let v97 := k0_pay14 v1 v2 v3 v19 v35 v42 v45
  let v98 := k0_pay15 v1 v2 v3 v19 v35 v42 v45
  let v142 := k0_pay18 v91 v93 v94 v97 v98
  let v144 := k0_pay19 v91 v93 v94 v97 v98
  let v158 := k0_pay21 v86 v91 v93 v94 v97 v98
  let v194 := k0_pay25 v142 v144 v158
  let v214 := k0_pay26 v142 v144
  let v216 := k0_pay27 v142 v144
  let v266 := k0_pay31 v194 v214 v216
  let v271 := k0_pay32 v214 v216
  let v273 := k0_pay33 v214 v216
  let v274 := k0_pay34 v214 v216
  let v277 := k0_pay35 v214 v216
  let v278 := k0_pay36 v214 v216
  let v322 := k0_pay39 v271 v273 v274 v277 v278
  let v324 := k0_pay40 v271 v273 v274 v277 v278
  let v338 := k0_pay42 v266 v271 v273 v274 v277 v278
  let v374 := k0_pay46 v322 v324 v338
  let v394 := k0_pay47 v322 v324
  let v396 := k0_pay48 v322 v324
  let v446 := k0_pay52 v374 v394 v396
  let v451 := k0_pay53 v394 v396
  let v453 := k0_pay54 v394 v396
  let v454 := k0_pay55 v394 v396
  let v457 := k0_pay56 v394 v396
  let v458 := k0_pay57 v394 v396
  let v502 := k0_pay60 v451 v453 v454 v457 v458
  let v504 := k0_pay61 v451 v453 v454 v457 v458
  let v518 := k0_pay63 v446 v451 v453 v454 v457 v458
  let v554 := k0_pay67 v502 v504 v518
  let v574 := k0_pay68 v502 v504
  let v576 := k0_pay69 v502 v504
  k0_pay1 (k0_pay71 v554 v574 v576)

end Cert.KernelIdeal.Body

end
-- ==== Proof.KBodyEq.lean ====
/-
  The idealized kernel function as its memory operations.

  Between its two loads and its two stores the kernel function only computes: every part of its printed body but
  the first and the last is a pure tuple of values. So the function is: load the table slab, load the index block,
  then for each output load its buffer (the value is not used) and store the chain's value (KBody.lean). The
  equation holds by unfolding alone.
-/
import proofs.«416707_j11175504904264_4_alg».proof.Proof.KBody

set_option maxRecDepth 65536

noncomputable section

namespace Cert.KernelIdeal.Body

open Cert.KernelIdeal Cert.KernelIdeal.Gen Idealize.ShloMosaic Idealize.SL.Sem

variable {F : FTy → Type} [FloatOps F]

/-- The kernel function is seven memory operations over the two stored values. -/
theorem body_eq (i : grid0.Coords) (arg2 : Memref sig .tc .vmem S1x2048x2048 .f32) (harg2 : arg2.IsWhole) (arg3 : Memref sig .tc .vmem S128x32 .i32) (harg3 : arg3.IsWhole) (arg4 : Memref sig .tc .vmem S1x128x1 .f32) (harg4 : arg4.IsWhole) (arg5 : Memref sig .tc .vmem S1x128x1 .f32) (harg5 : arg5.IsWhole) :
    cc0__gather_pf_kernel (F := F) i arg2 harg2 arg3 harg3 arg4 harg4 arg5 harg5 = (do
      let v0 : Vec F S1x2048x2048 .f32 ← Prog.lift (.load arg2 (Rect.unit (s := S1x2048x2048) ![0, 0, 0] S1x2048x2048.size inb_S1x2048x2048_S1x2048x2048_0_0_0).toLoadRect (View.loadsAt_vmem h_S1x2048x2048))
      let v2 : Vec F S128x32 .i32 ← Prog.lift (.load arg3 (Rect.unit (s := S128x32) ![0, 0] S128x32.size inb_S128x32_S128x32_0_0).toLoadRect (View.loadsAt_vmem h_S128x32))
      let _v627 : Vec F S1x128x1 .f32 ← Prog.lift (.load arg4 (Rect.unit (s := S1x128x1) ![0, 0, 0] S1x128x1.size inb_S1x128x1_S1x128x1_0_0_0).toLoadRect (View.loadsAt_vmem h_S1x128x1))
      Prog.lift (.store arg4 (Rect.unit (s := S1x128x1) ![0, 0, 0] S1x128x1.size inb_S1x128x1_S1x128x1_0_0_0) (Cert.KernelIdeal.Body.bodySign v0 v2) Finset.univ (View.stores_vmem_bits_univ h_S1x128x1 rfl) (.inl rfl))
      let _v630 : Vec F S1x128x1 .f32 ← Prog.lift (.load arg5 (Rect.unit (s := S1x128x1) ![0, 0, 0] S1x128x1.size inb_S1x128x1_S1x128x1_0_0_0).toLoadRect (View.loadsAt_vmem h_S1x128x1))
      Prog.lift (.store arg5 (Rect.unit (s := S1x128x1) ![0, 0, 0] S1x128x1.size inb_S1x128x1_S1x128x1_0_0_0) (Cert.KernelIdeal.Body.bodyLog v0 v2) Finset.univ (View.stores_vmem_bits_univ h_S1x128x1 rfl) (.inl rfl))
      pure ⟨⟩ : Prog (TpuEff nD τ sig (Elt F) Λ₀ .tc) PUnit) := by
  simp only [cc0__gather_pf_kernel_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  rfl

end Cert.KernelIdeal.Body

end
-- ==== Proof.Pre.lean ====
/-
  What the precondition says of the indices.

  The precondition is the conjunction of "every table entry is finite" and "every index i satisfies 0 ≤ i and
  i < 2048, read signed". A conjunction of bits is 1 only if both are; an all-reduce by 'and' is 1 only if every
  element is; and a 32-bit word that is non-negative and below 2048 when read signed is below 2048 when read
  unsigned. So under the precondition every index word, as a natural number, is a row of the table.
-/
import proofs.«416707_j11175504904264_4_alg».proof.Pre_finite_inputs
import Idealize.ShloMosaic.Lib.ReduceAll
import Idealize.ShloMosaic.Lib.ValueIdx
import Idealize.ShloMosaic.Lib.StableHlo.Predicate

noncomputable section

namespace Cert.PreRead

open Idealize.ShloMosaic Idealize.ShloMosaic.ValueIdx Cert.Pre_finite_inputs

/-- A word that is ≥ 0 and < 2048 as a signed number is < 2048 as a natural number. -/
theorem word_in_range (a : BitVec 32) (h0 : IntOp.cmpi .sge a 0#32 = 1#1) (h1 : IntOp.cmpi .slt a 2048#32 = 1#1) :
    a.toNat < 2048 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (2048#32 : BitVec 32).toInt = 2048 := by decide
  rw [e0] at h0
  rw [e1] at h1
  have hlt := a.isLt
  rw [BitVec.toInt_eq_toNat_cond] at h0 h1
  split_ifs at h0 h1 <;> omega

instance : Subsingleton S_.Idx := ⟨fun a b => funext fun d => d.elim0⟩

/-- Under the precondition every index word is below 2048. -/
theorem idx_range {F : FTy → Type} [FloatOps F] [Facts] (A : FVec F S16x2048x2048 .f32) (I : IVec S2048x32 32)
    (h : fn (F := F) A I = fun _ => 1#1) (b : Fin 2048) (n : Fin 32) : (I (ix2 b n)).toNat < 2048 := by
  have h1 := congrFun h ix0
  dsimp only [fn] at h1
  obtain ⟨-, h9⟩ := IntOp.andi_eq_one.1 h1
  have h8 := Host.reduce_andi_all _ _ _ _ ix0 h9 (ix2 b n)
  obtain ⟨hge, hlt⟩ := IntOp.andi_eq_one.1 h8
  exact word_in_range _ hge hlt

end Cert.PreRead

end
-- ==== Proof.PfSpec.lean ====
/-
  The Pfaffian elimination as mathematics, shared by both programs.

  A skew matrix of even size is reduced two rows and two columns at a time (Parlett-Reid): with pivot
  p = M 0 1, multipliers tau j = M 0 (j+2) / p and second row v i = M 1 (i+2), the trailing block becomes
  M (i+2) (j+2) + v i * tau j - tau i * v j. The sign and the logarithm of |pf| accumulate sign p and
  log |p| over the pivots. Matrices are indexed by natural numbers so that the sixteen sizes 32, 30, ... , 2
  share one definition; every operation is the extended reals' own (a quotient by zero, the logarithm of
  zero and products with an infinity take the values the extended-real operations give them, the same on both sides).

  The matrix eliminated is a submatrix of an antisymmetrised table: rows and columns picked by an index
  vector, `sub0`. One program keeps a batch of matrices as an array [N, N, L] with the batch last (`KRep`),
  the other as [B, P, N, N] with the batch first (`RRep`).
-/
import Idealize.ShloMosaic.PureOps.Ideal
import Idealize.ShloMosaic.Lib.ValueIdx

noncomputable section

namespace Cert.Pf

open Idealize.ShloMosaic Idealize.ShloMosaic.ValueIdx

/-! ## The elimination on matrices of extended reals -/

/-- The multiplier of column j+2: the first row's entry over the pivot. -/
def tau (M : ℕ → ℕ → EReal) (j : ℕ) : EReal := Ideal.div (M 0 (j + 2)) (M 0 1)

/-- One elimination step: the trailing block after rows and columns 0 and 1 are eliminated. -/
def next (M : ℕ → ℕ → EReal) : ℕ → ℕ → EReal := fun i j =>
  M (i + 2) (j + 2) + M 1 (i + 2) * tau M j - tau M i * M 1 (j + 2)

/-- The matrix after k steps. -/
def Mk (M0 : ℕ → ℕ → EReal) : ℕ → ℕ → ℕ → EReal
  | 0 => M0
  | k + 1 => next (Mk M0 k)

/-- The sign of a pivot: -1, 0 or 1 by the order. -/
def sg (x : EReal) : EReal := Ideal.sign x

/-- The logarithm of a pivot's magnitude. -/
def lg (x : EReal) : EReal := Ideal.log (FloatOps.absf (F := Ideal) (φ := FTy.f32) x)

/-- The accumulated sign after k pivots, from the starting value `one`. -/
def sgnAt (one : EReal) (M0 : ℕ → ℕ → EReal) : ℕ → EReal
  | 0 => one
  | k + 1 => sgnAt one M0 k * sg (Mk M0 k 0 1)

/-- The accumulated logarithm after k pivots, from the starting value `zero`. -/
def logAt (zero : EReal) (M0 : ℕ → ℕ → EReal) : ℕ → EReal
  | 0 => zero
  | k + 1 => logAt zero M0 k + lg (Mk M0 k 0 1)

/-- Rows and columns `ix 0, ix 1, ...` of the antisymmetrised table: half the difference of an entry and its mirror. -/
def sub0 (half : EReal) (G : ℕ → ℕ → EReal) (ix : ℕ → ℕ) : ℕ → ℕ → EReal :=
  fun i j => half * (G (ix i) (ix j) - G (ix j) (ix i))

/-! ## A batch of matrices as an array -/

abbrev K1 (a : ℕ) : Shape := ⟨1, ![a]⟩
abbrev K2 (a b : ℕ) : Shape := ⟨2, ![a, b]⟩
abbrev K3 (a b c : ℕ) : Shape := ⟨3, ![a, b, c]⟩
abbrev K4 (a b c d : ℕ) : Shape := ⟨4, ![a, b, c, d]⟩

/-- Lane l of the [N, N, L] array A is the matrix M. -/
def KRep (N L : ℕ) (A : FVec Ideal (K3 N N L) .f32) (l : Fin L) (M : ℕ → ℕ → EReal) : Prop :=
  ∀ i j : Fin N, A (ix3 i j l) = M i.val j.val

/-- Lane l of the [n, L] array v is the vector f. -/
def VRep (n L : ℕ) (v : FVec Ideal (K2 n L) .f32) (l : Fin L) (f : ℕ → EReal) : Prop :=
  ∀ j : Fin n, v (ix2 j l) = f j.val

/-- Entry (b, p) of the [B, P, N, N] array A is the matrix M. -/
def RRep (B P N : ℕ) (A : FVec Ideal (K4 B P N N) .f32) (b : Fin B) (p : Fin P) (M : ℕ → ℕ → EReal) : Prop :=
  ∀ i j : Fin N, A (ix4 b p i j) = M i.val j.val

/-- Entry (b, p) of the [B, P, n] array v is the vector f. -/
def RVRep (B P n : ℕ) (v : FVec Ideal (K3 B P n) .f32) (b : Fin B) (p : Fin P) (f : ℕ → EReal) : Prop :=
  ∀ j : Fin n, v (ix3 b p j) = f j.val

/-! ## The table, the index rows and the literal words -/

/-- The word of 1.0, the sign's starting value. -/
abbrev one : EReal := Ideal.ofBits .f32 0x3F800000#32
/-- The word of 0.0, the logarithm's starting value. -/
abbrev zero : EReal := Ideal.ofBits .f32 0x00000000#32
/-- The word of 0.5, the antisymmetrisation's factor. -/
abbrev half : EReal := Ideal.ofBits .f32 0x3F000000#32

/-- Slab p of a [P, R, C] table as a matrix on the naturals (0 outside the table). -/
def tab {P R C : ℕ} (T : FVec Ideal (K3 P R C) .f32) (p : Fin P) : ℕ → ℕ → EReal :=
  fun a b => if h : a < R ∧ b < C then T (ix3 p ⟨a, h.1⟩ ⟨b, h.2⟩) else 0

/-- Row b of a [B, E] array of 32-bit indices, read as naturals (0 past the row's end). -/
def idxRow {B E : ℕ} (I : IVec (K2 B E) 32) (b : Fin B) : ℕ → ℕ :=
  fun n => if h : n < E then (I (ix2 b ⟨n, h⟩)).toNat else 0

/-- The matrix both programs eliminate for table slab p and index row b. -/
def M0 {P R C B E : ℕ} (T : FVec Ideal (K3 P R C) .f32) (I : IVec (K2 B E) 32) (p : Fin P) (b : Fin B) : ℕ → ℕ → EReal :=
  sub0 half (tab T p) (idxRow I b)

end Cert.Pf

end
-- ==== Proof.LibOneHot.lean ====
/-
  ONE-HOT ROWS, THE PRODUCT THAT CONTRACTS THE ROW AXIS, AND ROWS SUMMED BLOCK BY BLOCK.

  A column v of n words, compared with the column number along T columns, is the 0/1 matrix whose row r has its one in
  column v r (oneHot_apply: entry (r, t) is 1 when v r is the word of t, else 0). Two uses:

  * a one-hot row selects a row of a table: the sum over t of onehot (r, t) table (t, d) is table (v r, d) when the word
    v r is below T (sum_oneHot_mul, sum_oneHot_mul_toNat);
  * the product of a matrix [n, B] with a matrix [n, D] that contracts the ROW axis of both (the transpose of the first
    times the second) has entry (b, q) the sum over rows i of left (i, b) right (i, q) (matmul_rows_apply); with a
    one-hot left operand that is the sum of the rows of the right operand whose word is b.

  Last, nb blocks of bs rows are the nb bs rows: summing block by block, or block after block up to the last, is summing
  over all the rows (sum_blocks, sum_range_blocks).

  Generic in the extents; a program's dimension numbers enter through an equation with the record rowsContracted.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.LibOneHot

open Idealize.ShloMosaic Idealize.ShloMosaic.ValueIdx

/-! ## A column broadcast along the columns -/

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot matrix of a column of words -/

/-- The 0/1 word of an equality test, read as a signed integer and then as an extended real, is 1 or 0. -/
theorem sitofp_extui_cmpi_eq (x y : BitVec 32) (hlt : 1 < 32) :
    FloatOps.sitofp (F := Ideal) .f32 ((IntOp.cmpi .eq x y).setWidth 32) = if x = y then (1 : EReal) else 0 := by
  show (((BitVec.setWidth 32 (BitVec.ofBool (x == y))).toInt : ℝ) : EReal) = _
  by_cases h : x = y
  · rw [if_pos h, h, beq_self_eq_true]
    have e : (BitVec.setWidth 32 (BitVec.ofBool true)).toInt = 1 := by decide
    rw [e]; simp
  · rw [if_neg h, (beq_eq_false_iff_ne).2 h]
    have e : (BitVec.setWidth 32 (BitVec.ofBool false)).toInt = 0 := by decide
    rw [e]; simp

/-- Entry (r, t) of the one-hot matrix of the column v: 1 when v r is the word of t, else 0. -/
theorem oneHot_apply {n T : Nat}
    (hc : (⟨2, ![n, 1]⟩ : Shape).ShapeCasts ⟨2, ![n, 1]⟩) (hb : (⟨2, ![n, 1]⟩ : Shape).Broadcasts ⟨2, ![n, T]⟩)
    (hi : (⟨2, ![n, T]⟩ : Shape).Iotas .tc 32 [1]) (hlt : 1 < 32)
    (v : IVec ⟨2, ![n, 1]⟩ 32) (r : Fin n) (t : Fin T) :
    (sitofp .f32 (extui 32 (cmpi .eq (broadcastTo ⟨2, ![n, T]⟩ (shapeCast ⟨2, ![n, 1]⟩ v hc) hb)
        (iota .tc ⟨2, ![n, T]⟩ 32 [1] hi)) hlt) : FVec Ideal ⟨2, ![n, T]⟩ .f32) (ix2 r t)
      = if v (ix2 r (0 : Fin 1)) = BitVec.ofNat 32 t.val then (1 : EReal) else 0 := by
  rw [sitofp_apply, extui_apply]
  show FloatOps.sitofp (F := Ideal) .f32 ((IntOp.cmpi .eq
      (broadcastTo ⟨2, ![n, T]⟩ (shapeCast ⟨2, ![n, 1]⟩ v hc) hb (ix2 r t))
      (iota .tc ⟨2, ![n, T]⟩ 32 [1] hi (ix2 r t))).setWidth 32) = _
  rw [shapeCast_self, broadcastTo_a1_ab_apply, iota_single_apply, sitofp_extui_cmpi_eq _ _ hlt]
  rfl

/-! ## A one-hot row selects a row of a table -/

/-- The word of a column number below 2^32 is that number. -/
theorem toNat_ofNat_of_lt {T : Nat} (hT : T ≤ 2 ^ 32) (t : Fin T) : (BitVec.ofNat 32 t.val).toNat = t.val := by
  rw [BitVec.toNat_ofNat]
  exact Nat.mod_eq_of_lt (lt_of_lt_of_le t.isLt hT)

/-- The sum over t of onehot (t) f (t) is f (k) when the word is the word of k. -/
theorem sum_oneHot_mul {T : Nat} (hT : T ≤ 2 ^ 32) (x : BitVec 32) (k : Fin T) (hx : x = BitVec.ofNat 32 k.val)
    (f : Fin T → EReal) :
    ∑ t : Fin T, (if x = BitVec.ofNat 32 t.val then (1 : EReal) else 0) * f t = f k := by
  rw [Finset.sum_eq_single k]
  · rw [if_pos hx, one_mul]
  · intro t _ htk
    have hne : x ≠ BitVec.ofNat 32 t.val := fun h => htk (Fin.ext (by
      have := congrArg BitVec.toNat (hx.symm.trans h)
      rw [toNat_ofNat_of_lt hT, toNat_ofNat_of_lt hT] at this
      exact this.symm))
    rw [if_neg hne, zero_mul]
  · intro h; exact absurd (Finset.mem_univ k) h

/-- The same, the column named by the word's value. -/
theorem sum_oneHot_mul_toNat {T : Nat} (hT : T ≤ 2 ^ 32) (x : BitVec 32) (hx : x.toNat < T) (f : Fin T → EReal) :
    ∑ t : Fin T, (if x = BitVec.ofNat 32 t.val then (1 : EReal) else 0) * f t = f ⟨x.toNat, hx⟩ :=
  sum_oneHot_mul hT x ⟨x.toNat, hx⟩ (by simp) f

/-! ## The product that contracts the row axis of both operands -/

section Rows

variable {n B D : Nat}

/-- The dimension numbers of [n, B] by [n, D] contracting the rows of both: the transpose of the left times the right. -/
def rowsContracted (n B D : Nat) : DotDims ⟨2, ![n, B]⟩ ⟨2, ![n, D]⟩ ⟨2, ![B, D]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

/-- The left operand is read at the contraction position and the result's row … -/
theorem rows_lhsIdx (b : Fin B) (q : Fin D) (i : Fin n) :
    (rowsContracted n B D).lhsIdx (ix2 b q) ((contrEquiv1 (rowsContracted n B D) n rfl rfl).symm i) = ix2 i b := by
  have hk := contrEquiv1_symm_val (rowsContracted n B D) n rfl rfl i
  funext a
  refine Fin.ext ?_
  match a with
  | ⟨0, _⟩ =>
    exact ((rowsContracted n B D).lhsIdx_val_of_single (cl := 0) rfl (ix2 b q) _).trans hk
  | ⟨1, _⟩ =>
    show ((rowsContracted n B D).lhsIdx (ix2 b q) _ 1).val = b.val
    unfold DotDims.lhsIdx
    rw [dif_neg (show ¬(1 : Fin (⟨2, ![n, B]⟩ : Shape).rank) ∈ (rowsContracted n B D).lhsBatch from List.not_mem_nil),
      dif_pos (show (1 : Fin (⟨2, ![n, B]⟩ : Shape).rank) ∈ (rowsContracted n B D).lhsNonContracting from List.mem_singleton.mpr rfl)]
    rfl

/-- … and the right operand at the contraction position and the result's column. -/
theorem rows_rhsIdx (b : Fin B) (q : Fin D) (i : Fin n) :
    (rowsContracted n B D).rhsIdx (ix2 b q) ((contrEquiv1 (rowsContracted n B D) n rfl rfl).symm i) = ix2 i q := by
  have hk := contrEquiv1_symm_val (rowsContracted n B D) n rfl rfl i
  funext a
  refine Fin.ext ?_
  match a with
  | ⟨0, _⟩ =>
    exact ((rowsContracted n B D).rhsIdx_val_of_single (cr := 0) rfl (ix2 b q) _).trans hk
  | ⟨1, _⟩ =>
    show ((rowsContracted n B D).rhsIdx (ix2 b q) _ 1).val = q.val
    unfold DotDims.rhsIdx
    rw [dif_neg (show ¬(1 : Fin (⟨2, ![n, D]⟩ : Shape).rank) ∈ (rowsContracted n B D).rhsBatch from List.not_mem_nil),
      dif_pos (show (1 : Fin (⟨2, ![n, D]⟩ : Shape).rank) ∈ (rowsContracted n B D).rhsNonContracting from List.mem_singleton.mpr rfl)]
    rfl

/-- The matrix unit's row-contracting product into a zero accumulator, at entry (b, q): the sum over the rows i of
    left (i, b) right (i, q). -/
theorem matmul_rows_apply {φ₁ φ₂ : FTy} (d : DotDims ⟨2, ![n, B]⟩ ⟨2, ![n, D]⟩ ⟨2, ![B, D]⟩) (hd : d = rowsContracted n B D)
    (prec : Option ContractPrecision) (l : FVec Ideal ⟨2, ![n, B]⟩ φ₁) (r : FVec Ideal ⟨2, ![n, D]⟩ φ₂) (b : Fin B) (q : Fin D) :
    FloatOps.matmul d prec l r (constant ⟨2, ![B, D]⟩ .f32 0x00000000#32) (ix2 b q) = ∑ i : Fin n, l (ix2 i b) * r (ix2 i q) := by
  subst hd
  rw [Ideal.matmul_constant_zero_apply, ← Equiv.sum_comp (contrEquiv1 (rowsContracted n B D) n rfl rfl).symm]
  refine Finset.sum_congr rfl fun i _ => ?_
  rw [rows_lhsIdx, rows_rhsIdx]

end Rows

/-! ## Rows summed block by block -/

/-- nb blocks of bs rows are the nb bs rows: the sum over the blocks of each block's sum is the sum over all rows. -/
theorem sum_blocks {M : Type*} [AddCommMonoid M] (nb bs : Nat) (f : Nat → M) :
    ∑ t : Fin nb, ∑ r : Fin bs, f (bs * t.val + r.val) = ∑ m : Fin (nb * bs), f m.val := by
  rw [← Equiv.sum_comp (finProdFinEquiv (m := nb) (n := bs)) (fun m => f m.val), Fintype.sum_prod_type]
  refine Finset.sum_congr rfl fun t _ => Finset.sum_congr rfl fun r _ => ?_
  show f (bs * t.val + r.val) = f (r.val + bs * t.val)
  rw [Nat.add_comm]

/-- Block after block up to the last: the sum over the first nb blocks, as a sum over a range, is the sum over all rows. -/
theorem sum_range_blocks {M : Type*} [AddCommMonoid M] (nb bs : Nat) (f : Nat → M) :
    ∑ t ∈ Finset.range nb, ∑ r : Fin bs, f (bs * t + r.val) = ∑ m : Fin (nb * bs), f m.val := by
  rw [← sum_blocks nb bs f, Finset.sum_range]

end Cert.LibOneHot

end
-- ==== Proof.KGather.lean ====
/-
  The gathered matrices: lane l of the kernel's [32, 32, 128] array is the antisymmetrised table at index row l's pairs.

  The 128 index rows are handled in four blocks of 32 rows; row l is row l % 32 of block l / 32. For one block ic
  (a [32, 32] array of index words) the kernel builds
    * the one-hot  oh[b, n, f] = 1 where the word ic[b, n] is the word of f, else 0          ([32, 32, 2048]);
    * the selected rows  rs[(b, n), f] = the sum over g of oh[b, n, g] * table[g, f] = table[ic[b, n], f]: one term
      of the sum is 1 * x and every other term is 0 * x = 0, which holds for every extended real x, the infinities
      included, so nothing is asked of the table's entries; the index only has to be below the table's 2048 rows;
    * the pairs  s[b, n, m] = the sum over f of rs[b, n, f] * oh[b, m, f] = table[ic[b, n], ic[b, m]], the same way;
    * half the difference of s and its mirror on the last two axes, with the block's row axis moved last:
      entry (n, m, b) is half * (table[ic[b, n], ic[b, m]] - table[ic[b, m], ic[b, n]]).
  The four blocks are laid side by side along the last axis, so lane l = 32 c + b reads block c at lane b, and block c's
  index rows are rows 32 c … 32 c + 31 of the index array. The table is the loaded slab with its unit axis dropped.
  Together: entry (n, m, l) is half * (slab[0, idx[l, n], idx[l, m]] - slab[0, idx[l, m], idx[l, n]]), the matrix
  M0 of PfSpec.lean, as soon as every index of row l is below 2048.
-/
import proofs.«416707_j11175504904264_4_alg».proof.Proof.PfSpec
import proofs.«416707_j11175504904264_4_alg».proof.Proof.KBody
import proofs.«416707_j11175504904264_4_alg».proof.Proof.LibOneHot
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Cert.KernelIdeal.Body Cert.Pf Idealize.ShloMosaic Idealize.ShloMosaic.ValueIdx

/-! ## The two products' dimension numbers: which entries of the operands a term of the sum reads -/

/-- [1024, 2048] times [2048, 2048]: the left operand's columns against the right operand's rows. -/
abbrev dP := dot_S1024x2048_S2048x2048_S1024x2048_1_0_0_1_n_n
/-- [32, 32, 2048] against [32, 32, 2048], the first axis a batch axis, the last axes contracted. -/
abbrev dB := dot_S32x32x2048_S32x32x2048_S32x32x32_2_2_1_1_0_0

/-- Entry (r, f) of the plain product reads the left operand at (r, g) … -/
theorem dP_lhsIdx (r : Fin 1024) (f g : Fin 2048) :
    dP.lhsIdx (ix2 r f) ((contrEquiv1 dP 2048 rfl rfl).symm g) = ix2 r g := by
  funext a
  refine Fin.ext ?_
  match a with
  | ⟨0, _⟩ => rfl
  | ⟨1, _⟩ => exact (dP.lhsIdx_val_of_single (cl := 1) rfl (ix2 r f) _).trans (contrEquiv1_symm_val dP 2048 rfl rfl g)

/-- … and the right operand at (g, f). -/
theorem dP_rhsIdx (r : Fin 1024) (f g : Fin 2048) :
    dP.rhsIdx (ix2 r f) ((contrEquiv1 dP 2048 rfl rfl).symm g) = ix2 g f := by
  funext a
  refine Fin.ext ?_
  match a with
  | ⟨0, _⟩ => exact (dP.rhsIdx_val_of_single (cr := 0) rfl (ix2 r f) _).trans (contrEquiv1_symm_val dP 2048 rfl rfl g)
  | ⟨1, _⟩ => rfl

/-- Entry (b, n, m) of the batched product reads the left operand at (b, n, g) … -/
theorem dB_lhsIdx (b n m : Fin 32) (g : Fin 2048) :
    dB.lhsIdx (ix3 b n m) ((contrEquiv1 dB 2048 rfl rfl).symm g) = ix3 b n g := by
  funext a
  refine Fin.ext ?_
  match a with
  | ⟨0, _⟩ => rfl
  | ⟨1, _⟩ => rfl
  | ⟨2, _⟩ => exact (dB.lhsIdx_val_of_single (cl := 2) rfl (ix3 b n m) _).trans (contrEquiv1_symm_val dB 2048 rfl rfl g)

/-- … and the right operand at (b, m, g). -/
theorem dB_rhsIdx (b n m : Fin 32) (g : Fin 2048) :
    dB.rhsIdx (ix3 b n m) ((contrEquiv1 dB 2048 rfl rfl).symm g) = ix3 b m g := by
  funext a
  refine Fin.ext ?_
  match a with
  | ⟨0, _⟩ => rfl
  | ⟨1, _⟩ => rfl
  | ⟨2, _⟩ => exact (dB.rhsIdx_val_of_single (cr := 2) rfl (ix3 b n m) _).trans (contrEquiv1_symm_val dB 2048 rfl rfl g)

/-! ## The values of one block of 32 index rows -/

/-- The one-hot of a block of index rows: entry (b, n, f) is 1 where the index word at (b, n) is the word of f, else 0. -/
def oneHot (ic : IVec S32x32 32) : FVec Ideal S32x32x2048 .f32 :=
  sitofp .f32 (extui 32 (cmpi .eq
    (broadcastTo S32x32x2048 (shapeCast S32x32x1 ic shapeCasts_S32x32_S32x32x1) broadcasts_S32x32x1_S32x32x2048)
    (broadcastTo S32x32x2048 iota3 broadcasts_S1x1x2048_S32x32x2048)) natLt_1_32)

/-- The table rows the one-hot selects: the one-hot as [1024, 2048] times the table, back as [32, 32, 2048]. -/
def rowsSel (o : FVec Ideal S32x32x2048 .f32) (v1 : FVec Ideal S2048x2048 .f32) : FVec Ideal S32x32x2048 .f32 :=
  shapeCast S32x32x2048
    (matmul dP (some .fp32) (shapeCast S1024x2048 o shapeCasts_S32x32x2048_S1024x2048) v1 (constant S1024x2048 .f32 0x00000000#32))
    shapeCasts_S1024x2048_S32x32x2048

/-- The selected rows against the one-hot, contracted over the table's columns, one product per index row b. -/
def pairs (rs o : FVec Ideal S32x32x2048 .f32) : FVec Ideal S32x32x32 .f32 :=
  matmul dB (some .fp32) rs o (constant S32x32x32 .f32 0x00000000#32)

/-- Half the difference of a block and its mirror, the index row moved to the last axis. -/
def skewT (s : FVec Ideal S32x32x32 .f32) : FVec Ideal S32x32x32 .f32 :=
  transpose S32x32x32 [1, 2, 0]
    (mulf (broadcast S32x32x32 (Scalar.ofBits .f32 0x3F000000#32))
      (subf s (transpose S32x32x32 [0, 2, 1] s transposes_S32x32x32_p0_2_1_S32x32x32)))
    transposes_S32x32x32_p1_2_0_S32x32x32

/-- The one-hot at an entry: the equality test of the index word with the column's word, as 1 or 0. -/
theorem oneHot_apply (ic : IVec S32x32 32) (b n : Fin 32) (f : Fin 2048) :
    oneHot ic (ix3 b n f) = if ic (ix2 b n) = BitVec.ofNat 32 f.val then (1 : EReal) else 0 := by
  unfold oneHot
  rw [sitofp_apply, extui_apply]
  show FloatOps.sitofp (F := Ideal) .f32 ((IntOp.cmpi .eq
      (broadcastTo S32x32x2048 (shapeCast S32x32x1 ic shapeCasts_S32x32_S32x32x1) broadcasts_S32x32x1_S32x32x2048 (ix3 b n f))
      (broadcastTo S32x32x2048 iota3 broadcasts_S1x1x2048_S32x32x2048 (ix3 b n f))).setWidth 32) = _
  have e1 : broadcastTo S32x32x2048 (shapeCast S32x32x1 ic shapeCasts_S32x32_S32x32x1) broadcasts_S32x32x1_S32x32x2048 (ix3 b n f)
      = ic (ix2 b n) := by
    refine (broadcastTo_apply _ broadcasts_S32x32x1_S32x32x2048 (ix3 b n f) (ix3 b n (0 : Fin 1)) ?_).trans ?_
    · intro a
      match a with
      | ⟨0, _⟩ => rfl
      | ⟨1, _⟩ => rfl
      | ⟨2, _⟩ => rfl
    · refine shapeCast_apply _ shapeCasts_S32x32_S32x32x1 (ix3 b n (0 : Fin 1)) (ix2 b n) ?_
      rw [Shape.rowMajor_val_two, Shape.rowMajor_val_three]
      show b.val * 32 + n.val = (b.val * 32 + n.val) * 1 + 0
      omega
  have e2 : broadcastTo S32x32x2048 iota3 broadcasts_S1x1x2048_S32x32x2048 (ix3 b n f) = BitVec.ofNat 32 f.val := by
    refine (broadcastTo_apply _ broadcasts_S1x1x2048_S32x32x2048 (ix3 b n f) (ix3 (0 : Fin 1) (0 : Fin 1) f) ?_).trans ?_
    · intro a
      match a with
      | ⟨0, _⟩ => rfl
      | ⟨1, _⟩ => rfl
      | ⟨2, _⟩ => rfl
    · exact iota_single_apply .tc S1x1x2048 32 2 iota_S1x1x2048_d2_w32 _
  rw [e1, e2, Cert.LibOneHot.sitofp_extui_cmpi_eq _ _ natLt_1_32]

/-- The one-hot times the table picks the table's row: only the term at the index is not a product with zero. -/
theorem rowsSel_apply (ic : IVec S32x32 32) (v1 : FVec Ideal S2048x2048 .f32) (b n : Fin 32) (f : Fin 2048)
    (h : (ic (ix2 b n)).toNat < 2048) :
    rowsSel (oneHot ic) v1 (ix3 b n f) = v1 (ix2 ⟨(ic (ix2 b n)).toNat, h⟩ f) := by
  have hr : b.val * 32 + n.val < 1024 := by have := b.isLt; have := n.isLt; omega
  unfold rowsSel
  refine (shapeCast_apply _ shapeCasts_S1024x2048_S32x32x2048 (ix3 b n f) (ix2 ⟨b.val * 32 + n.val, hr⟩ f) ?_).trans ?_
  · rw [Shape.rowMajor_val_two, Shape.rowMajor_val_three]
    show (b.val * 32 + n.val) * 2048 + f.val = (b.val * 32 + n.val) * 2048 + f.val
    rfl
  · simp only [matmul]
    rw [Ideal.matmul_constant_zero_apply, ← Equiv.sum_comp (contrEquiv1 dP 2048 rfl rfl).symm]
    have hterm : ∀ g : Fin 2048,
        shapeCast S1024x2048 (oneHot ic) shapeCasts_S32x32x2048_S1024x2048
            (dP.lhsIdx (ix2 ⟨b.val * 32 + n.val, hr⟩ f) ((contrEquiv1 dP 2048 rfl rfl).symm g))
          * v1 (dP.rhsIdx (ix2 ⟨b.val * 32 + n.val, hr⟩ f) ((contrEquiv1 dP 2048 rfl rfl).symm g))
        = (if ic (ix2 b n) = BitVec.ofNat 32 g.val then (1 : EReal) else 0) * v1 (ix2 g f) := by
      intro g
      rw [dP_lhsIdx, dP_rhsIdx]
      congr 1
      refine (shapeCast_apply _ shapeCasts_S32x32x2048_S1024x2048 (ix2 ⟨b.val * 32 + n.val, hr⟩ g) (ix3 b n g) ?_).trans
        (oneHot_apply ic b n g)
      rw [Shape.rowMajor_val_two, Shape.rowMajor_val_three]
      show (b.val * 32 + n.val) * 2048 + g.val = (b.val * 32 + n.val) * 2048 + g.val
      rfl
    rw [Finset.sum_congr rfl fun g _ => hterm g]
    exact Cert.LibOneHot.sum_oneHot_mul_toNat (by norm_num) (ic (ix2 b n)) h fun g => v1 (ix2 g f)

/-- The selected row against the one-hot of the second index picks the row's entry at that index. -/
theorem pairs_apply (ic : IVec S32x32 32) (v1 : FVec Ideal S2048x2048 .f32) (b n m : Fin 32)
    (hn : (ic (ix2 b n)).toNat < 2048) (hm : (ic (ix2 b m)).toNat < 2048) :
    pairs (rowsSel (oneHot ic) v1) (oneHot ic) (ix3 b n m)
      = v1 (ix2 ⟨(ic (ix2 b n)).toNat, hn⟩ ⟨(ic (ix2 b m)).toNat, hm⟩) := by
  unfold pairs
  simp only [matmul]
  rw [Ideal.matmul_constant_zero_apply, ← Equiv.sum_comp (contrEquiv1 dB 2048 rfl rfl).symm]
  have hterm : ∀ g : Fin 2048,
      rowsSel (oneHot ic) v1 (dB.lhsIdx (ix3 b n m) ((contrEquiv1 dB 2048 rfl rfl).symm g))
        * oneHot ic (dB.rhsIdx (ix3 b n m) ((contrEquiv1 dB 2048 rfl rfl).symm g))
      = (if ic (ix2 b m) = BitVec.ofNat 32 g.val then (1 : EReal) else 0) * v1 (ix2 ⟨(ic (ix2 b n)).toNat, hn⟩ g) := by
    intro g
    rw [dB_lhsIdx, dB_rhsIdx, rowsSel_apply ic v1 b n g hn, oneHot_apply, mul_comm]
  rw [Finset.sum_congr rfl fun g _ => hterm g]
  exact Cert.LibOneHot.sum_oneHot_mul_toNat (by norm_num) (ic (ix2 b m)) hm fun g => v1 (ix2 ⟨(ic (ix2 b n)).toNat, hn⟩ g)

/-- Half the difference with the mirror, read with the block's row axis last. -/
theorem skewT_apply (s : FVec Ideal S32x32x32 .f32) (n m b : Fin 32) :
    skewT s (ix3 n m b) = half * (s (ix3 b n m) - s (ix3 b m n)) := by
  unfold skewT
  refine (transpose_apply _ _ transposes_S32x32x32_p1_2_0_S32x32x32 (ix3 n m b) (ix3 b n m) ?_).trans ?_
  · intro a
    match a with
    | ⟨0, _⟩ => rfl
    | ⟨1, _⟩ => rfl
    | ⟨2, _⟩ => rfl
  · rw [mulf_apply, subf_apply]
    rw [transpose_apply _ s transposes_S32x32x32_p0_2_1_S32x32x32 (ix3 b n m) (ix3 b m n) (by
      intro a
      match a with
      | ⟨0, _⟩ => rfl
      | ⟨1, _⟩ => rfl
      | ⟨2, _⟩ => rfl)]
    rfl

/-- A whole block: lane b of the [32, 32, 32] array is the antisymmetrised table at index row b's pairs. -/
theorem chunk_apply (ic : IVec S32x32 32) (v1 : FVec Ideal S2048x2048 .f32) (b : Fin 32)
    (h : ∀ n : Fin 32, (ic (ix2 b n)).toNat < 2048) (n m : Fin 32) :
    skewT (pairs (rowsSel (oneHot ic) v1) (oneHot ic)) (ix3 n m b)
      = half * (v1 (ix2 ⟨(ic (ix2 b n)).toNat, h n⟩ ⟨(ic (ix2 b m)).toNat, h m⟩)
          - v1 (ix2 ⟨(ic (ix2 b m)).toNat, h m⟩ ⟨(ic (ix2 b n)).toNat, h n⟩)) := by
  rw [skewT_apply, pairs_apply ic v1 b n m (h n) (h m), pairs_apply ic v1 b m n (h m) (h n)]

/-! ## The four blocks side by side -/

/-- The table with its unit axis dropped. -/
theorem pay2_apply (v0 : Vec Ideal S1x2048x2048 .f32) (a c : Fin 2048) :
    k0_pay2 (F := Ideal) v0 (ix2 a c) = v0 (ix3 (0 : Fin 1) a c) := by
  unfold k0_pay2
  refine shapeCast_apply _ shapeCasts_S1x2048x2048_S2048x2048 (ix2 a c) (ix3 (0 : Fin 1) a c) ?_
  rw [Shape.rowMajor_val_two, Shape.rowMajor_val_three]
  show ((0 : ℕ) * 2048 + a.val) * 2048 + c.val = a.val * 2048 + c.val
  omega

/-- Rows c … c + 31 of the index block: row b of the slice is row c + b. -/
theorem slice_apply (v2 : Vec Ideal S128x32 .i32) (c : ℕ) (hs : S128x32.Slices ![c, 0] S32x32) (b n : Fin 32) (l : Fin 128)
    (hl : l.val = c + b.val) :
    extractStridedSlice S32x32 ![c, 0] v2 hs (ix2 b n) = v2 (ix2 l n) := by
  refine extractStridedSlice_apply _ v2 hs (ix2 b n) (ix2 l n) ?_
  intro a
  match a with
  | ⟨0, _⟩ => exact hl
  | ⟨1, _⟩ => show n.val = 0 + n.val; omega

/-- The gathered matrices as the four blocks' values laid side by side along the lanes. -/
theorem A0_eq (v0 : Vec Ideal S1x2048x2048 .f32) (v2 : Vec Ideal S128x32 .i32) :
    A0 (F := Ideal) v0 v2 = concatenate S32x32x128 2
      [⟨S32x32x32, skewT (pairs (rowsSel (oneHot (extractStridedSlice S32x32 ![0, 0] v2 slices_S128x32_o0_0_S32x32)) (k0_pay2 v0))
          (oneHot (extractStridedSlice S32x32 ![0, 0] v2 slices_S128x32_o0_0_S32x32)))⟩,
       ⟨S32x32x32, skewT (pairs (rowsSel (oneHot (extractStridedSlice S32x32 ![32, 0] v2 slices_S128x32_o32_0_S32x32)) (k0_pay2 v0))
          (oneHot (extractStridedSlice S32x32 ![32, 0] v2 slices_S128x32_o32_0_S32x32)))⟩,
       ⟨S32x32x32, skewT (pairs (rowsSel (oneHot (extractStridedSlice S32x32 ![64, 0] v2 slices_S128x32_o64_0_S32x32)) (k0_pay2 v0))
          (oneHot (extractStridedSlice S32x32 ![64, 0] v2 slices_S128x32_o64_0_S32x32)))⟩,
       ⟨S32x32x32, skewT (pairs (rowsSel (oneHot (extractStridedSlice S32x32 ![96, 0] v2 slices_S128x32_o96_0_S32x32)) (k0_pay2 v0))
          (oneHot (extractStridedSlice S32x32 ![96, 0] v2 slices_S128x32_o96_0_S32x32)))⟩]
      concatenates_S32x32x32_S32x32x32_S32x32x32_S32x32x32_S32x32x128_d2 := rfl

/-- One of the blocks read in the whole: lane l = c + b of the concatenation is lane b of the block of rows c … c + 31. -/
theorem piece_apply (v0 : Vec Ideal S1x2048x2048 .f32) (v2 : Vec Ideal S128x32 .i32) (c : ℕ)
    (hs : S128x32.Slices ![c, 0] S32x32) (xs : List ((s : Shape) × (s.Idx → EReal)))
    (h : Shape.Concatenates (xs.map (·.1)) S32x32x128 2) (k : ℕ) (hlen : k < xs.length)
    (hxk : xs[k] = ⟨S32x32x32, skewT (pairs (rowsSel (oneHot (extractStridedSlice S32x32 ![c, 0] v2 hs)) (k0_pay2 v0))
      (oneHot (extractStridedSlice S32x32 ![c, 0] v2 hs)))⟩)
    (hpre : (((xs.take k).map (·.1)).map fun s =>
      if h : s.rank = S32x32x128.rank then s.size ((2 : Fin S32x32x128.rank).cast h.symm) else 0).sum = c)
    (b : Fin 32) (l : Fin 128) (hl : l.val = c + b.val) (hidx : ∀ n : Fin 32, (v2 (ix2 l n)).toNat < 2048) (i j : Fin 32) :
    concatenate S32x32x128 2 xs h (ix3 i j l)
      = half * (v0 (ix3 (0 : Fin 1) ⟨(v2 (ix2 l i)).toNat, hidx i⟩ ⟨(v2 (ix2 l j)).toNat, hidx j⟩)
          - v0 (ix3 (0 : Fin 1) ⟨(v2 (ix2 l j)).toNat, hidx j⟩ ⟨(v2 (ix2 l i)).toNat, hidx i⟩)) := by
  refine (concatenate_apply_piece (2 : Fin S32x32x128.rank) xs h (ix3 i j l) k hlen S32x32x32 _ hxk rfl c hpre (ix3 i j b) ?_ ?_).trans ?_
  · intro a ha
    match a with
    | ⟨0, _⟩ => rfl
    | ⟨1, _⟩ => rfl
    | ⟨2, _⟩ => exact absurd rfl ha
  · exact hl.symm
  · have hs' : ∀ n : Fin 32, extractStridedSlice S32x32 ![c, 0] v2 hs (ix2 b n) = v2 (ix2 l n) :=
      fun n => slice_apply v2 c hs b n l hl
    have hic : ∀ n : Fin 32, (extractStridedSlice S32x32 ![c, 0] v2 hs (ix2 b n)).toNat < 2048 := fun n => by
      rw [hs' n]; exact hidx n
    have key : ∀ n : Fin 32, (⟨(extractStridedSlice S32x32 ![c, 0] v2 hs (ix2 b n)).toNat, hic n⟩ : Fin 2048)
        = ⟨(v2 (ix2 l n)).toNat, hidx n⟩ := fun n => Fin.ext (congrArg BitVec.toNat (hs' n))
    rw [chunk_apply _ _ b hic i j, key i, key j, pay2_apply, pay2_apply]

/-- Lane l of the gathered array is the antisymmetrised table at index row l's pairs. -/
theorem A0_rep (v0 : Vec Ideal S1x2048x2048 .f32) (v2 : Vec Ideal S128x32 .i32) (l : Fin 128)
    (hidx : ∀ n : Fin 32, (v2 (ix2 l n)).toNat < 2048) :
    Cert.Pf.KRep 32 128 (A0 (F := Ideal) v0 v2) l
      (Cert.Pf.M0 (P := 1) (R := 2048) (C := 2048) (B := 128) (E := 32) v0 v2 (0 : Fin 1) l) := by
  intro i j
  have hI : ∀ n : Fin 32, idxRow (B := 128) (E := 32) v2 l n.val = (v2 (ix2 l n)).toNat := fun n => dif_pos n.isLt
  have hT : ∀ (a c : ℕ) (ha : a < 2048) (hc : c < 2048),
      tab (P := 1) (R := 2048) (C := 2048) v0 (0 : Fin 1) a c = v0 (ix3 (0 : Fin 1) ⟨a, ha⟩ ⟨c, hc⟩) :=
    fun a c ha hc => dif_pos ⟨ha, hc⟩
  have hR : M0 (P := 1) (R := 2048) (C := 2048) (B := 128) (E := 32) v0 v2 (0 : Fin 1) l i.val j.val
      = half * (v0 (ix3 (0 : Fin 1) ⟨(v2 (ix2 l i)).toNat, hidx i⟩ ⟨(v2 (ix2 l j)).toNat, hidx j⟩)
          - v0 (ix3 (0 : Fin 1) ⟨(v2 (ix2 l j)).toNat, hidx j⟩ ⟨(v2 (ix2 l i)).toNat, hidx i⟩)) := by
    show half * (tab (P := 1) (R := 2048) (C := 2048) v0 (0 : Fin 1) (idxRow (B := 128) (E := 32) v2 l i.val) (idxRow (B := 128) (E := 32) v2 l j.val)
      - tab (P := 1) (R := 2048) (C := 2048) v0 (0 : Fin 1) (idxRow (B := 128) (E := 32) v2 l j.val) (idxRow (B := 128) (E := 32) v2 l i.val)) = _
    rw [hI i, hI j, hT _ _ (hidx i) (hidx j), hT _ _ (hidx j) (hidx i)]
  rw [hR, A0_eq]
  have hl := l.isLt
  have hb : l.val % 32 < 32 := Nat.mod_lt _ (by norm_num)
  rcases (by omega : l.val / 32 = 0 ∨ l.val / 32 = 1 ∨ l.val / 32 = 2 ∨ l.val / 32 = 3) with h | h | h | h
  · exact piece_apply v0 v2 0 slices_S128x32_o0_0_S32x32 _ _ 0 (by simp) rfl rfl ⟨l.val % 32, hb⟩ l
      (by show l.val = 0 + l.val % 32; omega) hidx i j
  · exact piece_apply v0 v2 32 slices_S128x32_o32_0_S32x32 _ _ 1 (by simp) rfl rfl ⟨l.val % 32, hb⟩ l
      (by show l.val = 32 + l.val % 32; omega) hidx i j
  · exact piece_apply v0 v2 64 slices_S128x32_o64_0_S32x32 _ _ 2 (by simp) rfl rfl ⟨l.val % 32, hb⟩ l
      (by show l.val = 64 + l.val % 32; omega) hidx i j
  · exact piece_apply v0 v2 96 slices_S128x32_o96_0_S32x32 _ _ 3 (by simp) rfl rfl ⟨l.val % 32, hb⟩ l
      (by show l.val = 96 + l.val % 32; omega) hidx i j

end Cert.KernelIdeal.Body
end
-- ==== Proof.PfStep.lean ====
/-
  The kernel's vector operations read against the elimination (PfSpec.lean).

  The kernel holds a batch of matrices as one array [N, N, L], the batch on the last (lane) axis, and writes a
  step with slices of rows 0 and 1, reshapes that add or drop a unit axis, and broadcasts along the rows or the
  columns. Each lemma reads one such pattern at a lane: the pivot is entry (0, 1); the multipliers are the first
  row's tail over the pivot; the trailing block plus v ⊗ tau minus tau ⊗ v is the next matrix. The sign is spelt
  with two selects (1 or -1 by "below zero" where the magnitude is positive, the value itself at zero), which is
  the sign of an extended real in every case: the infinities, the negatives, zero, the positives.
-/
import proofs.«416707_j11175504904264_4_alg».proof.Proof.PfSpec
import Idealize.ShloMosaic.PureOps.IdealRules
import Idealize.ShloMosaic.Lib.Pipeline.Value

noncomputable section

namespace Cert.Pf

open Idealize.ShloMosaic Idealize.ShloMosaic.ValueIdx

/-! ## The layout patterns read at one lane -/

/-- Entry (0, 1) of every lane, as a vector over the lanes. -/
theorem pivot_apply {N L : ℕ} (A : FVec Ideal (K3 N N L) .f32)
    (hs : (K3 N N L).Slices ![0, 1, 0] (K3 1 1 L)) (hc : (K3 1 1 L).ShapeCasts (K1 L)) (l : Fin L)
    (M : ℕ → ℕ → EReal) (hA : KRep N L A l M) :
    shapeCast (K1 L) (extractStridedSlice (K3 1 1 L) ![0, 1, 0] A hs) hc (ix1 l) = M 0 1 := by
  have h0 : 0 < N := by have := hs.2 0; simp at this; omega
  have h1 : 1 < N := by have := hs.2 1; simp at this; omega
  refine (shapeCast_apply _ hc (ix1 l) (ix3 (0 : Fin 1) (0 : Fin 1) l) ?_).trans ?_
  · rw [Shape.rowMajor_val_three, Shape.rowMajor_val_one]
    show ((0 : ℕ) * 1 + 0) * L + l.val = l.val
    omega
  · refine (extractStridedSlice_apply _ A hs _ (ix3 ⟨0, h0⟩ ⟨1, h1⟩ l) ?_).trans (hA ⟨0, h0⟩ ⟨1, h1⟩)
    intro a
    match a with
    | ⟨0, _⟩ => rfl
    | ⟨1, _⟩ => rfl
    | ⟨2, _⟩ => show l.val = 0 + l.val; omega

/-- Row r (0 or 1) from column 2 on, as an [n, L] array: lane l is the row's tail. -/
theorem row_rep {N n L : ℕ} (r : ℕ) (A : FVec Ideal (K3 N N L) .f32)
    (hs : (K3 N N L).Slices ![r, 2, 0] (K3 1 n L)) (hc : (K3 1 n L).ShapeCasts (K2 n L)) (l : Fin L)
    (M : ℕ → ℕ → EReal) (hA : KRep N L A l M) :
    VRep n L (shapeCast (K2 n L) (extractStridedSlice (K3 1 n L) ![r, 2, 0] A hs) hc) l (fun j => M r (j + 2)) := by
  intro j
  have hr : r < N := by have := hs.2 0; simp at this; omega
  have hj : j.val + 2 < N := by have := hs.2 1; simp at this; omega
  refine (shapeCast_apply _ hc (ix2 j l) (ix3 (0 : Fin 1) j l) ?_).trans ?_
  · rw [Shape.rowMajor_val_three, Shape.rowMajor_val_two]
    show ((0 : ℕ) * n + j.val) * L + l.val = j.val * L + l.val
    simp
  · refine (extractStridedSlice_apply _ A hs _ (ix3 ⟨r, hr⟩ ⟨j.val + 2, hj⟩ l) ?_).trans (hA ⟨r, hr⟩ ⟨j.val + 2, hj⟩)
    intro a
    match a with
    | ⟨0, _⟩ => show r = r + 0; omega
    | ⟨1, _⟩ => show j.val + 2 = 2 + j.val; omega
    | ⟨2, _⟩ => show l.val = 0 + l.val; omega

/-- The trailing block from (2, 2) on. -/
theorem trail_apply {N n L : ℕ} (A : FVec Ideal (K3 N N L) .f32)
    (hs : (K3 N N L).Slices ![2, 2, 0] (K3 n n L)) (l : Fin L)
    (M : ℕ → ℕ → EReal) (hA : KRep N L A l M) (i j : Fin n) :
    extractStridedSlice (K3 n n L) ![2, 2, 0] A hs (ix3 i j l) = M (i.val + 2) (j.val + 2) := by
  have hi : i.val + 2 < N := by have := hs.2 0; simp at this; omega
  have hj : j.val + 2 < N := by have := hs.2 1; simp at this; omega
  refine (extractStridedSlice_apply _ A hs _ (ix3 ⟨i.val + 2, hi⟩ ⟨j.val + 2, hj⟩ l) ?_).trans (hA ⟨i.val + 2, hi⟩ ⟨j.val + 2, hj⟩)
  intro a
  match a with
  | ⟨0, _⟩ => show i.val + 2 = 2 + i.val; omega
  | ⟨1, _⟩ => show j.val + 2 = 2 + j.val; omega
  | ⟨2, _⟩ => show l.val = 0 + l.val; omega

/-- A vector over the lanes laid along n rows reads the vector at the lane. -/
theorem lanes_rows_apply {n L : ℕ} (p : FVec Ideal (K1 L) .f32)
    (hc : (K1 L).ShapeCasts (K2 1 L)) (hb : (K2 1 L).Broadcasts (K2 n L)) (j : Fin n) (l : Fin L) :
    broadcastTo (K2 n L) (shapeCast (K2 1 L) p hc) hb (ix2 j l) = p (ix1 l) := by
  refine (broadcastTo_apply _ hb (ix2 j l) (ix2 (0 : Fin 1) l) ?_).trans ?_
  · intro a
    match a with
    | ⟨0, _⟩ => rfl
    | ⟨1, _⟩ =>
      show l.val = if L = 1 then 0 else l.val
      split_ifs with h
      · have := l.isLt; omega
      · rfl
  · refine shapeCast_apply _ hc (ix2 (0 : Fin 1) l) (ix1 l) ?_
    rw [Shape.rowMajor_val_two, Shape.rowMajor_val_one]
    show l.val = (0 : ℕ) * L + l.val
    omega

/-- An [n, L] array laid along the columns of [n, n, L]: entry (i, j) of lane l is the array's (i, l). -/
theorem colB_apply {n L : ℕ} (v : FVec Ideal (K2 n L) .f32)
    (hc : (K2 n L).ShapeCasts (K3 n 1 L)) (hb : (K3 n 1 L).Broadcasts (K3 n n L)) (i j : Fin n) (l : Fin L) :
    broadcastTo (K3 n n L) (shapeCast (K3 n 1 L) v hc) hb (ix3 i j l) = v (ix2 i l) := by
  refine (broadcastTo_apply _ hb (ix3 i j l) (ix3 i (0 : Fin 1) l) ?_).trans ?_
  · intro a
    match a with
    | ⟨0, _⟩ =>
      show i.val = if n = 1 then 0 else i.val
      split_ifs with h
      · have := i.isLt; omega
      · rfl
    | ⟨1, _⟩ => rfl
    | ⟨2, _⟩ =>
      show l.val = if L = 1 then 0 else l.val
      split_ifs with h
      · have := l.isLt; omega
      · rfl
  · refine shapeCast_apply _ hc (ix3 i (0 : Fin 1) l) (ix2 i l) ?_
    rw [Shape.rowMajor_val_two, Shape.rowMajor_val_three]
    show i.val * L + l.val = (i.val * 1 + 0) * L + l.val
    simp

/-- An [n, L] array laid along the rows of [n, n, L]: entry (i, j) of lane l is the array's (j, l). -/
theorem rowB_apply {n L : ℕ} (t : FVec Ideal (K2 n L) .f32)
    (hc : (K2 n L).ShapeCasts (K3 1 n L)) (hb : (K3 1 n L).Broadcasts (K3 n n L)) (i j : Fin n) (l : Fin L) :
    broadcastTo (K3 n n L) (shapeCast (K3 1 n L) t hc) hb (ix3 i j l) = t (ix2 j l) := by
  refine (broadcastTo_apply _ hb (ix3 i j l) (ix3 (0 : Fin 1) j l) ?_).trans ?_
  · intro a
    match a with
    | ⟨0, _⟩ => rfl
    | ⟨1, _⟩ =>
      show j.val = if n = 1 then 0 else j.val
      split_ifs with h
      · have := j.isLt; omega
      · rfl
    | ⟨2, _⟩ =>
      show l.val = if L = 1 then 0 else l.val
      split_ifs with h
      · have := l.isLt; omega
      · rfl
  · refine shapeCast_apply _ hc (ix3 (0 : Fin 1) j l) (ix2 j l) ?_
    rw [Shape.rowMajor_val_two, Shape.rowMajor_val_three]
    show j.val * L + l.val = ((0 : ℕ) * n + j.val) * L + l.val
    simp

/-- A vector over the lanes stored as a [1, L, 1] block. -/
theorem store_apply {L : ℕ} (s : FVec Ideal (K1 L) .f32) (hc : (K1 L).ShapeCasts (K3 1 L 1)) (l : Fin L) :
    shapeCast (K3 1 L 1) s hc (ix3 (0 : Fin 1) l (0 : Fin 1)) = s (ix1 l) := by
  refine shapeCast_apply _ hc _ (ix1 l) ?_
  rw [Shape.rowMajor_val_one, Shape.rowMajor_val_three]
  show l.val = ((0 : ℕ) * L + l.val) * 1 + 0
  omega

/-! ## The pieces of a step, and the step -/

/-- The multipliers as an [n, L] array: the first row's tail over the pivot laid along the rows. -/
theorem tau_rep {N n L : ℕ} (A : FVec Ideal (K3 N N L) .f32) (p : FVec Ideal (K1 L) .f32)
    (hs : (K3 N N L).Slices ![0, 2, 0] (K3 1 n L)) (hc : (K3 1 n L).ShapeCasts (K2 n L))
    (hc' : (K1 L).ShapeCasts (K2 1 L)) (hb : (K2 1 L).Broadcasts (K2 n L)) (l : Fin L)
    (M : ℕ → ℕ → EReal) (hA : KRep N L A l M) (hp : p (ix1 l) = M 0 1) :
    VRep n L (divf (shapeCast (K2 n L) (extractStridedSlice (K3 1 n L) ![0, 2, 0] A hs) hc)
      (broadcastTo (K2 n L) (shapeCast (K2 1 L) p hc') hb)) l (tau M) := by
  intro j
  refine (divf_apply _ _ _).trans ?_
  rw [row_rep 0 A hs hc l M hA j, lanes_rows_apply p hc' hb j l, hp]
  rfl

/-- The second row laid along the columns. -/
theorem colB_rep {n L : ℕ} (v : FVec Ideal (K2 n L) .f32)
    (hc : (K2 n L).ShapeCasts (K3 n 1 L)) (hb : (K3 n 1 L).Broadcasts (K3 n n L)) (l : Fin L)
    (f : ℕ → EReal) (hv : VRep n L v l f) (i j : Fin n) :
    broadcastTo (K3 n n L) (shapeCast (K3 n 1 L) v hc) hb (ix3 i j l) = f i.val :=
  (colB_apply v hc hb i j l).trans (hv i)

/-- The multipliers laid along the rows. -/
theorem rowB_rep {n L : ℕ} (t : FVec Ideal (K2 n L) .f32)
    (hc : (K2 n L).ShapeCasts (K3 1 n L)) (hb : (K3 1 n L).Broadcasts (K3 n n L)) (l : Fin L)
    (f : ℕ → EReal) (ht : VRep n L t l f) (i j : Fin n) :
    broadcastTo (K3 n n L) (shapeCast (K3 1 n L) t hc) hb (ix3 i j l) = f j.val :=
  (rowB_apply t hc hb i j l).trans (ht j)

/-- The trailing block plus v ⊗ tau minus tau ⊗ v, from pieces already laid out, is the next matrix. -/
theorem assemble_rep {n L : ℕ} (t v : FVec Ideal (K2 n L) .f32) (T bv bt : FVec Ideal (K3 n n L) .f32)
    (hc1 : (K2 n L).ShapeCasts (K3 n 1 L)) (hc2 : (K2 n L).ShapeCasts (K3 1 n L))
    (hb1 : (K3 n 1 L).Broadcasts (K3 n n L)) (hb2 : (K3 1 n L).Broadcasts (K3 n n L))
    (l : Fin L) (M : ℕ → ℕ → EReal)
    (ht : VRep n L t l (tau M)) (hv : VRep n L v l (fun j => M 1 (j + 2)))
    (hT : ∀ i j : Fin n, T (ix3 i j l) = M (i.val + 2) (j.val + 2))
    (hbv : ∀ i j : Fin n, bv (ix3 i j l) = M 1 (i.val + 2))
    (hbt : ∀ i j : Fin n, bt (ix3 i j l) = tau M j.val) :
    KRep n L (subf (addf T (mulf bv bt))
      (mulf (broadcastTo (K3 n n L) (shapeCast (K3 n 1 L) t hc1) hb1)
        (broadcastTo (K3 n n L) (shapeCast (K3 1 n L) v hc2) hb2))) l (next M) := by
  intro i j
  refine (subf_apply _ _ _).trans ?_
  rw [addf_apply, mulf_apply, mulf_apply, hT i j, hbv i j, hbt i j,
    colB_rep t hc1 hb1 l _ ht i j, rowB_rep v hc2 hb2 l _ hv i j]
  rfl

/-- One whole step from a matrix A and its pivot p. -/
theorem step_rep {N n L : ℕ} (A : FVec Ideal (K3 N N L) .f32) (p : FVec Ideal (K1 L) .f32)
    (hs0 : (K3 N N L).Slices ![0, 2, 0] (K3 1 n L)) (hs1 : (K3 N N L).Slices ![1, 2, 0] (K3 1 n L))
    (hs2 : (K3 N N L).Slices ![2, 2, 0] (K3 n n L))
    (hc : (K3 1 n L).ShapeCasts (K2 n L)) (hc' : (K1 L).ShapeCasts (K2 1 L)) (hb : (K2 1 L).Broadcasts (K2 n L))
    (hc1 : (K2 n L).ShapeCasts (K3 n 1 L)) (hc2 : (K2 n L).ShapeCasts (K3 1 n L))
    (hb1 : (K3 n 1 L).Broadcasts (K3 n n L)) (hb2 : (K3 1 n L).Broadcasts (K3 n n L))
    (l : Fin L) (M : ℕ → ℕ → EReal) (hA : KRep N L A l M) (hp : p (ix1 l) = M 0 1) :
    KRep n L
      (subf
        (addf (extractStridedSlice (K3 n n L) ![2, 2, 0] A hs2)
          (mulf
            (broadcastTo (K3 n n L) (shapeCast (K3 n 1 L)
              (shapeCast (K2 n L) (extractStridedSlice (K3 1 n L) ![1, 2, 0] A hs1) hc) hc1) hb1)
            (broadcastTo (K3 n n L) (shapeCast (K3 1 n L)
              (divf (shapeCast (K2 n L) (extractStridedSlice (K3 1 n L) ![0, 2, 0] A hs0) hc)
                (broadcastTo (K2 n L) (shapeCast (K2 1 L) p hc') hb)) hc2) hb2)))
        (mulf
          (broadcastTo (K3 n n L) (shapeCast (K3 n 1 L)
            (divf (shapeCast (K2 n L) (extractStridedSlice (K3 1 n L) ![0, 2, 0] A hs0) hc)
              (broadcastTo (K2 n L) (shapeCast (K2 1 L) p hc') hb)) hc1) hb1)
          (broadcastTo (K3 n n L) (shapeCast (K3 1 n L)
            (shapeCast (K2 n L) (extractStridedSlice (K3 1 n L) ![1, 2, 0] A hs1) hc) hc2) hb2)))
      l (next M) := by
  have ht := tau_rep A p hs0 hc hc' hb l M hA hp
  have hv := row_rep 1 A hs1 hc l M hA
  exact assemble_rep _ _ _ _ _ hc1 hc2 hb1 hb2 l M ht hv
    (fun i j => trail_apply A hs2 l M hA i j)
    (fun i j => colB_rep _ hc1 hb1 l _ hv i j)
    (fun i j => rowB_rep _ hc2 hb2 l _ ht i j)

/-! ## The pivot's sign and logarithm -/

/-- The two selects the kernel spells a sign with — 1 or -1 by "below zero" where the magnitude is positive,
    the value itself (zero) elsewhere — are the sign. -/
theorem sgn_scalar (x : EReal) :
    Scalar.select (FloatOps.cmpf (F := Ideal) (φ := FTy.f32) .ogt (FloatOps.absf (F := Ideal) (φ := FTy.f32) x) (Ideal.ofBits .f32 0x00000000#32))
      (Scalar.select (FloatOps.cmpf (F := Ideal) (φ := FTy.f32) .olt x (Ideal.ofBits .f32 0x00000000#32))
        (Ideal.ofBits .f32 0xBF800000#32) (Ideal.ofBits .f32 0x3F800000#32)) x = sg x := by
  have h0 : Ideal.ofBits .f32 0x00000000#32 = 0 := IdealRules.sign_bit.ideal_zero .f32
  have h1 : Ideal.ofBits .f32 0x3F800000#32 = 1 := IdealRules.sign_bit.ideal_onePat .f32
  have hm : Ideal.ofBits .f32 0xBF800000#32 = -1 := IdealRules.sign_bit.ideal_negOnePat .f32
  rw [h0, h1, hm]
  have hc : ∀ (p : CmpFPredicate) (a b : EReal), FloatOps.cmpf (F := Ideal) (φ := FTy.f32) p a b = Ideal.cmp p a b := fun _ _ _ => rfl
  have ha : FloatOps.absf (F := Ideal) (φ := FTy.f32) x = max x (-x) := rfl
  rw [hc, hc, ha]
  unfold sg
  induction x using EReal.rec with
  | bot => simp [Ideal.cmp, Scalar.select]
  | top => simp [Ideal.cmp, Scalar.select]
  | coe r =>
    rw [Ideal.sign_coe]
    rcases lt_trichotomy r 0 with h | h | h
    · have h' : ((r : ℝ) : EReal) < 0 := by exact_mod_cast h
      have h2 : (0 : EReal) < max (r : EReal) (-(r : EReal)) := by
        refine lt_max_of_lt_right ?_
        have : (0 : ℝ) < -r := by linarith
        exact_mod_cast this
      simp [Ideal.cmp, Scalar.select, h', h2, sign_neg h]
    · subst h
      simp [Ideal.cmp, Scalar.select]
    · have h' : ¬ ((r : ℝ) : EReal) < 0 := by
        have : ¬ r < 0 := not_lt.mpr h.le
        exact_mod_cast this
      have h2 : (0 : EReal) < max (r : EReal) (-(r : EReal)) := by
        refine lt_max_of_lt_left ?_
        exact_mod_cast h
      simp [Ideal.cmp, Scalar.select, h', h2, sign_pos h]

/-- The kernel's sign of a vector of pivots, read at a lane. -/
theorem sgn_apply {L : ℕ} (p : FVec Ideal (K1 L) .f32) (l : Fin L) :
    (select (cmpf .ogt (absf p) (broadcast (K1 L) (Scalar.ofBits .f32 0x00000000#32)))
      (select (cmpf .olt p (constant (K1 L) .f32 0x00000000#32)) (constant (K1 L) .f32 0xBF800000#32)
        (constant (K1 L) .f32 0x3F800000#32)) p) (ix1 l) = sg (p (ix1 l)) :=
  sgn_scalar (p (ix1 l))

/-- The running sign times the next pivot's sign. -/
theorem sgn_acc {L : ℕ} (s p : FVec Ideal (K1 L) .f32) (l : Fin L) :
    (mulf s (select (cmpf .ogt (absf p) (broadcast (K1 L) (Scalar.ofBits .f32 0x00000000#32)))
      (select (cmpf .olt p (constant (K1 L) .f32 0x00000000#32)) (constant (K1 L) .f32 0xBF800000#32)
        (constant (K1 L) .f32 0x3F800000#32)) p)) (ix1 l) = s (ix1 l) * sg (p (ix1 l)) :=
  (mulf_apply _ _ _).trans (congrArg (s (ix1 l) * ·) (sgn_apply p l))

/-- The running logarithm plus the next pivot's. -/
theorem lg_acc {L : ℕ} (s p : FVec Ideal (K1 L) .f32) (l : Fin L) :
    (addf s (log (absf p))) (ix1 l) = s (ix1 l) + lg (p (ix1 l)) := rfl

/-- The starting values: a constant laid over the lanes. -/
theorem const_lane {L : ℕ} (w : BitVec 32) (l : Fin L) :
    (broadcast (K1 L) (Scalar.ofBits (F := Ideal) .f32 w) : FVec Ideal (K1 L) .f32) (ix1 l) = Ideal.ofBits .f32 w := rfl

end Cert.Pf
end
-- ==== Proof.KChain1.lean ====
/-
  The kernel body's chain read at one lane, first part: the first pivot, and the steps taken from pieces.

  The body carries 128 matrices at once, one per lane, and eliminates two rows and two columns fifteen times,
  32 → 30 → … → 2. Before each elimination it reads the pivot (entry (0, 1) of the current matrix), multiplies its
  sign into a running product and adds the logarithm of its magnitude to a running sum. Each value of the chain is
  one pattern of the step lemmas: a pivot, a row's tail, the multipliers, the trailing block, one of these laid
  along rows or columns, the assembled next matrix, a whole step, or one more factor of the sign or term of the
  logarithm. Each value is read here at a lane l against an abstract matrix M: what the lane held when the value's
  inputs were formed. This part reads the values formed from the 32 × 32 matrices (the first pivot, the starting
  sign and logarithm, the five pieces of the first step) and, for the three places where a matrix is assembled
  from five pieces (sizes 30, 20, 10), the assembled matrix, its pivot, the further step taken from it and that
  step's pivot, with the sign and the logarithm taking both pivots.
-/
import proofs.«416707_j11175504904264_4_alg».proof.Proof.PfStep
import proofs.«416707_j11175504904264_4_alg».proof.Proof.KBody

noncomputable section

namespace Cert.KernelIdeal.Body.Chain

open Cert.KernelIdeal Cert.KernelIdeal.Gen Cert.KernelIdeal.Body Cert.Pf Idealize.ShloMosaic Idealize.ShloMosaic.ValueIdx

/-- A product with a pivot's sign, rewritten on both factors. -/
private theorem mul_sg_congr {a a' x x' : EReal} (ha : a = a') (hx : x = x') : a * sg x = a' * sg x' := by rw [ha, hx]

/-- A sum with a pivot's logarithm, rewritten on both terms. -/
private theorem add_lg_congr {a a' x x' : EReal} (ha : a = a') (hx : x = x') : a + lg x = a' + lg x' := by rw [ha, hx]

/-! ## From the 32 × 32 matrices: the first pivot and the five pieces of the first step -/

section first
variable (v1 : FVec Ideal S2048x2048 .f32) (v2 : Vec Ideal S128x32 .i32) (v3 : IVec S1x1x2048 32)
  (v19 v35 : FVec Ideal S32x32x32 .f32) (v42 v45 : FVec Ideal S32x32x2048 .f32)
  (l : Fin 128) (M : ℕ → ℕ → EReal)

/-- The first pivot. -/
theorem pay8_apply (hA : KRep 32 128 (k0_pay7 v1 v2 v3 v19 v35 v42 v45) l M) :
    k0_pay8 v1 v2 v3 v19 v35 v42 v45 (ix1 l) = M 0 1 :=
  pivot_apply _ _ _ l M hA

/-- The sign after one pivot: the starting 1.0 times the first pivot's sign. -/
theorem pay9_apply (hA : KRep 32 128 (k0_pay7 v1 v2 v3 v19 v35 v42 v45) l M) :
    k0_pay9 v1 v2 v3 v19 v35 v42 v45 (ix1 l) = sgnAt one M 1 :=
  (sgn_acc _ (k0_pay8 v1 v2 v3 v19 v35 v42 v45) l).trans
    (mul_sg_congr rfl (pay8_apply v1 v2 v3 v19 v35 v42 v45 l M hA))

/-- The logarithm after one pivot: the starting 0.0 plus the first pivot's logarithm. -/
theorem pay10_apply (hA : KRep 32 128 (k0_pay7 v1 v2 v3 v19 v35 v42 v45) l M) :
    k0_pay10 v1 v2 v3 v19 v35 v42 v45 (ix1 l) = logAt zero M 1 :=
  (lg_acc _ (k0_pay8 v1 v2 v3 v19 v35 v42 v45) l).trans
    (add_lg_congr rfl (pay8_apply v1 v2 v3 v19 v35 v42 v45 l M hA))

/-- The multipliers of the first step. -/
theorem pay11_rep (hA : KRep 32 128 (k0_pay7 v1 v2 v3 v19 v35 v42 v45) l M) :
    VRep 30 128 (k0_pay11 v1 v2 v3 v19 v35 v42 v45) l (tau M) :=
  tau_rep _ _ _ _ _ _ l M hA (pay8_apply v1 v2 v3 v19 v35 v42 v45 l M hA)

/-- The second row's tail. -/
theorem pay12_rep (hA : KRep 32 128 (k0_pay7 v1 v2 v3 v19 v35 v42 v45) l M) :
    VRep 30 128 (k0_pay12 v1 v2 v3 v19 v35 v42 v45) l (fun j => M 1 (j + 2)) :=
  row_rep 1 _ _ _ l M hA

/-- The trailing block. -/
theorem pay13_apply (hA : KRep 32 128 (k0_pay7 v1 v2 v3 v19 v35 v42 v45) l M) (i j : Fin 30) :
    k0_pay13 v1 v2 v3 v19 v35 v42 v45 (ix3 i j l) = M (i.val + 2) (j.val + 2) :=
  trail_apply _ slices_S32x32x128_o2_2_0_S30x30x128 l M hA i j

/-- The second row's tail laid along the columns. -/
theorem pay14_apply (hA : KRep 32 128 (k0_pay7 v1 v2 v3 v19 v35 v42 v45) l M) (i j : Fin 30) :
    k0_pay14 v1 v2 v3 v19 v35 v42 v45 (ix3 i j l) = M 1 (i.val + 2) :=
  colB_rep _ shapeCasts_S30x128_S30x1x128 broadcasts_S30x1x128_S30x30x128 l _
    (pay12_rep v1 v2 v3 v19 v35 v42 v45 l M hA) i j

/-- The multipliers laid along the rows. -/
theorem pay15_apply (hA : KRep 32 128 (k0_pay7 v1 v2 v3 v19 v35 v42 v45) l M) (i j : Fin 30) :
    k0_pay15 v1 v2 v3 v19 v35 v42 v45 (ix3 i j l) = tau M j.val :=
  rowB_rep _ shapeCasts_S30x128_S1x30x128 broadcasts_S1x30x128_S30x30x128 l _
    (pay11_rep v1 v2 v3 v19 v35 v42 v45 l M hA) i j

end first

/-! ## From the five pieces of a step: the assembled matrix, its pivot, one more step and its pivot

  Three times in the chain (sizes 30, 20, 10) the next matrix is assembled from pieces formed earlier, and a whole
  further step is taken from it; the sign and the logarithm take both new pivots. -/

section pieces30
variable (s g : FVec Ideal S128 .f32) (t v : FVec Ideal S30x128 .f32) (T bv bt : FVec Ideal S30x30x128 .f32)
  (l : Fin 128) (M : ℕ → ℕ → EReal)

/-- The matrix assembled from the pieces of M is the next matrix. -/
theorem pay16_rep (ht : VRep 30 128 t l (tau M)) (hv : VRep 30 128 v l (fun j => M 1 (j + 2)))
    (hT : ∀ i j : Fin 30, T (ix3 i j l) = M (i.val + 2) (j.val + 2))
    (hbv : ∀ i j : Fin 30, bv (ix3 i j l) = M 1 (i.val + 2))
    (hbt : ∀ i j : Fin 30, bt (ix3 i j l) = tau M j.val) :
    KRep 30 128 (k0_pay16 t v T bv bt) l (next M) :=
  assemble_rep t v T bv bt _ _ _ _ l M ht hv hT hbv hbt

theorem pay17_apply (h : KRep 30 128 (k0_pay16 t v T bv bt) l (next M)) :
    k0_pay17 t v T bv bt (ix1 l) = next M 0 1 :=
  pivot_apply _ _ _ l _ h

theorem pay18_rep (h : KRep 30 128 (k0_pay16 t v T bv bt) l (next M)) :
    KRep 28 128 (k0_pay18 t v T bv bt) l (next (next M)) :=
  step_rep _ _ _ _ _ _ _ _ _ _ _ _ l _ h (pay17_apply t v T bv bt l M h)

theorem pay19_apply (h : KRep 30 128 (k0_pay16 t v T bv bt) l (next M)) :
    k0_pay19 t v T bv bt (ix1 l) = next (next M) 0 1 :=
  pivot_apply _ _ _ l _ (pay18_rep t v T bv bt l M h)

theorem pay20_apply (c : EReal) (hs : s (ix1 l) = c) (h : KRep 30 128 (k0_pay16 t v T bv bt) l (next M)) :
    k0_pay20 s t v T bv bt (ix1 l) = c * sg (next M 0 1) * sg (next (next M) 0 1) :=
  (sgn_acc _ (k0_pay19 t v T bv bt) l).trans
    (mul_sg_congr ((sgn_acc s (k0_pay17 t v T bv bt) l).trans (mul_sg_congr hs (pay17_apply t v T bv bt l M h)))
      (pay19_apply t v T bv bt l M h))

theorem pay21_apply (c : EReal) (hg : g (ix1 l) = c) (h : KRep 30 128 (k0_pay16 t v T bv bt) l (next M)) :
    k0_pay21 g t v T bv bt (ix1 l) = c + lg (next M 0 1) + lg (next (next M) 0 1) :=
  (lg_acc _ (k0_pay19 t v T bv bt) l).trans
    (add_lg_congr ((lg_acc g (k0_pay17 t v T bv bt) l).trans (add_lg_congr hg (pay17_apply t v T bv bt l M h)))
      (pay19_apply t v T bv bt l M h))

end pieces30

section pieces20
variable (s g : FVec Ideal S128 .f32) (t v : FVec Ideal S20x128 .f32) (T bv bt : FVec Ideal S20x20x128 .f32)
  (l : Fin 128) (M : ℕ → ℕ → EReal)

theorem pay37_rep (ht : VRep 20 128 t l (tau M)) (hv : VRep 20 128 v l (fun j => M 1 (j + 2)))
    (hT : ∀ i j : Fin 20, T (ix3 i j l) = M (i.val + 2) (j.val + 2))
    (hbv : ∀ i j : Fin 20, bv (ix3 i j l) = M 1 (i.val + 2))
    (hbt : ∀ i j : Fin 20, bt (ix3 i j l) = tau M j.val) :
    KRep 20 128 (k0_pay37 t v T bv bt) l (next M) :=
  assemble_rep t v T bv bt _ _ _ _ l M ht hv hT hbv hbt

theorem pay38_apply (h : KRep 20 128 (k0_pay37 t v T bv bt) l (next M)) :
    k0_pay38 t v T bv bt (ix1 l) = next M 0 1 :=
  pivot_apply _ _ _ l _ h

theorem pay39_rep (h : KRep 20 128 (k0_pay37 t v T bv bt) l (next M)) :
    KRep 18 128 (k0_pay39 t v T bv bt) l (next (next M)) :=
  step_rep _ _ _ _ _ _ _ _ _ _ _ _ l _ h (pay38_apply t v T bv bt l M h)

theorem pay40_apply (h : KRep 20 128 (k0_pay37 t v T bv bt) l (next M)) :
    k0_pay40 t v T bv bt (ix1 l) = next (next M) 0 1 :=
  pivot_apply _ _ _ l _ (pay39_rep t v T bv bt l M h)

theorem pay41_apply (c : EReal) (hs : s (ix1 l) = c) (h : KRep 20 128 (k0_pay37 t v T bv bt) l (next M)) :
    k0_pay41 s t v T bv bt (ix1 l) = c * sg (next M 0 1) * sg (next (next M) 0 1) :=
  (sgn_acc _ (k0_pay40 t v T bv bt) l).trans
    (mul_sg_congr ((sgn_acc s (k0_pay38 t v T bv bt) l).trans (mul_sg_congr hs (pay38_apply t v T bv bt l M h)))
      (pay40_apply t v T bv bt l M h))

theorem pay42_apply (c : EReal) (hg : g (ix1 l) = c) (h : KRep 20 128 (k0_pay37 t v T bv bt) l (next M)) :
    k0_pay42 g t v T bv bt (ix1 l) = c + lg (next M 0 1) + lg (next (next M) 0 1) :=
  (lg_acc _ (k0_pay40 t v T bv bt) l).trans
    (add_lg_congr ((lg_acc g (k0_pay38 t v T bv bt) l).trans (add_lg_congr hg (pay38_apply t v T bv bt l M h)))
      (pay40_apply t v T bv bt l M h))

end pieces20

section pieces10
variable (s g : FVec Ideal S128 .f32) (t v : FVec Ideal S10x128 .f32) (T bv bt : FVec Ideal S10x10x128 .f32)
  (l : Fin 128) (M : ℕ → ℕ → EReal)

theorem pay58_rep (ht : VRep 10 128 t l (tau M)) (hv : VRep 10 128 v l (fun j => M 1 (j + 2)))
    (hT : ∀ i j : Fin 10, T (ix3 i j l) = M (i.val + 2) (j.val + 2))
    (hbv : ∀ i j : Fin 10, bv (ix3 i j l) = M 1 (i.val + 2))
    (hbt : ∀ i j : Fin 10, bt (ix3 i j l) = tau M j.val) :
    KRep 10 128 (k0_pay58 t v T bv bt) l (next M) :=
  assemble_rep t v T bv bt _ _ _ _ l M ht hv hT hbv hbt

theorem pay59_apply (h : KRep 10 128 (k0_pay58 t v T bv bt) l (next M)) :
    k0_pay59 t v T bv bt (ix1 l) = next M 0 1 :=
  pivot_apply _ _ _ l _ h

theorem pay60_rep (h : KRep 10 128 (k0_pay58 t v T bv bt) l (next M)) :
    KRep 8 128 (k0_pay60 t v T bv bt) l (next (next M)) :=
  step_rep _ _ _ _ _ _ _ _ _ _ _ _ l _ h (pay59_apply t v T bv bt l M h)

theorem pay61_apply (h : KRep 10 128 (k0_pay58 t v T bv bt) l (next M)) :
    k0_pay61 t v T bv bt (ix1 l) = next (next M) 0 1 :=
  pivot_apply _ _ _ l _ (pay60_rep t v T bv bt l M h)

theorem pay62_apply (c : EReal) (hs : s (ix1 l) = c) (h : KRep 10 128 (k0_pay58 t v T bv bt) l (next M)) :
    k0_pay62 s t v T bv bt (ix1 l) = c * sg (next M 0 1) * sg (next (next M) 0 1) :=
  (sgn_acc _ (k0_pay61 t v T bv bt) l).trans
    (mul_sg_congr ((sgn_acc s (k0_pay59 t v T bv bt) l).trans (mul_sg_congr hs (pay59_apply t v T bv bt l M h)))
      (pay61_apply t v T bv bt l M h))

theorem pay63_apply (c : EReal) (hg : g (ix1 l) = c) (h : KRep 10 128 (k0_pay58 t v T bv bt) l (next M)) :
    k0_pay63 g t v T bv bt (ix1 l) = c + lg (next M 0 1) + lg (next (next M) 0 1) :=
  (lg_acc _ (k0_pay61 t v T bv bt) l).trans
    (add_lg_congr ((lg_acc g (k0_pay59 t v T bv bt) l).trans (add_lg_congr hg (pay59_apply t v T bv bt l M h)))
      (pay61_apply t v T bv bt l M h))

end pieces10

end Cert.KernelIdeal.Body.Chain

end
-- ==== Proof.KChain2.lean ====
/-
  The kernel body's chain read at one lane, second part: the steps taken from a matrix and its pivot.

  Where a matrix of the elimination arrives whole together with its pivot (entry (0, 1), already read), the body
  takes one or two whole steps from it. Three times (sizes 28, 18, 8) the pivot has already been counted: two
  steps are taken and the pivot of the matrix between them is counted. Twice (sizes 24, 14) the pivot has not yet
  been counted: one step is taken, both the arriving pivot and the new matrix's are counted, and the five pieces
  of the following step are formed. At the end (size 4) one step gives the 2 × 2 matrix whose pivot is the
  sixteenth, the last two pivots are counted, and the sign and the logarithm are stored as [1, 128, 1] blocks.
  Each value is read at a lane l against an abstract matrix M, what the lane holds in the arriving matrix.
-/
import proofs.«416707_j11175504904264_4_alg».proof.Proof.PfStep
import proofs.«416707_j11175504904264_4_alg».proof.Proof.KBody

noncomputable section

namespace Cert.KernelIdeal.Body.Chain

open Cert.KernelIdeal Cert.KernelIdeal.Gen Cert.KernelIdeal.Body Cert.Pf Idealize.ShloMosaic Idealize.ShloMosaic.ValueIdx

/-- A product with a pivot's sign, rewritten on both factors. -/
private theorem mul_sg_congr {a a' x x' : EReal} (ha : a = a') (hx : x = x') : a * sg x = a' * sg x' := by rw [ha, hx]

/-- A sum with a pivot's logarithm, rewritten on both terms. -/
private theorem add_lg_congr {a a' x x' : EReal} (ha : a = a') (hx : x = x') : a + lg x = a' + lg x' := by rw [ha, hx]

/-! ## From a matrix and its pivot: two steps, the sign and the logarithm taking the pivot between them

  Three times (sizes 28, 18, 8) a matrix arrives with its pivot already read and already counted; two steps are
  taken, and the pivot of the matrix between them is counted. -/

section mat28
variable (A : FVec Ideal S28x28x128 .f32) (p s g : FVec Ideal S128 .f32) (l : Fin 128) (M : ℕ → ℕ → EReal)

theorem pay22_rep (hA : KRep 28 128 A l M) (hp : p (ix1 l) = M 0 1) : KRep 26 128 (k0_pay22 A p) l (next M) :=
  step_rep _ _ _ _ _ _ _ _ _ _ _ _ l _ hA hp

theorem pay23_apply (hA : KRep 28 128 A l M) (hp : p (ix1 l) = M 0 1) : k0_pay23 A p (ix1 l) = next M 0 1 :=
  pivot_apply _ _ _ l _ (pay22_rep A p l M hA hp)

theorem pay24_apply (c : EReal) (hs : s (ix1 l) = c) (hA : KRep 28 128 A l M) (hp : p (ix1 l) = M 0 1) :
    k0_pay24 A p s (ix1 l) = c * sg (next M 0 1) :=
  (sgn_acc s (k0_pay23 A p) l).trans (mul_sg_congr hs (pay23_apply A p l M hA hp))

theorem pay25_apply (c : EReal) (hg : g (ix1 l) = c) (hA : KRep 28 128 A l M) (hp : p (ix1 l) = M 0 1) :
    k0_pay25 A p g (ix1 l) = c + lg (next M 0 1) :=
  (lg_acc g (k0_pay23 A p) l).trans (add_lg_congr hg (pay23_apply A p l M hA hp))

theorem pay26_rep (hA : KRep 28 128 A l M) (hp : p (ix1 l) = M 0 1) :
    KRep 24 128 (k0_pay26 A p) l (next (next M)) :=
  step_rep _ _ _ _ _ _ _ _ _ _ _ _ l _ (pay22_rep A p l M hA hp) (pay23_apply A p l M hA hp)

theorem pay27_apply (hA : KRep 28 128 A l M) (hp : p (ix1 l) = M 0 1) :
    k0_pay27 A p (ix1 l) = next (next M) 0 1 :=
  pivot_apply _ _ _ l _ (pay26_rep A p l M hA hp)

end mat28

section mat18
variable (A : FVec Ideal S18x18x128 .f32) (p s g : FVec Ideal S128 .f32) (l : Fin 128) (M : ℕ → ℕ → EReal)

theorem pay43_rep (hA : KRep 18 128 A l M) (hp : p (ix1 l) = M 0 1) : KRep 16 128 (k0_pay43 A p) l (next M) :=
  step_rep _ _ _ _ _ _ _ _ _ _ _ _ l _ hA hp

theorem pay44_apply (hA : KRep 18 128 A l M) (hp : p (ix1 l) = M 0 1) : k0_pay44 A p (ix1 l) = next M 0 1 :=
  pivot_apply _ _ _ l _ (pay43_rep A p l M hA hp)

theorem pay45_apply (c : EReal) (hs : s (ix1 l) = c) (hA : KRep 18 128 A l M) (hp : p (ix1 l) = M 0 1) :
    k0_pay45 A p s (ix1 l) = c * sg (next M 0 1) :=
  (sgn_acc s (k0_pay44 A p) l).trans (mul_sg_congr hs (pay44_apply A p l M hA hp))

theorem pay46_apply (c : EReal) (hg : g (ix1 l) = c) (hA : KRep 18 128 A l M) (hp : p (ix1 l) = M 0 1) :
    k0_pay46 A p g (ix1 l) = c + lg (next M 0 1) :=
  (lg_acc g (k0_pay44 A p) l).trans (add_lg_congr hg (pay44_apply A p l M hA hp))

theorem pay47_rep (hA : KRep 18 128 A l M) (hp : p (ix1 l) = M 0 1) :
    KRep 14 128 (k0_pay47 A p) l (next (next M)) :=
  step_rep _ _ _ _ _ _ _ _ _ _ _ _ l _ (pay43_rep A p l M hA hp) (pay44_apply A p l M hA hp)

theorem pay48_apply (hA : KRep 18 128 A l M) (hp : p (ix1 l) = M 0 1) :
    k0_pay48 A p (ix1 l) = next (next M) 0 1 :=
  pivot_apply _ _ _ l _ (pay47_rep A p l M hA hp)

end mat18

section mat8
variable (A : FVec Ideal S8x8x128 .f32) (p s g : FVec Ideal S128 .f32) (l : Fin 128) (M : ℕ → ℕ → EReal)

theorem pay64_rep (hA : KRep 8 128 A l M) (hp : p (ix1 l) = M 0 1) : KRep 6 128 (k0_pay64 A p) l (next M) :=
  step_rep _ _ _ _ _ _ _ _ _ _ _ _ l _ hA hp

theorem pay65_apply (hA : KRep 8 128 A l M) (hp : p (ix1 l) = M 0 1) : k0_pay65 A p (ix1 l) = next M 0 1 :=
  pivot_apply _ _ _ l _ (pay64_rep A p l M hA hp)

theorem pay66_apply (c : EReal) (hs : s (ix1 l) = c) (hA : KRep 8 128 A l M) (hp : p (ix1 l) = M 0 1) :
    k0_pay66 A p s (ix1 l) = c * sg (next M 0 1) :=
  (sgn_acc s (k0_pay65 A p) l).trans (mul_sg_congr hs (pay65_apply A p l M hA hp))

theorem pay67_apply (c : EReal) (hg : g (ix1 l) = c) (hA : KRep 8 128 A l M) (hp : p (ix1 l) = M 0 1) :
    k0_pay67 A p g (ix1 l) = c + lg (next M 0 1) :=
  (lg_acc g (k0_pay65 A p) l).trans (add_lg_congr hg (pay65_apply A p l M hA hp))

theorem pay68_rep (hA : KRep 8 128 A l M) (hp : p (ix1 l) = M 0 1) :
    KRep 4 128 (k0_pay68 A p) l (next (next M)) :=
  step_rep _ _ _ _ _ _ _ _ _ _ _ _ l _ (pay64_rep A p l M hA hp) (pay65_apply A p l M hA hp)

theorem pay69_apply (hA : KRep 8 128 A l M) (hp : p (ix1 l) = M 0 1) :
    k0_pay69 A p (ix1 l) = next (next M) 0 1 :=
  pivot_apply _ _ _ l _ (pay68_rep A p l M hA hp)

end mat8

/-! ## From a matrix and its pivot, not yet counted: one step, both pivots counted, and the next step's pieces

  Twice (sizes 24, 14) a matrix arrives with its pivot read but not counted; one step is taken, the sign and the
  logarithm take the arriving pivot and the new matrix's, and the five pieces of the following step are formed. -/

section mat24
variable (A : FVec Ideal S24x24x128 .f32) (p s g : FVec Ideal S128 .f32) (l : Fin 128) (M : ℕ → ℕ → EReal)

theorem pay28_rep (hA : KRep 24 128 A l M) (hp : p (ix1 l) = M 0 1) : KRep 22 128 (k0_pay28 A p) l (next M) :=
  step_rep _ _ _ _ _ _ _ _ _ _ _ _ l _ hA hp

theorem pay29_apply (hA : KRep 24 128 A l M) (hp : p (ix1 l) = M 0 1) : k0_pay29 A p (ix1 l) = next M 0 1 :=
  pivot_apply _ _ _ l _ (pay28_rep A p l M hA hp)

theorem pay30_apply (c : EReal) (hs : s (ix1 l) = c) (hA : KRep 24 128 A l M) (hp : p (ix1 l) = M 0 1) :
    k0_pay30 s A p (ix1 l) = c * sg (M 0 1) * sg (next M 0 1) :=
  (sgn_acc _ (k0_pay29 A p) l).trans
    (mul_sg_congr ((sgn_acc s p l).trans (mul_sg_congr hs hp)) (pay29_apply A p l M hA hp))

theorem pay31_apply (c : EReal) (hg : g (ix1 l) = c) (hA : KRep 24 128 A l M) (hp : p (ix1 l) = M 0 1) :
    k0_pay31 g A p (ix1 l) = c + lg (M 0 1) + lg (next M 0 1) :=
  (lg_acc _ (k0_pay29 A p) l).trans
    (add_lg_congr ((lg_acc g p l).trans (add_lg_congr hg hp)) (pay29_apply A p l M hA hp))

theorem pay32_rep (hA : KRep 24 128 A l M) (hp : p (ix1 l) = M 0 1) :
    VRep 20 128 (k0_pay32 A p) l (tau (next M)) :=
  tau_rep _ _ _ _ _ _ l _ (pay28_rep A p l M hA hp) (pay29_apply A p l M hA hp)

theorem pay33_rep (hA : KRep 24 128 A l M) (hp : p (ix1 l) = M 0 1) :
    VRep 20 128 (k0_pay33 A p) l (fun j => next M 1 (j + 2)) :=
  row_rep 1 _ _ _ l _ (pay28_rep A p l M hA hp)

theorem pay34_apply (hA : KRep 24 128 A l M) (hp : p (ix1 l) = M 0 1) (i j : Fin 20) :
    k0_pay34 A p (ix3 i j l) = next M (i.val + 2) (j.val + 2) :=
  trail_apply _ slices_S22x22x128_o2_2_0_S20x20x128 l _ (pay28_rep A p l M hA hp) i j

theorem pay35_apply (hA : KRep 24 128 A l M) (hp : p (ix1 l) = M 0 1) (i j : Fin 20) :
    k0_pay35 A p (ix3 i j l) = next M 1 (i.val + 2) :=
  colB_rep _ shapeCasts_S20x128_S20x1x128 broadcasts_S20x1x128_S20x20x128 l _ (pay33_rep A p l M hA hp) i j

theorem pay36_apply (hA : KRep 24 128 A l M) (hp : p (ix1 l) = M 0 1) (i j : Fin 20) :
    k0_pay36 A p (ix3 i j l) = tau (next M) j.val :=
  rowB_rep _ shapeCasts_S20x128_S1x20x128 broadcasts_S1x20x128_S20x20x128 l _ (pay32_rep A p l M hA hp) i j

end mat24

section mat14
variable (A : FVec Ideal S14x14x128 .f32) (p s g : FVec Ideal S128 .f32) (l : Fin 128) (M : ℕ → ℕ → EReal)

theorem pay49_rep (hA : KRep 14 128 A l M) (hp : p (ix1 l) = M 0 1) : KRep 12 128 (k0_pay49 A p) l (next M) :=
  step_rep _ _ _ _ _ _ _ _ _ _ _ _ l _ hA hp

theorem pay50_apply (hA : KRep 14 128 A l M) (hp : p (ix1 l) = M 0 1) : k0_pay50 A p (ix1 l) = next M 0 1 :=
  pivot_apply _ _ _ l _ (pay49_rep A p l M hA hp)

theorem pay51_apply (c : EReal) (hs : s (ix1 l) = c) (hA : KRep 14 128 A l M) (hp : p (ix1 l) = M 0 1) :
    k0_pay51 s A p (ix1 l) = c * sg (M 0 1) * sg (next M 0 1) :=
  (sgn_acc _ (k0_pay50 A p) l).trans
    (mul_sg_congr ((sgn_acc s p l).trans (mul_sg_congr hs hp)) (pay50_apply A p l M hA hp))

theorem pay52_apply (c : EReal) (hg : g (ix1 l) = c) (hA : KRep 14 128 A l M) (hp : p (ix1 l) = M 0 1) :
    k0_pay52 g A p (ix1 l) = c + lg (M 0 1) + lg (next M 0 1) :=
  (lg_acc _ (k0_pay50 A p) l).trans
    (add_lg_congr ((lg_acc g p l).trans (add_lg_congr hg hp)) (pay50_apply A p l M hA hp))

theorem pay53_rep (hA : KRep 14 128 A l M) (hp : p (ix1 l) = M 0 1) :
    VRep 10 128 (k0_pay53 A p) l (tau (next M)) :=
  tau_rep _ _ _ _ _ _ l _ (pay49_rep A p l M hA hp) (pay50_apply A p l M hA hp)

theorem pay54_rep (hA : KRep 14 128 A l M) (hp : p (ix1 l) = M 0 1) :
    VRep 10 128 (k0_pay54 A p) l (fun j => next M 1 (j + 2)) :=
  row_rep 1 _ _ _ l _ (pay49_rep A p l M hA hp)

theorem pay55_apply (hA : KRep 14 128 A l M) (hp : p (ix1 l) = M 0 1) (i j : Fin 10) :
    k0_pay55 A p (ix3 i j l) = next M (i.val + 2) (j.val + 2) :=
  trail_apply _ slices_S12x12x128_o2_2_0_S10x10x128 l _ (pay49_rep A p l M hA hp) i j

theorem pay56_apply (hA : KRep 14 128 A l M) (hp : p (ix1 l) = M 0 1) (i j : Fin 10) :
    k0_pay56 A p (ix3 i j l) = next M 1 (i.val + 2) :=
  colB_rep _ shapeCasts_S10x128_S10x1x128 broadcasts_S10x1x128_S10x10x128 l _ (pay54_rep A p l M hA hp) i j

theorem pay57_apply (hA : KRep 14 128 A l M) (hp : p (ix1 l) = M 0 1) (i j : Fin 10) :
    k0_pay57 A p (ix3 i j l) = tau (next M) j.val :=
  rowB_rep _ shapeCasts_S10x128_S1x10x128 broadcasts_S1x10x128_S10x10x128 l _ (pay53_rep A p l M hA hp) i j

end mat14

/-! ## The last step: from the 4 × 4 matrices to the sixteenth pivot, and the two stored blocks -/

section last
variable (A : FVec Ideal S4x4x128 .f32) (p s g : FVec Ideal S128 .f32) (l : Fin 128) (M : ℕ → ℕ → EReal)

/-- The pivot of the 2 × 2 matrix one step after M. -/
theorem pay70_apply (hA : KRep 4 128 A l M) (hp : p (ix1 l) = M 0 1) : k0_pay70 A p (ix1 l) = next M 0 1 :=
  pivot_apply _ _ _ l _ (step_rep _ _ _ _ _ _ _ _ _ _ _ _ l _ hA hp)

/-- The final logarithm. -/
theorem pay71_apply (c : EReal) (hg : g (ix1 l) = c) (hA : KRep 4 128 A l M) (hp : p (ix1 l) = M 0 1) :
    k0_pay71 g A p (ix1 l) = c + lg (M 0 1) + lg (next M 0 1) :=
  (lg_acc _ (k0_pay70 A p) l).trans
    (add_lg_congr ((lg_acc g p l).trans (add_lg_congr hg hp)) (pay70_apply A p l M hA hp))

/-- The final sign, as stored. -/
theorem pay72_apply (c : EReal) (hs : s (ix1 l) = c) (hA : KRep 4 128 A l M) (hp : p (ix1 l) = M 0 1) :
    k0_pay72 s A p (ix3 (0 : Fin 1) l (0 : Fin 1)) = c * sg (M 0 1) * sg (next M 0 1) :=
  (store_apply _ _ l).trans
    ((sgn_acc _ (k0_pay70 A p) l).trans
      (mul_sg_congr ((sgn_acc s p l).trans (mul_sg_congr hs hp)) (pay70_apply A p l M hA hp)))

/-- A vector over the lanes, as stored. -/
theorem pay1_apply (x : FVec Ideal S128 .f32) : k0_pay1 x (ix3 (0 : Fin 1) l (0 : Fin 1)) = x (ix1 l) :=
  store_apply x _ l

end last

end Cert.KernelIdeal.Body.Chain

end
-- ==== Proof.KChain.lean ====
/-
  The kernel body's chain threaded at one lane: the stored sign and logarithm.

  The body's values are named as in the body and read one after another at a lane l. With M the 32 × 32 matrix
  the lane holds at the start, the matrix after k eliminations is the k-th matrix of the elimination of M, each
  pivot read is that matrix's entry (0, 1), the running sign after k pivots is the product of their signs from
  the starting 1.0 and the running logarithm the sum of the logarithms of their magnitudes from the starting 0.0.
  Sixteen pivots are counted, so the stored blocks hold the sign and the logarithm of the elimination of M.
-/
import proofs.«416707_j11175504904264_4_alg».proof.Proof.KChain1
import proofs.«416707_j11175504904264_4_alg».proof.Proof.KChain2

noncomputable section

namespace Cert.KernelIdeal.Body

open Cert.KernelIdeal Cert.KernelIdeal.Gen Cert.KernelIdeal.Body Cert.KernelIdeal.Body.Chain Cert.Pf Idealize.ShloMosaic Idealize.ShloMosaic.ValueIdx

/-- The chain of the body's values, each named as in the body, read at a lane: the last sign is the product of
    the sixteen pivots' signs and the last logarithm the sum of their logarithms. -/
theorem chain_apply (v0 : Vec Ideal S1x2048x2048 .f32) (v2 : Vec Ideal S128x32 .i32) (l : Fin 128) (M : ℕ → ℕ → EReal)
    (hA : KRep 32 128 (A0 (F := Ideal) v0 v2) l M) :
    let v1 := k0_pay2 v0
    let v3 : IVec S1x1x2048 32 := iota3
    let v19 := k0_pay3 v0 v2
    let v35 := k0_pay4 v0 v2
    let v42 := k0_pay5 v2
    let v45 := k0_pay6 v0 v2
    let v83 := k0_pay9 v1 v2 v3 v19 v35 v42 v45
    let v86 := k0_pay10 v1 v2 v3 v19 v35 v42 v45
    let v91 := k0_pay11 v1 v2 v3 v19 v35 v42 v45
    let v93 := k0_pay12 v1 v2 v3 v19 v35 v42 v45
    let v94 := k0_pay13 v1 v2 v3 v19 v35 v42 v45
    let v97 := k0_pay14 v1 v2 v3 v19 v35 v42 v45
    let v98 := k0_pay15 v1 v2 v3 v19 v35 v42 v45
    let v142 := k0_pay18 v91 v93 v94 v97 v98
    let v144 := k0_pay19 v91 v93 v94 v97 v98
    let v155 := k0_pay20 v83 v91 v93 v94 v97 v98
    let v158 := k0_pay21 v86 v91 v93 v94 v97 v98
    let v191 := k0_pay24 v142 v144 v155
    let v194 := k0_pay25 v142 v144 v158
    let v214 := k0_pay26 v142 v144
    let v216 := k0_pay27 v142 v144
    let v263 := k0_pay30 v191 v214 v216
    let v266 := k0_pay31 v194 v214 v216
    let v271 := k0_pay32 v214 v216
    let v273 := k0_pay33 v214 v216
    let v274 := k0_pay34 v214 v216
    let v277 := k0_pay35 v214 v216
    let v278 := k0_pay36 v214 v216
    let v322 := k0_pay39 v271 v273 v274 v277 v278
    let v324 := k0_pay40 v271 v273 v274 v277 v278
    let v335 := k0_pay41 v263 v271 v273 v274 v277 v278
    let v338 := k0_pay42 v266 v271 v273 v274 v277 v278
    let v371 := k0_pay45 v322 v324 v335
    let v374 := k0_pay46 v322 v324 v338
    let v394 := k0_pay47 v322 v324
    let v396 := k0_pay48 v322 v324
    let v443 := k0_pay51 v371 v394 v396
    let v446 := k0_pay52 v374 v394 v396
    let v451 := k0_pay53 v394 v396
    let v453 := k0_pay54 v394 v396
    let v454 := k0_pay55 v394 v396
    let v457 := k0_pay56 v394 v396
    let v458 := k0_pay57 v394 v396
    let v502 := k0_pay60 v451 v453 v454 v457 v458
    let v504 := k0_pay61 v451 v453 v454 v457 v458
    let v515 := k0_pay62 v443 v451 v453 v454 v457 v458
    let v518 := k0_pay63 v446 v451 v453 v454 v457 v458
    let v551 := k0_pay66 v502 v504 v515
    let v554 := k0_pay67 v502 v504 v518
    let v574 := k0_pay68 v502 v504
    let v576 := k0_pay69 v502 v504
    k0_pay72 v551 v574 v576 (ix3 (0 : Fin 1) l (0 : Fin 1)) = sgnAt one M 16 ∧
      k0_pay1 (k0_pay71 v554 v574 v576) (ix3 (0 : Fin 1) l (0 : Fin 1)) = logAt zero M 16 := by
  intro v1 v3 v19 v35 v42 v45 v83 v86 v91 v93 v94 v97 v98 v142 v144 v155 v158 v191 v194 v214 v216 v263 v266
    v271 v273 v274 v277 v278 v322 v324 v335 v338 v371 v374 v394 v396 v443 v446 v451 v453 v454 v457 v458
    v502 v504 v515 v518 v551 v554 v574 v576
  have hA0 : KRep 32 128 (k0_pay7 v1 v2 v3 v19 v35 v42 v45) l M := hA
  -- pivot 0 counted; the pieces of the first step
  have s1 : v83 (ix1 l) = sgnAt one M 1 := pay9_apply v1 v2 v3 v19 v35 v42 v45 l M hA0
  have g1 : v86 (ix1 l) = logAt zero M 1 := pay10_apply v1 v2 v3 v19 v35 v42 v45 l M hA0
  have m1 : KRep 30 128 (k0_pay16 v91 v93 v94 v97 v98) l (Mk M 1) :=
    pay16_rep v91 v93 v94 v97 v98 l M (pay11_rep v1 v2 v3 v19 v35 v42 v45 l M hA0)
      (pay12_rep v1 v2 v3 v19 v35 v42 v45 l M hA0) (pay13_apply v1 v2 v3 v19 v35 v42 v45 l M hA0)
      (pay14_apply v1 v2 v3 v19 v35 v42 v45 l M hA0) (pay15_apply v1 v2 v3 v19 v35 v42 v45 l M hA0)
  -- steps 1 and 2; pivots 1 and 2 counted
  have m2 : KRep 28 128 v142 l (Mk M 2) := pay18_rep v91 v93 v94 v97 v98 l M m1
  have p2 : v144 (ix1 l) = Mk M 2 0 1 := pay19_apply v91 v93 v94 v97 v98 l M m1
  have s3 : v155 (ix1 l) = sgnAt one M 3 := pay20_apply v83 v91 v93 v94 v97 v98 l M _ s1 m1
  have g3 : v158 (ix1 l) = logAt zero M 3 := pay21_apply v86 v91 v93 v94 v97 v98 l M _ g1 m1
  -- steps 3 and 4; pivot 3 counted
  have s4 : v191 (ix1 l) = sgnAt one M 4 := pay24_apply v142 v144 v155 l (Mk M 2) _ s3 m2 p2
  have g4 : v194 (ix1 l) = logAt zero M 4 := pay25_apply v142 v144 v158 l (Mk M 2) _ g3 m2 p2
  have m4 : KRep 24 128 v214 l (Mk M 4) := pay26_rep v142 v144 l (Mk M 2) m2 p2
  have p4 : v216 (ix1 l) = Mk M 4 0 1 := pay27_apply v142 v144 l (Mk M 2) m2 p2
  -- step 5; pivots 4 and 5 counted; the pieces of step 6
  have s6 : v263 (ix1 l) = sgnAt one M 6 := pay30_apply v214 v216 v191 l (Mk M 4) _ s4 m4 p4
  have g6 : v266 (ix1 l) = logAt zero M 6 := pay31_apply v214 v216 v194 l (Mk M 4) _ g4 m4 p4
  have m6 : KRep 20 128 (k0_pay37 v271 v273 v274 v277 v278) l (Mk M 6) :=
    pay37_rep v271 v273 v274 v277 v278 l (Mk M 5) (pay32_rep v214 v216 l (Mk M 4) m4 p4)
      (pay33_rep v214 v216 l (Mk M 4) m4 p4) (pay34_apply v214 v216 l (Mk M 4) m4 p4)
      (pay35_apply v214 v216 l (Mk M 4) m4 p4) (pay36_apply v214 v216 l (Mk M 4) m4 p4)
  -- steps 6 and 7; pivots 6 and 7 counted
  have m7 : KRep 18 128 v322 l (Mk M 7) := pay39_rep v271 v273 v274 v277 v278 l (Mk M 5) m6
  have p7 : v324 (ix1 l) = Mk M 7 0 1 := pay40_apply v271 v273 v274 v277 v278 l (Mk M 5) m6
  have s8 : v335 (ix1 l) = sgnAt one M 8 := pay41_apply v263 v271 v273 v274 v277 v278 l (Mk M 5) _ s6 m6
  have g8 : v338 (ix1 l) = logAt zero M 8 := pay42_apply v266 v271 v273 v274 v277 v278 l (Mk M 5) _ g6 m6
  -- steps 8 and 9; pivot 8 counted
  have s9 : v371 (ix1 l) = sgnAt one M 9 := pay45_apply v322 v324 v335 l (Mk M 7) _ s8 m7 p7
  have g9 : v374 (ix1 l) = logAt zero M 9 := pay46_apply v322 v324 v338 l (Mk M 7) _ g8 m7 p7
  have m9 : KRep 14 128 v394 l (Mk M 9) := pay47_rep v322 v324 l (Mk M 7) m7 p7
  have p9 : v396 (ix1 l) = Mk M 9 0 1 := pay48_apply v322 v324 l (Mk M 7) m7 p7
  -- step 10; pivots 9 and 10 counted; the pieces of step 11
  have s11 : v443 (ix1 l) = sgnAt one M 11 := pay51_apply v394 v396 v371 l (Mk M 9) _ s9 m9 p9
  have g11 : v446 (ix1 l) = logAt zero M 11 := pay52_apply v394 v396 v374 l (Mk M 9) _ g9 m9 p9
  have m11 : KRep 10 128 (k0_pay58 v451 v453 v454 v457 v458) l (Mk M 11) :=
    pay58_rep v451 v453 v454 v457 v458 l (Mk M 10) (pay53_rep v394 v396 l (Mk M 9) m9 p9)
      (pay54_rep v394 v396 l (Mk M 9) m9 p9) (pay55_apply v394 v396 l (Mk M 9) m9 p9)
      (pay56_apply v394 v396 l (Mk M 9) m9 p9) (pay57_apply v394 v396 l (Mk M 9) m9 p9)
  -- steps 11 and 12; pivots 11 and 12 counted
  have m12 : KRep 8 128 v502 l (Mk M 12) := pay60_rep v451 v453 v454 v457 v458 l (Mk M 10) m11
  have p12 : v504 (ix1 l) = Mk M 12 0 1 := pay61_apply v451 v453 v454 v457 v458 l (Mk M 10) m11
  have s13 : v515 (ix1 l) = sgnAt one M 13 := pay62_apply v443 v451 v453 v454 v457 v458 l (Mk M 10) _ s11 m11
  have g13 : v518 (ix1 l) = logAt zero M 13 := pay63_apply v446 v451 v453 v454 v457 v458 l (Mk M 10) _ g11 m11
  -- steps 13 and 14; pivot 13 counted
  have s14 : v551 (ix1 l) = sgnAt one M 14 := pay66_apply v502 v504 v515 l (Mk M 12) _ s13 m12 p12
  have g14 : v554 (ix1 l) = logAt zero M 14 := pay67_apply v502 v504 v518 l (Mk M 12) _ g13 m12 p12
  have m14 : KRep 4 128 v574 l (Mk M 14) := pay68_rep v502 v504 l (Mk M 12) m12 p12
  have p14 : v576 (ix1 l) = Mk M 14 0 1 := pay69_apply v502 v504 l (Mk M 12) m12 p12
  -- step 15; pivots 14 and 15 counted; the stored blocks
  exact ⟨pay72_apply v574 v576 v551 l (Mk M 14) _ s14 m14 p14,
    (pay1_apply l _).trans (pay71_apply v574 v576 v554 l (Mk M 14) _ g14 m14 p14)⟩

/-- The stored sign at a lane: the product of the sixteen pivots' signs. -/
theorem bodySign_apply (v0 : Vec Ideal S1x2048x2048 .f32) (v2 : Vec Ideal S128x32 .i32) (l : Fin 128) (M : ℕ → ℕ → EReal)
    (hA : Cert.Pf.KRep 32 128 (A0 (F := Ideal) v0 v2) l M) :
    bodySign (F := Ideal) v0 v2 (ix3 (0 : Fin 1) l (0 : Fin 1)) = Cert.Pf.sgnAt Cert.Pf.one M 16 :=
  (chain_apply v0 v2 l M hA).1

/-- The stored logarithm at a lane: the sum of the sixteen pivots' logarithms. -/
theorem bodyLog_apply (v0 : Vec Ideal S1x2048x2048 .f32) (v2 : Vec Ideal S128x32 .i32) (l : Fin 128) (M : ℕ → ℕ → EReal)
    (hA : Cert.Pf.KRep 32 128 (A0 (F := Ideal) v0 v2) l M) :
    bodyLog (F := Ideal) v0 v2 (ix3 (0 : Fin 1) l (0 : Fin 1)) = Cert.Pf.logAt Cert.Pf.zero M 16 :=
  (chain_apply v0 v2 l M hA).2

end Cert.KernelIdeal.Body

end
-- ==== Proof.PfArr.lean ====
/-
  The two arrays both programs feed to the final combination: for sample b and Pfaffian p, the accumulated
  sign and logarithm of the sixteen pivots of the matrix M0 of table slab p and index row b, as [2048, 16]
  arrays of the two arguments.
-/
import proofs.«416707_j11175504904264_4_alg».proof.Proof.PfSpec

noncomputable section

namespace Cert.Pf

open Idealize.ShloMosaic Idealize.ShloMosaic.ValueIdx

/-- The signs: entry (b, p) is the sign of the Pfaffian of slab p at index row b. -/
def SIGN (A : FVec Ideal (K3 16 2048 2048) .f32) (I : IVec (K2 2048 32) 32) : FVec Ideal (K2 2048 16) .f32 :=
  fun i => sgnAt one (M0 A I (⟨(i 1).val, (i 1).isLt⟩ : Fin 16) (⟨(i 0).val, (i 0).isLt⟩ : Fin 2048)) 16

/-- The logarithms of the magnitudes. -/
def LOG (A : FVec Ideal (K3 16 2048 2048) .f32) (I : IVec (K2 2048 32) 32) : FVec Ideal (K2 2048 16) .f32 :=
  fun i => logAt zero (M0 A I (⟨(i 1).val, (i 1).isLt⟩ : Fin 16) (⟨(i 0).val, (i 0).isLt⟩ : Fin 2048)) 16

theorem SIGN_apply (A : FVec Ideal (K3 16 2048 2048) .f32) (I : IVec (K2 2048 32) 32) (b : Fin 2048) (p : Fin 16) :
    SIGN A I (ix2 b p) = sgnAt one (M0 A I p b) 16 := rfl

theorem LOG_apply (A : FVec Ideal (K3 16 2048 2048) .f32) (I : IVec (K2 2048 32) 32) (b : Fin 2048) (p : Fin 16) :
    LOG A I (ix2 b p) = logAt zero (M0 A I p b) 16 := rfl

end Cert.Pf

end
-- ==== Proof.Tail.lean ====
/-
  The combination of the sixteen Pfaffians of a sample: a signed log-sum-exp.

  Given the signs S and the logarithms L of the sixteen Pfaffians of each sample ([2048, 16]), with m the largest
  logarithm of the row, the value is the sum over the row of S · exp (L − m); the results are its sign and
  m + log |value|. Both programs end with exactly these operations, so the certificate carries them as one
  function of (S, L) and never opens them: equal (S, L) give equal results.
-/
import proofs.«416707_j11175504904264_4_alg».proof.KernelIdeal
import Idealize.ShloMosaic.PureOps.Ideal

noncomputable section

namespace Cert.KernelIdeal.Tail

open Cert.KernelIdeal Idealize.ShloMosaic

variable [Facts]
open Facts₀ Facts

/-- The largest logarithm of each row. -/
def tailMax (L : FVec Ideal S2048x16 .f32) : FVec Ideal S2048 .f32 :=
  Host.reduce FloatOps.maximumf L (constant (F := Ideal) S_ .f32 0xFF800000#32) reducesTo_S2048x16_S2048_d1 h_S_

/-- The row's sum of sign times the exponential of the logarithm less the largest. -/
def tailSum (S L : FVec Ideal S2048x16 .f32) : FVec Ideal S2048 .f32 :=
  Host.reduceAdd (mulf S (Host.exp (subf L (broadcastInDim S2048x16 ![0, 1] bcast_S2048x1_S2048x16_0_1
    (broadcastInDim S2048x1 ![0] bcast_S2048_S2048x1_0 (tailMax L))))))
    (constant (F := Ideal) S_ .f32 0x00000000#32) reducesTo_S2048x16_S2048_d1 h_S_

/-- The first result: the sign of the sum. -/
def tailSign (S L : FVec Ideal S2048x16 .f32) : FVec Ideal S2048 .f32 := Host.sign (tailSum S L)

/-- The second result: the largest logarithm plus the logarithm of the sum's magnitude. -/
def tailLog (S L : FVec Ideal S2048x16 .f32) : FVec Ideal S2048 .f32 :=
  addf (tailMax L) (Host.log (Host.absf (tailSum S L)))

end Cert.KernelIdeal.Tail

end
-- ==== Proof.KArray.lean ====
/-
  The kernel's two output arrays after the region, as functions of the arguments.

  The grid is 16 × 16: point (p, q) stages slab p of the table ([1, 2048, 2048]) and rows 128 q … 128 q + 127 of the
  indices ([128, 32]) and writes back block (p, q, 0) of each output ([1, 128, 1] of [16, 2048, 1]). Lane l of the
  point is sample b = 128 q + l, and what the body stores there is the accumulated sign (logarithm) of the sixteen
  pivots of the matrix M0 of slab p and index row b: the slab read through the staged block is the table's slab,
  the block's row l is the array's row b. The 256 blocks tile each output, so each output array is that function
  of the arguments everywhere.
-/
import proofs.«416707_j11175504904264_4_alg».proof.Proof.FrameKI
import proofs.«416707_j11175504904264_4_alg».proof.Proof.KBody
import proofs.«416707_j11175504904264_4_alg».proof.Proof.KGather
import proofs.«416707_j11175504904264_4_alg».proof.Proof.KChain
import proofs.«416707_j11175504904264_4_alg».proof.Proof.PfArr
import proofs.«416707_j11175504904264_4_alg».proof.Proof.Tail
import Idealize.ShloMosaic.Lib.Pipeline.Value
import Idealize.ShloMosaic.Lib.StableHlo.Run

set_option maxRecDepth 16384

noncomputable section

namespace Cert.KernelIdeal.Arr

open Cert.KernelIdeal Cert.KernelIdeal.Gen Cert.KernelIdeal.GenP Cert.KernelIdeal.Body Cert.Pf
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body stores, from its two loads -/

set_option maxHeartbeats 4000000 in
/-- The first output's staging buffer after the body is the chain's accumulated signs. -/
theorem out0_2_eq (x0 : Vec Ideal S1x2048x2048 .f32) (x1 : Vec Ideal S128x32 .i32) :
    out0_2 (F := Ideal) x0 x1 = View.canon [⟨r0_2, bodySign (View.ld x0 r0_0) (View.ld x1 r0_1)⟩] := rfl

set_option maxHeartbeats 4000000 in
/-- The second output's staging buffer after the body is the chain's accumulated logarithms. -/
theorem out0_3_eq (x0 : Vec Ideal S1x2048x2048 .f32) (x1 : Vec Ideal S128x32 .i32) :
    out0_3 (F := Ideal) x0 x1 = View.canon [⟨r0_2, bodyLog (View.ld x0 r0_0) (View.ld x1 r0_1)⟩] := rfl

/-- The matrix of one staged slab and one row of the staged index block. -/
abbrev Mblk (x0 : Vec Ideal S1x2048x2048 .f32) (x1 : Vec Ideal S128x32 .i32) (l : Fin 128) : ℕ → ℕ → EReal :=
  M0 (P := 1) (R := 2048) (C := 2048) (B := 128) (E := 32) x0 x1 (0 : Fin 1) l

/-- Every entry of a [1, 128, 1] block is (0, l, 0) for its lane l. -/
theorem blk_idx (y : S1x128x1.Idx) : y = ix3 (0 : Fin 1) (⟨(y 1).val, (y 1).isLt⟩ : Fin 128) (0 : Fin 1) := by
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)

/-- What the body stores at lane l of the first output: the sign of the sixteen pivots of the lane's matrix. -/
theorem point_sign (x0 : Vec Ideal S1x2048x2048 .f32) (x1 : Vec Ideal S128x32 .i32)
    (hidx : ∀ (l : Fin 128) (n : Fin 32), (x1 (ix2 l n)).toNat < 2048) (y : S1x128x1.Idx) :
    bodySign (F := Ideal) x0 x1 y = sgnAt one (Mblk x0 x1 ⟨(y 1).val, (y 1).isLt⟩) 16 := by
  rw [blk_idx y]
  exact bodySign_apply x0 x1 _ _ (A0_rep x0 x1 _ (hidx _))

/-- The same for the second output and the logarithm. -/
theorem point_log (x0 : Vec Ideal S1x2048x2048 .f32) (x1 : Vec Ideal S128x32 .i32)
    (hidx : ∀ (l : Fin 128) (n : Fin 32), (x1 (ix2 l n)).toNat < 2048) (y : S1x128x1.Idx) :
    bodyLog (F := Ideal) x0 x1 y = logAt zero (Mblk x0 x1 ⟨(y 1).val, (y 1).isLt⟩) 16 := by
  rw [blk_idx y]
  exact bodyLog_apply x0 x1 _ _ (A0_rep x0 x1 _ (hidx _))

/-! ## The index maps over the grid -/

/-- Decided over the 256 points: the table's window moves with the output's first block index, the index
    window with its second, every other block index is 0, and the two outputs move together. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 2) = win0_2.index t (1 : Fin 3) ∧ win0_1.index t (1 : Fin 2) = 0
    ∧ win0_2.index t (2 : Fin 3) = 0 ∧ win0_2.index t (0 : Fin 3) ≤ 15 ∧ win0_2.index t (1 : Fin 3) ≤ 15
    ∧ win0_3.index t (0 : Fin 3) = win0_2.index t (0 : Fin 3) ∧ win0_3.index t (1 : Fin 3) = win0_2.index t (1 : Fin 3)
    ∧ win0_3.index t (2 : Fin 3) = 0 :=
  (by decide +kernel : ∀ t : Fin grid0.N, _)

/-- Every block (p, q, 0) of an output is some point's. -/
theorem idx_onto : ∀ (q0 q1 : Fin 16), ∃ t : Fin cfg0.N, win0_2.index t = ![q0.val, q1.val, 0] ∧ win0_3.index t = ![q0.val, q1.val, 0] :=
  (by decide +kernel : ∀ (q0 q1 : Fin 16), ∃ t : Fin grid0.N, win0_2.index t = ![q0.val, q1.val, 0] ∧ win0_3.index t = ![q0.val, q1.val, 0])

/-! ## A staged block is a piece of the whole array -/

/-- A staged slab that agrees with slab p of the table entry by entry is slab p. -/
theorem tab_of_eq {P : ℕ} (x0 : FVec Ideal (K3 1 2048 2048) .f32) (T : FVec Ideal (K3 P 2048 2048) .f32) (p : Fin P)
    (h : ∀ a b : Fin 2048, x0 (ix3 (0 : Fin 1) a b) = T (ix3 p a b)) : tab x0 (0 : Fin 1) = tab T p := by
  funext a b
  unfold tab
  split_ifs with hab
  · exact h _ _
  · rfl

/-- A row of the staged index block that agrees with row b of the index array is row b. -/
theorem idxRow_of_eq (x1 : IVec (K2 128 32) 32) (I : IVec (K2 2048 32) 32) (l : Fin 128) (b : Fin 2048)
    (h : ∀ n : Fin 32, x1 (ix2 l n) = I (ix2 b n)) : idxRow x1 l = idxRow I b := by
  funext n
  unfold idxRow
  split_ifs with hn
  · rw [h]
  · rfl

/-- So the lane's matrix is the matrix of slab p and row b of the arguments. -/
theorem M0_of_eq (x0 : FVec Ideal (K3 1 2048 2048) .f32) (x1 : IVec (K2 128 32) 32)
    (T : FVec Ideal (K3 16 2048 2048) .f32) (I : IVec (K2 2048 32) 32) (l : Fin 128) (p : Fin 16) (b : Fin 2048)
    (h0 : ∀ a b : Fin 2048, x0 (ix3 (0 : Fin 1) a b) = T (ix3 p a b))
    (h1 : ∀ n : Fin 32, x1 (ix2 l n) = I (ix2 b n)) :
    M0 x0 x1 (0 : Fin 1) l = M0 T I p b := by
  unfold M0
  rw [tab_of_eq x0 T p h0, idxRow_of_eq x1 I l b h1]

/-! ## The output arrays as functions of the arguments -/

/-- The first output: entry (p, b, 0) is the sign of the Pfaffian of slab p at index row b. -/
abbrev SgArr (A : FVec Ideal S16x2048x2048 .f32) (I : IVec S2048x32 32) : S16x2048x1.Idx → Elt Ideal .f32 :=
  fun i => sgnAt one (M0 (P := 16) (R := 2048) (C := 2048) (B := 2048) (E := 32) A I ⟨(i 0).val, (i 0).isLt⟩ ⟨(i 1).val, (i 1).isLt⟩) 16

/-- The second output: the logarithm of its magnitude. -/
abbrev LgArr (A : FVec Ideal S16x2048x2048 .f32) (I : IVec S2048x32 32) : S16x2048x1.Idx → Elt Ideal .f32 :=
  fun i => logAt zero (M0 (P := 16) (R := 2048) (C := 2048) (B := 2048) (E := 32) A I ⟨(i 0).val, (i 0).isLt⟩ ⟨(i 1).val, (i 1).isLt⟩) 16

set_option backward.isDefEq.respectTransparency.types false in
/-- What point t writes back to the first output is block t of SgArr of the arguments. -/
theorem flushedS_eq (c : Dev nD) (t : Fin cfg0.N)
    (hidx : ∀ (b : Fin 2048) (n : Fin 32), ((V m c main_arg1 : IVec S2048x32 32) (ix2 b n)).toNat < 2048) :
    (dats m 0 c).flushed 2 t = ((cfg0.win 2).blk t).view.read (Elt Ideal) (SgArr (V m c main_arg0) (V m c main_arg1)) := by
  show (cfg0.win 2).cut (grid0.coords t) ((dats m 0 c).after 2 t) = _
  rw [after0_2, out0_2_eq, View.canon_unit_zero hz3]
  simp only [View.ld_unit_zero (S := S1x2048x2048) hz3, View.ld_unit_zero (S := S128x32) hz2]
  obtain ⟨e00, e01, e02, e10, e11, e22, b0, b1, -, -, -⟩ := idx_facts t
  funext j
  show bodySign (F := Ideal) (iblk m c 0 t) (iblk m c 1 t) j
    = SgArr (V m c main_arg0) (V m c main_arg1) (((cfg0.win 2).blk t).view.emb j)
  have hj0 : (j 0).val < 1 := (j 0).isLt
  have hj1 : (j 1).val < 128 := (j 1).isLt
  have hblk : ∀ (l : Fin 128) (n : Fin 32), (iblk m c 1 t (ix2 l n)).toNat < 2048 := by
    intro l n
    have hb : win0_1.index t (0 : Fin 2) * 128 + 1 * l.val < 2048 := by omega
    have := hidx ⟨win0_1.index t (0 : Fin 2) * 128 + 1 * l.val, hb⟩ n
    refine lt_of_eq_of_lt (congrArg BitVec.toNat ?_) this
    show V m c main_arg1 (((cfg0.win 1).blk t).view.emb (ix2 l n)) = V m c main_arg1 (ix2 _ n)
    refine congrArg _ (funext fun a => Fin.ext ?_)
    match a with
    | ⟨0, _⟩ => rfl
    | ⟨1, _⟩ => show win0_1.index t (1 : Fin 2) * 32 + 1 * n.val = n.val; omega
  refine (point_sign (iblk m c 0 t) (iblk m c 1 t) hblk j).trans ?_
  show sgnAt one (Mblk (iblk m c 0 t) (iblk m c 1 t) ⟨(j 1).val, (j 1).isLt⟩) 16 = sgnAt one (M0 _ _ _ _) 16
  refine congrArg (fun M => sgnAt one M 16) (M0_of_eq _ _ _ _ _ _ _ ?_ ?_)
  · intro a b
    show V m c main_arg0 (((cfg0.win 0).blk t).view.emb (ix3 (0 : Fin 1) a b)) = V m c main_arg0 (ix3 _ a b)
    refine congrArg _ (funext fun ax => Fin.ext ?_)
    match ax with
    | ⟨0, _⟩ => show win0_0.index t (0 : Fin 3) * 1 + 1 * 0 = win0_2.index t (0 : Fin 3) * 1 + 1 * (j 0).val; omega
    | ⟨1, _⟩ => show win0_0.index t (1 : Fin 3) * 2048 + 1 * a.val = a.val; omega
    | ⟨2, _⟩ => show win0_0.index t (2 : Fin 3) * 2048 + 1 * b.val = b.val; omega
  · intro n
    show V m c main_arg1 (((cfg0.win 1).blk t).view.emb (ix2 _ n)) = V m c main_arg1 (ix2 _ n)
    refine congrArg _ (funext fun ax => Fin.ext ?_)
    match ax with
    | ⟨0, _⟩ => show win0_1.index t (0 : Fin 2) * 128 + 1 * (j 1).val = win0_2.index t (1 : Fin 3) * 128 + 1 * (j 1).val; omega
    | ⟨1, _⟩ => show win0_1.index t (1 : Fin 2) * 32 + 1 * n.val = n.val; omega

set_option backward.isDefEq.respectTransparency.types false in
/-- What point t writes back to the second output is block t of LgArr of the arguments. -/
theorem flushedL_eq (c : Dev nD) (t : Fin cfg0.N)
    (hidx : ∀ (b : Fin 2048) (n : Fin 32), ((V m c main_arg1 : IVec S2048x32 32) (ix2 b n)).toNat < 2048) :
    (dats m 0 c).flushed 3 t = ((cfg0.win 3).blk t).view.read (Elt Ideal) (LgArr (V m c main_arg0) (V m c main_arg1)) := by
  show (cfg0.win 3).cut (grid0.coords t) ((dats m 0 c).after 3 t) = _
  rw [after0_3, out0_3_eq, View.canon_unit_zero hz3]
  simp only [View.ld_unit_zero (S := S1x2048x2048) hz3, View.ld_unit_zero (S := S128x32) hz2]
  obtain ⟨e00, e01, e02, e10, e11, e22, b0, b1, e30, e31, e32⟩ := idx_facts t
  funext j
  show bodyLog (F := Ideal) (iblk m c 0 t) (iblk m c 1 t) j
    = LgArr (V m c main_arg0) (V m c main_arg1) (((cfg0.win 3).blk t).view.emb j)
  have hj0 : (j 0).val < 1 := (j 0).isLt
  have hj1 : (j 1).val < 128 := (j 1).isLt
  have hblk : ∀ (l : Fin 128) (n : Fin 32), (iblk m c 1 t (ix2 l n)).toNat < 2048 := by
    intro l n
    have hb : win0_1.index t (0 : Fin 2) * 128 + 1 * l.val < 2048 := by omega
    have := hidx ⟨win0_1.index t (0 : Fin 2) * 128 + 1 * l.val, hb⟩ n
    refine lt_of_eq_of_lt (congrArg BitVec.toNat ?_) this
    show V m c main_arg1 (((cfg0.win 1).blk t).view.emb (ix2 l n)) = V m c main_arg1 (ix2 _ n)
    refine congrArg _ (funext fun a => Fin.ext ?_)
    match a with
    | ⟨0, _⟩ => rfl
    | ⟨1, _⟩ => show win0_1.index t (1 : Fin 2) * 32 + 1 * n.val = n.val; omega
  refine (point_log (iblk m c 0 t) (iblk m c 1 t) hblk j).trans ?_
  show logAt zero (Mblk (iblk m c 0 t) (iblk m c 1 t) ⟨(j 1).val, (j 1).isLt⟩) 16 = logAt zero (M0 _ _ _ _) 16
  refine congrArg (fun M => logAt zero M 16) (M0_of_eq _ _ _ _ _ _ _ ?_ ?_)
  · intro a b
    show V m c main_arg0 (((cfg0.win 0).blk t).view.emb (ix3 (0 : Fin 1) a b)) = V m c main_arg0 (ix3 _ a b)
    refine congrArg _ (funext fun ax => Fin.ext ?_)
    match ax with
    | ⟨0, _⟩ => show win0_0.index t (0 : Fin 3) * 1 + 1 * 0 = win0_3.index t (0 : Fin 3) * 1 + 1 * (j 0).val; omega
    | ⟨1, _⟩ => show win0_0.index t (1 : Fin 3) * 2048 + 1 * a.val = a.val; omega
    | ⟨2, _⟩ => show win0_0.index t (2 : Fin 3) * 2048 + 1 * b.val = b.val; omega
  · intro n
    show V m c main_arg1 (((cfg0.win 1).blk t).view.emb (ix2 _ n)) = V m c main_arg1 (ix2 _ n)
    refine congrArg _ (funext fun ax => Fin.ext ?_)
    match ax with
    | ⟨0, _⟩ => show win0_1.index t (0 : Fin 2) * 128 + 1 * (j 1).val = win0_3.index t (1 : Fin 3) * 128 + 1 * (j 1).val; omega
    | ⟨1, _⟩ => show win0_1.index t (1 : Fin 2) * 32 + 1 * n.val = n.val; omega

/-! ## The blocks tile each output -/

/-- An index of an output array is in point t's block of the first output iff each coordinate is in the block's range. -/
theorem mem_blkS (t : Fin cfg0.N) (i : S16x2048x1.Idx) :
    i ∈ ((cfg0.win 2).blk t).view.set ↔ ∀ a : Fin 3, win0_2.index t a * S1x128x1.size a ≤ (i a).val ∧ (i a).val < win0_2.index t a * S1x128x1.size a + S1x128x1.size a := by
  show i ∈ ((View.whole main_v0_0).slice (win0_2.rect t)).set ↔ _
  rw [View.set_slice_whole, Rect.mem_set_unit]
  exact Iff.rfl

/-- The same for the second output. -/
theorem mem_blkL (t : Fin cfg0.N) (i : S16x2048x1.Idx) :
    i ∈ ((cfg0.win 3).blk t).view.set ↔ ∀ a : Fin 3, win0_3.index t a * S1x128x1.size a ≤ (i a).val ∧ (i a).val < win0_3.index t a * S1x128x1.size a + S1x128x1.size a := by
  show i ∈ ((View.whole main_v0_1).slice (win0_3.rect t)).set ↔ _
  rw [View.set_slice_whole, Rect.mem_set_unit]
  exact Iff.rfl

/-- Every index (p, b, 0) of the first output is in the block of the point with block indices (p, b / 128, 0). -/
theorem coverS (i : S16x2048x1.Idx) : ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 1 := (i 2).isLt
  obtain ⟨t, ht, -⟩ := idx_onto ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_blkS]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 1 ≤ (i 2).val ∧ (i 2).val < win0_2.index t (2 : Fin 3) * 1 + 1; omega

/-- The same for the second output. -/
theorem coverL (i : S16x2048x1.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 1 := (i 2).isLt
  obtain ⟨t, -, ht⟩ := idx_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blkL]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 1 ≤ (i 2).val ∧ (i 2).val < win0_3.index t (2 : Fin 3) * 1 + 1; omega

/-! ## The arrays after the run -/

/-- The first output array after the region: the signs, everywhere. -/
theorem finalS (c : Dev nD)
    (hidx : ∀ (b : Fin 2048) (n : Fin 32), ((V m c main_arg1 : IVec S2048x32 32) (ix2 b n)).toNat < 2048) :
    (dats m 0 c).arrAt 2 cfg0.N = SgArr (V m c main_arg0) (V m c main_arg1) :=
  (dats m 0 c).arrAt_eq_of_cover 2 (SgArr (V m c main_arg0) (V m c main_arg1)) (fun t _ => flushedS_eq m c t hidx) coverS

/-- The second output array after the region: the logarithms, everywhere. -/
theorem finalL (c : Dev nD)
    (hidx : ∀ (b : Fin 2048) (n : Fin 32), ((V m c main_arg1 : IVec S2048x32 32) (ix2 b n)).toNat < 2048) :
    (dats m 0 c).arrAt 3 cfg0.N = LgArr (V m c main_arg0) (V m c main_arg1) :=
  (dats m 0 c).arrAt_eq_of_cover 3 (LgArr (V m c main_arg0) (V m c main_arg1)) (fun t _ => flushedL_eq m c t hidx) coverL

/-! ## The run, read -/

/-- An output array [16, 2048, 1] with its unit axis dropped and the two others swapped: [2048, 16]. -/
def flip (X : FVec Ideal S16x2048x1 .f32) : FVec Ideal S2048x16 .f32 :=
  transpose S2048x16 [1, 0] (shapeCast S16x2048 X shapeCasts_S16x2048x1_S16x2048) transposes_S16x2048_S2048x16_1_0

/-- Entry (b, p) of the flipped array is entry (p, b, 0). -/
theorem flip_apply (X : FVec Ideal S16x2048x1 .f32) (b : Fin 2048) (p : Fin 16) :
    flip X (ix2 b p) = X (ix3 p b (0 : Fin 1)) := by
  unfold flip
  refine (transpose_apply [1, 0] _ transposes_S16x2048_S2048x16_1_0 (ix2 b p) (ix2 p b) ?_).trans ?_
  · intro ax
    match ax with
    | ⟨0, _⟩ => rfl
    | ⟨1, _⟩ => rfl
  refine shapeCast_apply _ shapeCasts_S16x2048x1_S16x2048 (ix2 p b) (ix3 p b (0 : Fin 1)) ?_
  rw [Shape.rowMajor_val_three, Shape.rowMajor_val_two]
  show (p.val * 2048 + b.val) * 1 + 0 = p.val * 2048 + b.val
  omega

theorem flip_SgArr (A : FVec Ideal S16x2048x2048 .f32) (I : IVec S2048x32 32) : flip (SgArr A I) = SIGN A I := by
  funext i
  obtain ⟨b, p, rfl⟩ : ∃ (b : Fin 2048) (p : Fin 16), i = ix2 b p := ⟨i 0, i 1, eq_ix2 i⟩
  exact flip_apply _ b p

theorem flip_LgArr (A : FVec Ideal S16x2048x2048 .f32) (I : IVec S2048x32 32) : flip (LgArr A I) = LOG A I := by
  funext i
  obtain ⟨b, p, rfl⟩ : ∃ (b : Fin 2048) (p : Fin 16), i = ix2 b p := ⟨i 0, i 1, eq_ix2 i⟩
  exact flip_apply _ b p

open Cert.KernelIdeal.Tail in
set_option backward.isDefEq.respectTransparency.types false in
/-- Every weakly fair execution of the idealized kernel's @main ends with the two results at the final combination
    of the sign and logarithm arrays of the two arguments, and the arguments unchanged. -/
theorem run_K (hidx : ∀ (c : Dev nD) (b : Fin 2048) (n : Fin 32), ((V m c main_arg1 : IVec S2048x32 32) (ix2 b n)).toNat < 2048) :
    θ_run defs (onTc (τ := τ) (main (F := Ideal))) ⟨m, fun _ => 0, ρ⟩ (fun r => ∀ c : Dev nD,
      r.2.mem ((c.tc : Thread nD τ).loc main_v12)
        = tailSign (SIGN (m ((c.tc : Thread nD τ).loc main_arg0)) (m ((c.tc : Thread nD τ).loc main_arg1)))
            (LOG (m ((c.tc : Thread nD τ).loc main_arg0)) (m ((c.tc : Thread nD τ).loc main_arg1)))
      ∧ r.2.mem ((c.tc : Thread nD τ).loc main_v15)
        = tailLog (SIGN (m ((c.tc : Thread nD τ).loc main_arg0)) (m ((c.tc : Thread nD τ).loc main_arg1)))
            (LOG (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  obtain ⟨harr, hrest⟩ := h c
  have e2 : Pipeline.withArrays (cfgs 0).spec c (V0 m c) (fun w => (dats m 0 c).arrAt w (cfgs 0).N) (Proc.devRef .tc main_v0_0)
      = SgArr (V m c main_arg0) (V m c main_arg1) :=
    (Pipeline.withArrays_arr spec0 launch0.win.arr_inj c _ _ 2).trans (finalS m c (hidx c))
  have e3 : Pipeline.withArrays (cfgs 0).spec c (V0 m c) (fun w => (dats m 0 c).arrAt w (cfgs 0).N) (Proc.devRef .tc main_v0_1)
      = LgArr (V m c main_arg0) (V m c main_arg1) :=
    (Pipeline.withArrays_arr spec0 launch0.win.arr_inj c _ _ 3).trans (finalL m c (hidx c))
  refine ⟨?_, ?_, (harr 0).trans (((dats m 0 c).arrAt_in 0 rfl _).trans ((A_eq m c 0).trans (V_main_arg0 m c))),
    (harr 1).trans (((dats m 0 c).arrAt_in 1 rfl _).trans ((A_eq m c 1).trans (V_main_arg1 m c)))⟩
  · refine (hrest main_v12 (by decide)).trans ?_
    unfold Pipeline.afterTail₀
    show StableHlo.after hostOps1 _ (Proc.devRef .tc main_v12) = _
    after_results
    rw [e2, e3]
    show tailSign (flip (SgArr (V m c main_arg0) (V m c main_arg1))) (flip (LgArr (V m c main_arg0) (V m c main_arg1))) = _
    rw [flip_SgArr, flip_LgArr]
    rfl
  · refine (hrest main_v15 (by decide)).trans ?_
    unfold Pipeline.afterTail₀
    show StableHlo.after hostOps1 _ (Proc.devRef .tc main_v15) = _
    after_results
    rw [e2, e3]
    show tailLog (flip (SgArr (V m c main_arg0) (V m c main_arg1))) (flip (LgArr (V m c main_arg0) (V m c main_arg1))) = _
    rw [flip_SgArr, flip_LgArr]
    rfl

end Cert.KernelIdeal.Arr

end
-- ==== Proof.RGather.lean ====
/-
  The reference's gathered matrices read against the elimination's starting matrix.

  The reference antisymmetrises the table (half the difference of the table and its transpose on the last two
  axes), builds for every batch row b and every pair (n, m) the pair of start indices (idx[b, n], idx[b, m]),
  each first wrapped (a negative index has the table's extent added), gathers the antisymmetrised table at those
  pairs on its last two axes, and moves the batch axis first. With every index inside the table the wrap and the
  gather's clamp keep the index, so entry (b, p, n, m) of the result is
  (T[p, i, j] - T[p, j, i]) * half with i = idx[b, n], j = idx[b, m]: the matrix M0 of slab p and row b.
-/
import proofs.«416707_j11175504904264_4_alg».proof.Proof.PfSpec
import proofs.«416707_j11175504904264_4_alg».proof.Proof.Gen.ReferenceIdeal.Run
import Idealize.ShloMosaic.Lib.Pipeline.Value
import Idealize.ShloMosaic.Lib.StableHlo.Predicate

noncomputable section

namespace Cert.ReferenceIdeal.RefVal

open Cert.ReferenceIdeal Cert.ReferenceIdeal.Gen Cert.ReferenceIdeal.Value Cert.Pf Idealize.ShloMosaic Idealize.ShloMosaic.ValueIdx Idealize.ShloMosaic.StableHlo

/-! ## The gather read at an index -/

/-- The gather's dimension numbers: the table's first axis is kept whole (the result's first axis), its last two
    axes are collapsed and indexed by the two components of a start index, which sit on the start indices'
    last axis. -/
abbrev gd := gather_S16x2048x2048_S2048x32x32x2_S16x2048x32x32_0_12_n_n_12_3_1611

/-- The gather at (q, b, n, m) is the operand at (q, s₀, s₁), where s₀ and s₁ are the two components of the
    start index at (b, n, m), each read signed and clamped into [0, 2047]. On the first axis the start is 0
    and the offset is q; on the other two the offset is 0 and the start is the clamped component. -/
theorem gather_apply {α : Type} {w : Nat} (x : S16x2048x2048.Idx → α) (idx : IVec S2048x32x32x2 w)
    (q : Fin 16) (b : Fin 2048) (n m : Fin 32) :
    Host.gather gd x idx (ix4 q b n m)
      = x (ix3 q ⟨min (idx (ix4 b n m (0 : Fin 2))).toInt.toNat 2047, by omega⟩
                 ⟨min (idx (ix4 b n m (1 : Fin 2))).toInt.toNat 2047, by omega⟩) := by
  unfold Host.gather
  congr 1
  funext a
  refine Fin.ext ?_
  match a with
  | ⟨0, _⟩ =>
    show gd.start (ix4 q b n m) idx 0 + gd.batchCoord (ix4 q b n m) 0 + gd.offCoord (ix4 q b n m) 0 = q.val
    have h0 : (0 : Fin 3) ∉ gd.startIndexMap := by decide
    have hs : gd.start (ix4 q b n m) idx 0 = 0 := by unfold GatherDims.start; rw [dif_neg h0]
    rw [hs, GatherDims.batchCoord_eq_zero _ _ _ List.not_mem_nil]
    have hk : (0 : Fin 3) ∈ gd.sKept := by decide
    unfold GatherDims.offCoord
    rw [dif_pos hk]
    simp only [Nat.zero_add]
    rfl
  | ⟨1, _⟩ =>
    show gd.start (ix4 q b n m) idx 1 + gd.batchCoord (ix4 q b n m) 1 + gd.offCoord (ix4 q b n m) 1
      = min (idx (ix4 b n m (0 : Fin 2))).toInt.toNat 2047
    have hk : (1 : Fin 3) ∉ gd.sKept := by decide
    rw [GatherDims.batchCoord_eq_zero _ _ _ List.not_mem_nil, GatherDims.offCoord_eq_zero _ _ _ hk]
    simp only [Nat.add_zero]
    have h1 : (1 : Fin 3) ∈ gd.startIndexMap := by decide
    unfold GatherDims.start
    rw [dif_pos h1]
    -- the start-indices index of component 0: the result's batch coordinates (b, n, m), then 0
    have hsi : gd.siIdx (ix4 q b n m) ⟨List.idxOf (1 : Fin 3) gd.startIndexMap, List.idxOf_lt_length_iff.2 h1⟩
        = ix4 b n m (0 : Fin 2) := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    show gd.start (ix4 q b n m) idx 2 + gd.batchCoord (ix4 q b n m) 2 + gd.offCoord (ix4 q b n m) 2
      = min (idx (ix4 b n m (1 : Fin 2))).toInt.toNat 2047
    have hk : (2 : Fin 3) ∉ gd.sKept := by decide
    rw [GatherDims.batchCoord_eq_zero _ _ _ List.not_mem_nil, GatherDims.offCoord_eq_zero _ _ _ hk]
    simp only [Nat.add_zero]
    have h1 : (2 : Fin 3) ∈ gd.startIndexMap := by decide
    unfold GatherDims.start
    rw [dif_pos h1]
    -- the start-indices index of component 1: the result's batch coordinates (b, n, m), then 1
    have hsi : gd.siIdx (ix4 q b n m) ⟨List.idxOf (2 : Fin 3) gd.startIndexMap, List.idxOf_lt_length_iff.2 h1⟩
        = ix4 b n m (1 : Fin 2) := by
      funext c; refine Fin.ext ?_
      match c with
      | ⟨0, _⟩ => rfl
      | ⟨1, _⟩ => rfl
      | ⟨2, _⟩ => rfl
      | ⟨3, _⟩ => rfl
    rw [hsi]
    rfl

/-! ## The start indices -/

/-- A start word inside the table is not negative, so the wrap (add the extent where negative) keeps it. -/
theorem wrap_word (x : BitVec 32) (hx : x.toNat < 2048) :
    Scalar.select (IntOp.cmpi .slt x 0#32) (IntOp.addi x 2048#32) x = x := by
  have h : ¬ IntOp.cmpi .slt x 0#32 = 1#1 := by
    rw [Predicate.slt_iff_toNat (by omega) (by decide)]
    simp
  rw [eq_zero_of_ne_one h, select_zero]

/-- A start word inside the table, read signed and clamped into the table, is its value. -/
theorem clamp_word (x : BitVec 32) (hx : x.toNat < 2048) : min x.toInt.toNat 2047 = x.toNat := by
  rw [Predicate.toInt_eq_toNat_of_lt (by omega)]
  simp only [Int.toNat_natCast]
  omega

/-- The index rows as columns: idx[b, n] at (b, n, 0). -/
def idxCol (I : IVec S2048x32 32) : IVec S2048x32x1 32 :=
  broadcastInDim S2048x32x1 ![0, 1] bcast_S2048x32_S2048x32x1_0_1 I
/-- The index rows as rows: idx[b, m] at (b, 0, m). -/
def idxRowv (I : IVec S2048x32 32) : IVec S2048x1x32 32 :=
  broadcastInDim S2048x1x32 ![0, 2] bcast_S2048x32_S2048x1x32_0_2 I

theorem idxCol_apply (I : IVec S2048x32 32) (b : Fin 2048) (n : Fin 32) : idxCol I (ix3 b n (0 : Fin 1)) = I (ix2 b n) := by
  refine broadcastInDim_apply _ _ I (ix3 b n (0 : Fin 1)) (ix2 b n) ?_
  intro a
  match a with
  | ⟨0, _⟩ => rfl
  | ⟨1, _⟩ => rfl

theorem idxRowv_apply (I : IVec S2048x32 32) (b : Fin 2048) (m : Fin 32) : idxRowv I (ix3 b (0 : Fin 1) m) = I (ix2 b m) := by
  refine broadcastInDim_apply _ _ I (ix3 b (0 : Fin 1) m) (ix2 b m) ?_
  intro a
  match a with
  | ⟨0, _⟩ => rfl
  | ⟨1, _⟩ => rfl

/-- The wrapped column of indices. -/
def wrapCol (I : IVec S2048x32 32) : IVec S2048x32x1 32 :=
  select (cmpi .slt (idxCol I) (broadcastInDim S2048x32x1 ![] bcast_S_S2048x32x1 (constantI S_ 32 0#32))) (addi (idxCol I) (broadcastInDim S2048x32x1 ![] bcast_S_S2048x32x1 (constantI S_ 32 2048#32))) (idxCol I)
/-- The wrapped row of indices. -/
def wrapRow (I : IVec S2048x32 32) : IVec S2048x1x32 32 :=
  select (cmpi .slt (idxRowv I) (broadcastInDim S2048x1x32 ![] bcast_S_S2048x1x32 (constantI S_ 32 0#32))) (addi (idxRowv I) (broadcastInDim S2048x1x32 ![] bcast_S_S2048x1x32 (constantI S_ 32 2048#32))) (idxRowv I)

theorem wrapCol_apply (I : IVec S2048x32 32) (b : Fin 2048) (n : Fin 32) (h : (I (ix2 b n)).toNat < 2048) :
    wrapCol I (ix3 b n (0 : Fin 1)) = I (ix2 b n) := by
  show Scalar.select (IntOp.cmpi .slt (idxCol I (ix3 b n (0 : Fin 1))) 0#32) (IntOp.addi (idxCol I (ix3 b n (0 : Fin 1))) 2048#32) (idxCol I (ix3 b n (0 : Fin 1))) = _
  rw [idxCol_apply]
  exact wrap_word _ h

theorem wrapRow_apply (I : IVec S2048x32 32) (b : Fin 2048) (m : Fin 32) (h : (I (ix2 b m)).toNat < 2048) :
    wrapRow I (ix3 b (0 : Fin 1) m) = I (ix2 b m) := by
  show Scalar.select (IntOp.cmpi .slt (idxRowv I (ix3 b (0 : Fin 1) m)) 0#32) (IntOp.addi (idxRowv I (ix3 b (0 : Fin 1) m)) 2048#32) (idxRowv I (ix3 b (0 : Fin 1) m)) = _
  rw [idxRowv_apply]
  exact wrap_word _ h

/-- The start indices [2048, 32, 32, 2]: component 0 is the wrapped idx[b, n] laid along m, component 1 the
    wrapped idx[b, m] laid along n. -/
def starts (I : IVec S2048x32 32) : IVec S2048x32x32x2 32 :=
  concatenate S2048x32x32x2 3 [⟨S2048x32x32x1, (broadcastInDim S2048x32x32x1 ![0, 1, 2] bcast_S2048x32x32_S2048x32x32x1_0_1_2 (broadcastInDim S2048x32x32 ![0, 1, 2] bcast_S2048x32x1_S2048x32x32_0_1_2 (wrapCol I)))⟩, ⟨S2048x32x32x1, (broadcastInDim S2048x32x32x1 ![0, 1, 2] bcast_S2048x32x32_S2048x32x32x1_0_1_2 (broadcastInDim S2048x32x32 ![0, 1, 2] bcast_S2048x1x32_S2048x32x32_0_1_2 (wrapRow I)))⟩] concatenates_S2048x32x32x1_S2048x32x32x1_S2048x32x32x2_d3

/-- Component 0 of the start index at (b, n, m) is idx[b, n]: the first piece, read through the two broadcasts. -/
theorem starts_zero (I : IVec S2048x32 32) (b : Fin 2048) (n m : Fin 32) (h : (I (ix2 b n)).toNat < 2048) :
    starts I (ix4 b n m (0 : Fin 2)) = I (ix2 b n) := by
  refine (concatenate_pair_apply_left (t := S2048x32x32x2) (s₁ := S2048x32x32x1) (s₂ := S2048x32x32x1) (3 : Fin 4) _ _
    concatenates_S2048x32x32x1_S2048x32x32x1_S2048x32x32x2_d3
    (ix4 b n m (0 : Fin 2)) rfl (ix4 b n m (0 : Fin 1)) ?_).trans ?_
  · intro c
    match c with
    | ⟨0, _⟩ => rfl
    | ⟨1, _⟩ => rfl
    | ⟨2, _⟩ => rfl
    | ⟨3, _⟩ => rfl
  refine (broadcastInDim_apply _ _ _ (ix4 b n m (0 : Fin 1)) (ix3 b n m) ?_).trans ?_
  · intro c
    match c with
    | ⟨0, _⟩ => rfl
    | ⟨1, _⟩ => rfl
    | ⟨2, _⟩ => rfl
  refine (broadcastInDim_apply _ _ _ (ix3 b n m) (ix3 b n (0 : Fin 1)) ?_).trans (wrapCol_apply I b n h)
  intro c
  match c with
  | ⟨0, _⟩ => rfl
  | ⟨1, _⟩ => rfl
  | ⟨2, _⟩ => rfl

/-- Component 1 of the start index at (b, n, m) is idx[b, m]: the second piece, read through the two broadcasts. -/
theorem starts_one (I : IVec S2048x32 32) (b : Fin 2048) (n m : Fin 32) (h : (I (ix2 b m)).toNat < 2048) :
    starts I (ix4 b n m (1 : Fin 2)) = I (ix2 b m) := by
  refine (concatenate_pair_apply_right (t := S2048x32x32x2) (s₁ := S2048x32x32x1) (s₂ := S2048x32x32x1) (3 : Fin 4) _ _
    concatenates_S2048x32x32x1_S2048x32x32x1_S2048x32x32x2_d3
    (ix4 b n m (1 : Fin 2)) rfl rfl (ix4 b n m (0 : Fin 1)) ?_ ?_).trans ?_
  · intro c hc
    match c with
    | ⟨0, _⟩ => rfl
    | ⟨1, _⟩ => rfl
    | ⟨2, _⟩ => rfl
    | ⟨3, _⟩ => exact absurd rfl hc
  · rfl
  refine (broadcastInDim_apply _ _ _ (ix4 b n m (0 : Fin 1)) (ix3 b n m) ?_).trans ?_
  · intro c
    match c with
    | ⟨0, _⟩ => rfl
    | ⟨1, _⟩ => rfl
    | ⟨2, _⟩ => rfl
  refine (broadcastInDim_apply _ _ _ (ix3 b n m) (ix3 b (0 : Fin 1) m) ?_).trans (wrapRow_apply I b m h)
  intro c
  match c with
  | ⟨0, _⟩ => rfl
  | ⟨1, _⟩ => rfl
  | ⟨2, _⟩ => rfl

/-! ## The antisymmetrised table -/

/-- The table less its transpose on the last two axes, times the word of 0.5. -/
def Fs (A : FVec Ideal S16x2048x2048 .f32) : FVec Ideal S16x2048x2048 .f32 :=
  mulf (subf A (transpose S16x2048x2048 [0, 2, 1] A transposes_S16x2048x2048_S16x2048x2048_0_2_1)) (broadcastInDim S16x2048x2048 ![] bcast_S_S16x2048x2048 (constant S_ .f32 0x3F000000#32))

/-- Entry (q, i, j) of the antisymmetrised table: (T[q, i, j] - T[q, j, i]) * half. -/
theorem Fs_apply (A : FVec Ideal S16x2048x2048 .f32) (q : Fin 16) (i j : Fin 2048) :
    Fs A (ix3 q i j) = (A (ix3 q i j) - A (ix3 q j i)) * half := by
  show (A (ix3 q i j) - transpose S16x2048x2048 [0, 2, 1] A transposes_S16x2048x2048_S16x2048x2048_0_2_1 (ix3 q i j)) * half = _
  rw [transpose_apply _ A _ (ix3 q i j) (ix3 q j i) (by
    intro c
    match c with
    | ⟨0, _⟩ => rfl
    | ⟨1, _⟩ => rfl
    | ⟨2, _⟩ => rfl)]

/-! ## The assembly -/

/-- Entry (b, p, n, m) of the gathered, batch-first array is M0 of slab p and row b at (n, m): the outer
    transpose swaps the first two axes, the gather reads the antisymmetrised table at the two start words,
    which are idx[b, n] and idx[b, m] themselves, and the product commutes. -/
theorem v22_general (A : FVec Ideal S16x2048x2048 .f32) (I : IVec S2048x32 32) (b : Fin 2048) (p : Fin 16)
    (hidx : ∀ n : Fin 32, (I (ix2 b n)).toNat < 2048) (n m : Fin 32) :
    transpose S2048x16x32x32 [1, 0, 2, 3] (Host.gather gd (Fs A) (starts I)) transposes_S16x2048x32x32_S2048x16x32x32_1_0_2_3 (ix4 b p n m)
      = M0 (P := 16) (R := 2048) (C := 2048) (B := 2048) (E := 32) A I p b n.val m.val := by
  refine (transpose_apply _ _ _ (ix4 b p n m) (ix4 p b n m) ?_).trans ?_
  · intro c
    match c with
    | ⟨0, _⟩ => rfl
    | ⟨1, _⟩ => rfl
    | ⟨2, _⟩ => rfl
    | ⟨3, _⟩ => rfl
  rw [gather_apply]
  have e0 : ∀ h, (⟨min (starts I (ix4 b n m (0 : Fin 2))).toInt.toNat 2047, h⟩ : Fin 2048) = ⟨(I (ix2 b n)).toNat, hidx n⟩ := by
    intro h; refine Fin.ext ?_
    show min (starts I (ix4 b n m (0 : Fin 2))).toInt.toNat 2047 = _
    rw [starts_zero I b n m (hidx n)]; exact clamp_word _ (hidx n)
  have e1 : ∀ h, (⟨min (starts I (ix4 b n m (1 : Fin 2))).toInt.toNat 2047, h⟩ : Fin 2048) = ⟨(I (ix2 b m)).toNat, hidx m⟩ := by
    intro h; refine Fin.ext ?_
    show min (starts I (ix4 b n m (1 : Fin 2))).toInt.toNat 2047 = _
    rw [starts_one I b n m (hidx m)]; exact clamp_word _ (hidx m)
  rw [e0, e1, Fs_apply]
  unfold M0 sub0 tab idxRow
  rw [dif_pos n.isLt, dif_pos m.isLt, dif_pos ⟨hidx n, hidx m⟩, dif_pos ⟨hidx m, hidx n⟩]
  exact mul_comm _ _

/-- The reference's gathered array holds, at (b, p), the matrix the elimination starts from. -/
theorem v22_rep (V0 : Valuation τ sig (Elt Ideal)) (b : Fin 2048) (p : Fin 16)
    (hidx : ∀ n : Fin 32, ((V0 (Proc.devRef .tc main_arg1) : IVec S2048x32 32) (ix2 b n)).toNat < 2048) :
    Cert.Pf.RRep 2048 16 32 (res_main_v22 V0) b p
      (Cert.Pf.M0 (P := 16) (R := 2048) (C := 2048) (B := 2048) (E := 32) (V0 (Proc.devRef .tc main_arg0)) (V0 (Proc.devRef .tc main_arg1)) p b) := by
  intro n m
  exact v22_general (V0 (Proc.devRef .tc main_arg0)) (V0 (Proc.devRef .tc main_arg1)) b p hidx n m

end Cert.ReferenceIdeal.RefVal

end
-- ==== Proof.RStep.lean ====
/-
  The reference's array operations read against the elimination (PfSpec.lean).

  The reference holds a batch of matrices as one array [B, P, N, N], the batch on the two leading axes, and writes
  a step with slices of rows 0 and 1, reshapes that drop a unit axis, and broadcasts that add a unit axis and then
  stretch it along the rows or the columns. Each lemma reads one such pattern at a batch entry (b, p): the pivot is
  entry (0, 1); the multipliers are the first row's tail over the pivot; the trailing block plus v ⊗ tau minus
  tau ⊗ v is the next matrix. The sign and the logarithm of the magnitude are the extended reals' own, entry by entry.
-/
import proofs.«416707_j11175504904264_4_alg».proof.Proof.PfSpec
import Idealize.ShloMosaic.Lib.Pipeline.Value

noncomputable section

namespace Cert.Pf

open Idealize.ShloMosaic Idealize.ShloMosaic.ValueIdx

/-! ## The layout patterns read at one batch entry -/

/-- Entry (0, 1) of every matrix of the batch, as an array over the batch. -/
theorem rpivot_apply {B P N : ℕ} (A : FVec Ideal (K4 B P N N) .f32)
    (hs : (K4 B P N N).Slices ![0, 0, 0, 1] (K4 B P 1 1)) (hc : (K4 B P 1 1).ShapeCasts (K2 B P))
    (b : Fin B) (p : Fin P) (M : ℕ → ℕ → EReal) (hA : RRep B P N A b p M) :
    shapeCast (K2 B P) (extractStridedSlice (K4 B P 1 1) ![0, 0, 0, 1] A hs) hc (ix2 b p) = M 0 1 := by
  have h0 : 0 < N := by have := hs.2 2; simp at this; omega
  have h1 : 1 < N := by have := hs.2 3; simp at this; omega
  refine (shapeCast_apply _ hc (ix2 b p) (ix4 b p (0 : Fin 1) (0 : Fin 1)) ?_).trans ?_
  · rw [Shape.rowMajor_val_four, Shape.rowMajor_val_two]
    show ((b.val * P + p.val) * 1 + 0) * 1 + 0 = b.val * P + p.val
    omega
  · refine (extractStridedSlice_apply _ A hs _ (ix4 b p ⟨0, h0⟩ ⟨1, h1⟩) ?_).trans (hA ⟨0, h0⟩ ⟨1, h1⟩)
    intro a
    match a with
    | ⟨0, _⟩ => show b.val = 0 + b.val; omega
    | ⟨1, _⟩ => show p.val = 0 + p.val; omega
    | ⟨2, _⟩ => rfl
    | ⟨3, _⟩ => rfl

/-- Row r (0 or 1) from column 2 on, as a [B, P, n] array: entry (b, p) is the row's tail. -/
theorem rrow_rep {B P N n : ℕ} (r : ℕ) (A : FVec Ideal (K4 B P N N) .f32)
    (hs : (K4 B P N N).Slices ![0, 0, r, 2] (K4 B P 1 n)) (hc : (K4 B P 1 n).ShapeCasts (K3 B P n))
    (b : Fin B) (p : Fin P) (M : ℕ → ℕ → EReal) (hA : RRep B P N A b p M) :
    RVRep B P n (shapeCast (K3 B P n) (extractStridedSlice (K4 B P 1 n) ![0, 0, r, 2] A hs) hc) b p
      (fun j => M r (j + 2)) := by
  intro j
  have hr : r < N := by have := hs.2 2; simp at this; omega
  have hj : j.val + 2 < N := by have := hs.2 3; simp at this; omega
  refine (shapeCast_apply _ hc (ix3 b p j) (ix4 b p (0 : Fin 1) j) ?_).trans ?_
  · rw [Shape.rowMajor_val_four, Shape.rowMajor_val_three]
    show ((b.val * P + p.val) * 1 + 0) * n + j.val = (b.val * P + p.val) * n + j.val
    simp
  · refine (extractStridedSlice_apply _ A hs _ (ix4 b p ⟨r, hr⟩ ⟨j.val + 2, hj⟩) ?_).trans
      (hA ⟨r, hr⟩ ⟨j.val + 2, hj⟩)
    intro a
    match a with
    | ⟨0, _⟩ => show b.val = 0 + b.val; omega
    | ⟨1, _⟩ => show p.val = 0 + p.val; omega
    | ⟨2, _⟩ => show r = r + 0; omega
    | ⟨3, _⟩ => show j.val + 2 = 2 + j.val; omega

/-- The trailing block from (2, 2) on. -/
theorem rtrail_apply {B P N n : ℕ} (A : FVec Ideal (K4 B P N N) .f32)
    (hs : (K4 B P N N).Slices ![0, 0, 2, 2] (K4 B P n n)) (b : Fin B) (p : Fin P)
    (M : ℕ → ℕ → EReal) (hA : RRep B P N A b p M) (i j : Fin n) :
    extractStridedSlice (K4 B P n n) ![0, 0, 2, 2] A hs (ix4 b p i j) = M (i.val + 2) (j.val + 2) := by
  have hi : i.val + 2 < N := by have := hs.2 2; simp at this; omega
  have hj : j.val + 2 < N := by have := hs.2 3; simp at this; omega
  refine (extractStridedSlice_apply _ A hs _ (ix4 b p ⟨i.val + 2, hi⟩ ⟨j.val + 2, hj⟩) ?_).trans
    (hA ⟨i.val + 2, hi⟩ ⟨j.val + 2, hj⟩)
  intro a
  match a with
  | ⟨0, _⟩ => show b.val = 0 + b.val; omega
  | ⟨1, _⟩ => show p.val = 0 + p.val; omega
  | ⟨2, _⟩ => show i.val + 2 = 2 + i.val; omega
  | ⟨3, _⟩ => show j.val + 2 = 2 + j.val; omega

/-- An array over the batch given a unit axis and stretched along n entries reads the array at the batch entry. -/
theorem rbatch_apply {B P n : ℕ} (pv : FVec Ideal (K2 B P) .f32)
    (hb1 : (K2 B P).BroadcastsInDim (K3 B P 1) ![0, 1]) (hb2 : (K3 B P 1).BroadcastsInDim (K3 B P n) ![0, 1, 2])
    (b : Fin B) (p : Fin P) (j : Fin n) :
    broadcastInDim (K3 B P n) ![0, 1, 2] hb2 (broadcastInDim (K3 B P 1) ![0, 1] hb1 pv) (ix3 b p j) = pv (ix2 b p) := by
  refine (broadcastInDim_apply _ hb2 _ (ix3 b p j) (ix3 b p (0 : Fin 1)) ?_).trans ?_
  · intro a
    match a with
    | ⟨0, _⟩ =>
      show b.val = if B = 1 then 0 else b.val
      split_ifs with h
      · have := b.isLt; omega
      · rfl
    | ⟨1, _⟩ =>
      show p.val = if P = 1 then 0 else p.val
      split_ifs with h
      · have := p.isLt; omega
      · rfl
    | ⟨2, _⟩ => rfl
  · refine broadcastInDim_apply _ hb1 _ (ix3 b p (0 : Fin 1)) (ix2 b p) ?_
    intro a
    match a with
    | ⟨0, _⟩ =>
      show b.val = if B = 1 then 0 else b.val
      split_ifs with h
      · have := b.isLt; omega
      · rfl
    | ⟨1, _⟩ =>
      show p.val = if P = 1 then 0 else p.val
      split_ifs with h
      · have := p.isLt; omega
      · rfl

/-- A [B, P, n] array laid along the columns of [B, P, n, n]: entry (i, j) of (b, p) is the array's (b, p, i). -/
theorem rcolB_apply {B P n : ℕ} (v : FVec Ideal (K3 B P n) .f32)
    (hb1 : (K3 B P n).BroadcastsInDim (K4 B P n 1) ![0, 1, 2])
    (hb2 : (K4 B P n 1).BroadcastsInDim (K4 B P n n) ![0, 1, 2, 3])
    (b : Fin B) (p : Fin P) (i j : Fin n) :
    broadcastInDim (K4 B P n n) ![0, 1, 2, 3] hb2 (broadcastInDim (K4 B P n 1) ![0, 1, 2] hb1 v) (ix4 b p i j)
      = v (ix3 b p i) := by
  refine (broadcastInDim_apply _ hb2 _ (ix4 b p i j) (ix4 b p i (0 : Fin 1)) ?_).trans ?_
  · intro a
    match a with
    | ⟨0, _⟩ =>
      show b.val = if B = 1 then 0 else b.val
      split_ifs with h
      · have := b.isLt; omega
      · rfl
    | ⟨1, _⟩ =>
      show p.val = if P = 1 then 0 else p.val
      split_ifs with h
      · have := p.isLt; omega
      · rfl
    | ⟨2, _⟩ =>
      show i.val = if n = 1 then 0 else i.val
      split_ifs with h
      · have := i.isLt; omega
      · rfl
    | ⟨3, _⟩ => rfl
  · refine broadcastInDim_apply _ hb1 _ (ix4 b p i (0 : Fin 1)) (ix3 b p i) ?_
    intro a
    match a with
    | ⟨0, _⟩ =>
      show b.val = if B = 1 then 0 else b.val
      split_ifs with h
      · have := b.isLt; omega
      · rfl
    | ⟨1, _⟩ =>
      show p.val = if P = 1 then 0 else p.val
      split_ifs with h
      · have := p.isLt; omega
      · rfl
    | ⟨2, _⟩ =>
      show i.val = if n = 1 then 0 else i.val
      split_ifs with h
      · have := i.isLt; omega
      · rfl

/-- A [B, P, n] array laid along the rows of [B, P, n, n]: entry (i, j) of (b, p) is the array's (b, p, j). -/
theorem rrowB_apply {B P n : ℕ} (t : FVec Ideal (K3 B P n) .f32)
    (hb1 : (K3 B P n).BroadcastsInDim (K4 B P 1 n) ![0, 1, 3])
    (hb2 : (K4 B P 1 n).BroadcastsInDim (K4 B P n n) ![0, 1, 2, 3])
    (b : Fin B) (p : Fin P) (i j : Fin n) :
    broadcastInDim (K4 B P n n) ![0, 1, 2, 3] hb2 (broadcastInDim (K4 B P 1 n) ![0, 1, 3] hb1 t) (ix4 b p i j)
      = t (ix3 b p j) := by
  refine (broadcastInDim_apply _ hb2 _ (ix4 b p i j) (ix4 b p (0 : Fin 1) j) ?_).trans ?_
  · intro a
    match a with
    | ⟨0, _⟩ =>
      show b.val = if B = 1 then 0 else b.val
      split_ifs with h
      · have := b.isLt; omega
      · rfl
    | ⟨1, _⟩ =>
      show p.val = if P = 1 then 0 else p.val
      split_ifs with h
      · have := p.isLt; omega
      · rfl
    | ⟨2, _⟩ => rfl
    | ⟨3, _⟩ =>
      show j.val = if n = 1 then 0 else j.val
      split_ifs with h
      · have := j.isLt; omega
      · rfl
  · refine broadcastInDim_apply _ hb1 _ (ix4 b p (0 : Fin 1) j) (ix3 b p j) ?_
    intro a
    match a with
    | ⟨0, _⟩ =>
      show b.val = if B = 1 then 0 else b.val
      split_ifs with h
      · have := b.isLt; omega
      · rfl
    | ⟨1, _⟩ =>
      show p.val = if P = 1 then 0 else p.val
      split_ifs with h
      · have := p.isLt; omega
      · rfl
    | ⟨2, _⟩ =>
      show j.val = if n = 1 then 0 else j.val
      split_ifs with h
      · have := j.isLt; omega
      · rfl

/-! ## The pieces of a step, and the step -/

/-- The multipliers as a [B, P, n] array: the first row's tail over the pivot stretched along the row. -/
theorem rtau_rep {B P N n : ℕ} (A : FVec Ideal (K4 B P N N) .f32) (pv : FVec Ideal (K2 B P) .f32)
    (hs : (K4 B P N N).Slices ![0, 0, 0, 2] (K4 B P 1 n)) (hc : (K4 B P 1 n).ShapeCasts (K3 B P n))
    (hb1 : (K2 B P).BroadcastsInDim (K3 B P 1) ![0, 1]) (hb2 : (K3 B P 1).BroadcastsInDim (K3 B P n) ![0, 1, 2])
    (b : Fin B) (p : Fin P) (M : ℕ → ℕ → EReal) (hA : RRep B P N A b p M) (hp : pv (ix2 b p) = M 0 1) :
    RVRep B P n
      (Host.divf (shapeCast (K3 B P n) (extractStridedSlice (K4 B P 1 n) ![0, 0, 0, 2] A hs) hc)
        (broadcastInDim (K3 B P n) ![0, 1, 2] hb2 (broadcastInDim (K3 B P 1) ![0, 1] hb1 pv)))
      b p (tau M) := by
  intro j
  show Ideal.div _ _ = _
  rw [rrow_rep 0 A hs hc b p M hA j, rbatch_apply pv hb1 hb2 b p j, hp]
  rfl

/-- The trailing block plus v ⊗ tau minus tau ⊗ v is the next matrix. -/
theorem rnext_rep {B P N n : ℕ} (A : FVec Ideal (K4 B P N N) .f32) (v t : FVec Ideal (K3 B P n) .f32)
    (hs : (K4 B P N N).Slices ![0, 0, 2, 2] (K4 B P n n))
    (hc1 : (K3 B P n).BroadcastsInDim (K4 B P n 1) ![0, 1, 2])
    (hc2 : (K4 B P n 1).BroadcastsInDim (K4 B P n n) ![0, 1, 2, 3])
    (hr1 : (K3 B P n).BroadcastsInDim (K4 B P 1 n) ![0, 1, 3])
    (hr2 : (K4 B P 1 n).BroadcastsInDim (K4 B P n n) ![0, 1, 2, 3])
    (b : Fin B) (p : Fin P) (M : ℕ → ℕ → EReal) (hA : RRep B P N A b p M)
    (hv : RVRep B P n v b p (fun j => M 1 (j + 2))) (ht : RVRep B P n t b p (tau M)) :
    RRep B P n
      (subf
        (addf (extractStridedSlice (K4 B P n n) ![0, 0, 2, 2] A hs)
          (mulf (broadcastInDim (K4 B P n n) ![0, 1, 2, 3] hc2 (broadcastInDim (K4 B P n 1) ![0, 1, 2] hc1 v))
            (broadcastInDim (K4 B P n n) ![0, 1, 2, 3] hr2 (broadcastInDim (K4 B P 1 n) ![0, 1, 3] hr1 t))))
        (mulf (broadcastInDim (K4 B P n n) ![0, 1, 2, 3] hc2 (broadcastInDim (K4 B P n 1) ![0, 1, 2] hc1 t))
          (broadcastInDim (K4 B P n n) ![0, 1, 2, 3] hr2 (broadcastInDim (K4 B P 1 n) ![0, 1, 3] hr1 v))))
      b p (next M) := by
  intro i j
  refine (subf_apply _ _ _).trans ?_
  rw [addf_apply, mulf_apply, mulf_apply, rtrail_apply A hs b p M hA i j,
    rcolB_apply v hc1 hc2 b p i j, rrowB_apply t hr1 hr2 b p i j,
    rcolB_apply t hc1 hc2 b p i j, rrowB_apply v hr1 hr2 b p i j, hv i, ht j, ht i, hv j]
  rfl

/-! ## The pivot's sign and logarithm -/

/-- The running sign times the next pivot's sign, at a batch entry. -/
theorem rsgn_acc {B P : ℕ} (s pv : FVec Ideal (K2 B P) .f32) (b : Fin B) (p : Fin P) :
    (mulf s (Host.sign pv)) (ix2 b p) = s (ix2 b p) * sg (pv (ix2 b p)) := rfl

/-- The running logarithm plus the next pivot's, at a batch entry. -/
theorem rlg_acc {B P : ℕ} (s pv : FVec Ideal (K2 B P) .f32) (b : Fin B) (p : Fin P) :
    (addf s (Host.log (Host.absf pv))) (ix2 b p) = s (ix2 b p) + lg (pv (ix2 b p)) := rfl

/-- The starting values: a scalar constant laid over the batch. -/
theorem rconst_apply {B P : ℕ} (w : BitVec 32) (hb : (⟨0, ![]⟩ : Shape).BroadcastsInDim (K2 B P) ![])
    (b : Fin B) (p : Fin P) :
    broadcastInDim (K2 B P) ![] hb (constant (F := Ideal) (⟨0, ![]⟩ : Shape) .f32 w) (ix2 b p) = Ideal.ofBits .f32 w := rfl

end Cert.Pf
end
-- ==== Proof.RChain.lean ====
/-
  The reference's sixteen elimination steps read at one batch entry.

  The reference's named intermediates are the elimination's own values (PfSpec.lean): for k = 0, ..., 15 the matrix
  after k steps (of size 32 - 2k), its pivot (entry (0, 1)), its multipliers (the first row's tail over the pivot)
  and its second row's tail. Step by step, at a batch entry (b, p) whose starting matrix is M: the k-th matrix is
  Mk M k, so the k-th pivot is Mk M k 0 1, and the next matrix is the trailing block plus v ⊗ tau minus tau ⊗ v,
  which is Mk M (k + 1). The accumulated sign is then the product of the pivots' signs from the word of 1.0, and the
  accumulated logarithm the sum of the logarithms of their magnitudes from the word of 0.0.
-/
import proofs.«416707_j11175504904264_4_alg».proof.Proof.RStep
import proofs.«416707_j11175504904264_4_alg».proof.Proof.Gen.ReferenceIdeal.Run

noncomputable section

namespace Cert.ReferenceIdeal.RefVal

open Cert.ReferenceIdeal Cert.ReferenceIdeal.Gen Cert.ReferenceIdeal.Value Cert.Pf Idealize.ShloMosaic
  Idealize.ShloMosaic.ValueIdx Idealize.ShloMosaic.StableHlo

/-- The accumulated sign of the sixteen pivots, as the reference multiplies it up from the word of 1.0. -/
def refSign (V0 : Valuation τ sig (Elt Ideal)) : FVec Ideal S2048x16 .f32 :=
  mulf (mulf (mulf (mulf (mulf (mulf (mulf (mulf (mulf (mulf (mulf (mulf (mulf (mulf (mulf (mulf (broadcastInDim S2048x16 ![] bcast_S_S2048x16 (constant (F := Ideal) S_ .f32 0x3F800000#32)) (Host.sign (res_main_v24 V0))) (Host.sign (res_main_v53 V0))) (Host.sign (res_main_v80 V0))) (Host.sign (res_main_v107 V0))) (Host.sign (res_main_v134 V0))) (Host.sign (res_main_v161 V0))) (Host.sign (res_main_v188 V0))) (Host.sign (res_main_v215 V0))) (Host.sign (res_main_v242 V0))) (Host.sign (res_main_v269 V0))) (Host.sign (res_main_v296 V0))) (Host.sign (res_main_v323 V0))) (Host.sign (res_main_v350 V0))) (Host.sign (res_main_v377 V0))) (Host.sign (res_main_v404 V0))) (Host.sign (res_main_v431 V0))

/-- The reference's result is the row sum of the accumulated sign times the exponential of the accumulated
    logarithm less its row maximum. -/
theorem res_main_v443_eq (V0 : Valuation τ sig (Elt Ideal)) :
    res_main_v443 V0 = Host.reduceAdd (mulf (refSign V0) (Host.exp (subf (res_main_v436 V0) (broadcastInDim S2048x16 ![0, 1] bcast_S2048x1_S2048x16_0_1 (broadcastInDim S2048x1 ![0] bcast_S2048_S2048x1_0 (res_main_v437 V0)))))) (constant S_ .f32 0x00000000#32) reducesTo_S2048x16_S2048_d1 h_S_ := by
  unfold res_main_v443 refSign
  rfl

/-! ## One more pivot on the running sign and the running logarithm -/

/-- The running sign after k pivots times the sign of the k-th pivot is the running sign after k + 1. -/
theorem sgn_step {b : Fin 2048} {p : Fin 16} {M : ℕ → ℕ → EReal} {k : ℕ} (s pv : FVec Ideal S2048x16 .f32)
    (hs : s (ix2 b p) = sgnAt Cert.Pf.one M k) (hp : pv (ix2 b p) = Mk M k 0 1) :
    (mulf s (Host.sign pv)) (ix2 b p) = sgnAt Cert.Pf.one M (k + 1) := by
  show s (ix2 b p) * sg (pv (ix2 b p)) = sgnAt Cert.Pf.one M k * sg (Mk M k 0 1)
  rw [hs, hp]

/-- The running logarithm after k pivots plus the logarithm of the k-th pivot's magnitude is the running
    logarithm after k + 1. -/
theorem lg_step {b : Fin 2048} {p : Fin 16} {M : ℕ → ℕ → EReal} {k : ℕ} (s pv : FVec Ideal S2048x16 .f32)
    (hs : s (ix2 b p) = logAt Cert.Pf.zero M k) (hp : pv (ix2 b p) = Mk M k 0 1) :
    (addf s (Host.log (Host.absf pv))) (ix2 b p) = logAt Cert.Pf.zero M (k + 1) := by
  show s (ix2 b p) + lg (pv (ix2 b p)) = logAt Cert.Pf.zero M k + lg (Mk M k 0 1)
  rw [hs, hp]

/-! ## The sixteen steps at a batch entry -/

section Chain

variable (V0 : Valuation τ sig (Elt Ideal)) (b : Fin 2048) (p : Fin 16) (M : ℕ → ℕ → EReal)
  (hA : RRep 2048 16 32 (res_main_v22 V0) b p M)
include hA

/-- The starting matrix. -/
theorem mat0 : RRep 2048 16 32 (res_main_v22 V0) b p (Mk M 0) := hA

-- step 0: size 32
theorem piv0 : res_main_v24 V0 (ix2 b p) = Mk M 0 0 1 := by
  unfold res_main_v24; exact rpivot_apply _ _ _ b p _ (mat0 V0 b p M hA)
theorem tau0 : RVRep 2048 16 30 (res_main_v36 V0) b p (tau (Mk M 0)) := by
  unfold res_main_v36; exact rtau_rep _ _ _ _ _ _ b p _ (mat0 V0 b p M hA) (piv0 V0 b p M hA)
theorem row0 : RVRep 2048 16 30 (res_main_v38 V0) b p (fun j => Mk M 0 1 (j + 2)) := by
  unfold res_main_v38; exact rrow_rep 1 _ _ _ b p _ (mat0 V0 b p M hA)
theorem mat1 : RRep 2048 16 30 (res_main_v51 V0) b p (Mk M 1) := by
  unfold res_main_v51
  exact rnext_rep _ _ _ _ _ _ _ _ b p _ (mat0 V0 b p M hA) (row0 V0 b p M hA) (tau0 V0 b p M hA)

-- step 1: size 30
theorem piv1 : res_main_v53 V0 (ix2 b p) = Mk M 1 0 1 := by
  unfold res_main_v53; exact rpivot_apply _ _ _ b p _ (mat1 V0 b p M hA)
theorem tau1 : RVRep 2048 16 28 (res_main_v63 V0) b p (tau (Mk M 1)) := by
  unfold res_main_v63; exact rtau_rep _ _ _ _ _ _ b p _ (mat1 V0 b p M hA) (piv1 V0 b p M hA)
theorem row1 : RVRep 2048 16 28 (res_main_v65 V0) b p (fun j => Mk M 1 1 (j + 2)) := by
  unfold res_main_v65; exact rrow_rep 1 _ _ _ b p _ (mat1 V0 b p M hA)
theorem mat2 : RRep 2048 16 28 (res_main_v78 V0) b p (Mk M 2) := by
  unfold res_main_v78
  exact rnext_rep _ _ _ _ _ _ _ _ b p _ (mat1 V0 b p M hA) (row1 V0 b p M hA) (tau1 V0 b p M hA)

-- step 2: size 28
theorem piv2 : res_main_v80 V0 (ix2 b p) = Mk M 2 0 1 := by
  unfold res_main_v80; exact rpivot_apply _ _ _ b p _ (mat2 V0 b p M hA)
theorem tau2 : RVRep 2048 16 26 (res_main_v90 V0) b p (tau (Mk M 2)) := by
  unfold res_main_v90; exact rtau_rep _ _ _ _ _ _ b p _ (mat2 V0 b p M hA) (piv2 V0 b p M hA)
theorem row2 : RVRep 2048 16 26 (res_main_v92 V0) b p (fun j => Mk M 2 1 (j + 2)) := by
  unfold res_main_v92; exact rrow_rep 1 _ _ _ b p _ (mat2 V0 b p M hA)
theorem mat3 : RRep 2048 16 26 (res_main_v105 V0) b p (Mk M 3) := by
  unfold res_main_v105
  exact rnext_rep _ _ _ _ _ _ _ _ b p _ (mat2 V0 b p M hA) (row2 V0 b p M hA) (tau2 V0 b p M hA)

-- step 3: size 26
theorem piv3 : res_main_v107 V0 (ix2 b p) = Mk M 3 0 1 := by
  unfold res_main_v107; exact rpivot_apply _ _ _ b p _ (mat3 V0 b p M hA)
theorem tau3 : RVRep 2048 16 24 (res_main_v117 V0) b p (tau (Mk M 3)) := by
  unfold res_main_v117; exact rtau_rep _ _ _ _ _ _ b p _ (mat3 V0 b p M hA) (piv3 V0 b p M hA)
theorem row3 : RVRep 2048 16 24 (res_main_v119 V0) b p (fun j => Mk M 3 1 (j + 2)) := by
  unfold res_main_v119; exact rrow_rep 1 _ _ _ b p _ (mat3 V0 b p M hA)
theorem mat4 : RRep 2048 16 24 (res_main_v132 V0) b p (Mk M 4) := by
  unfold res_main_v132
  exact rnext_rep _ _ _ _ _ _ _ _ b p _ (mat3 V0 b p M hA) (row3 V0 b p M hA) (tau3 V0 b p M hA)

-- step 4: size 24
theorem piv4 : res_main_v134 V0 (ix2 b p) = Mk M 4 0 1 := by
  unfold res_main_v134; exact rpivot_apply _ _ _ b p _ (mat4 V0 b p M hA)
theorem tau4 : RVRep 2048 16 22 (res_main_v144 V0) b p (tau (Mk M 4)) := by
  unfold res_main_v144; exact rtau_rep _ _ _ _ _ _ b p _ (mat4 V0 b p M hA) (piv4 V0 b p M hA)
theorem row4 : RVRep 2048 16 22 (res_main_v146 V0) b p (fun j => Mk M 4 1 (j + 2)) := by
  unfold res_main_v146; exact rrow_rep 1 _ _ _ b p _ (mat4 V0 b p M hA)
theorem mat5 : RRep 2048 16 22 (res_main_v159 V0) b p (Mk M 5) := by
  unfold res_main_v159
  exact rnext_rep _ _ _ _ _ _ _ _ b p _ (mat4 V0 b p M hA) (row4 V0 b p M hA) (tau4 V0 b p M hA)

-- step 5: size 22
theorem piv5 : res_main_v161 V0 (ix2 b p) = Mk M 5 0 1 := by
  unfold res_main_v161; exact rpivot_apply _ _ _ b p _ (mat5 V0 b p M hA)
theorem tau5 : RVRep 2048 16 20 (res_main_v171 V0) b p (tau (Mk M 5)) := by
  unfold res_main_v171; exact rtau_rep _ _ _ _ _ _ b p _ (mat5 V0 b p M hA) (piv5 V0 b p M hA)
theorem row5 : RVRep 2048 16 20 (res_main_v173 V0) b p (fun j => Mk M 5 1 (j + 2)) := by
  unfold res_main_v173; exact rrow_rep 1 _ _ _ b p _ (mat5 V0 b p M hA)
theorem mat6 : RRep 2048 16 20 (res_main_v186 V0) b p (Mk M 6) := by
  unfold res_main_v186
  exact rnext_rep _ _ _ _ _ _ _ _ b p _ (mat5 V0 b p M hA) (row5 V0 b p M hA) (tau5 V0 b p M hA)

-- step 6: size 20
theorem piv6 : res_main_v188 V0 (ix2 b p) = Mk M 6 0 1 := by
  unfold res_main_v188; exact rpivot_apply _ _ _ b p _ (mat6 V0 b p M hA)
theorem tau6 : RVRep 2048 16 18 (res_main_v198 V0) b p (tau (Mk M 6)) := by
  unfold res_main_v198; exact rtau_rep _ _ _ _ _ _ b p _ (mat6 V0 b p M hA) (piv6 V0 b p M hA)
theorem row6 : RVRep 2048 16 18 (res_main_v200 V0) b p (fun j => Mk M 6 1 (j + 2)) := by
  unfold res_main_v200; exact rrow_rep 1 _ _ _ b p _ (mat6 V0 b p M hA)
theorem mat7 : RRep 2048 16 18 (res_main_v213 V0) b p (Mk M 7) := by
  unfold res_main_v213
  exact rnext_rep _ _ _ _ _ _ _ _ b p _ (mat6 V0 b p M hA) (row6 V0 b p M hA) (tau6 V0 b p M hA)

-- step 7: size 18
theorem piv7 : res_main_v215 V0 (ix2 b p) = Mk M 7 0 1 := by
  unfold res_main_v215; exact rpivot_apply _ _ _ b p _ (mat7 V0 b p M hA)
theorem tau7 : RVRep 2048 16 16 (res_main_v225 V0) b p (tau (Mk M 7)) := by
  unfold res_main_v225; exact rtau_rep _ _ _ _ _ _ b p _ (mat7 V0 b p M hA) (piv7 V0 b p M hA)
theorem row7 : RVRep 2048 16 16 (res_main_v227 V0) b p (fun j => Mk M 7 1 (j + 2)) := by
  unfold res_main_v227; exact rrow_rep 1 _ _ _ b p _ (mat7 V0 b p M hA)
theorem mat8 : RRep 2048 16 16 (res_main_v240 V0) b p (Mk M 8) := by
  unfold res_main_v240
  exact rnext_rep _ _ _ _ _ _ _ _ b p _ (mat7 V0 b p M hA) (row7 V0 b p M hA) (tau7 V0 b p M hA)

-- step 8: size 16
theorem piv8 : res_main_v242 V0 (ix2 b p) = Mk M 8 0 1 := by
  unfold res_main_v242; exact rpivot_apply _ _ _ b p _ (mat8 V0 b p M hA)
theorem tau8 : RVRep 2048 16 14 (res_main_v252 V0) b p (tau (Mk M 8)) := by
  unfold res_main_v252; exact rtau_rep _ _ _ _ _ _ b p _ (mat8 V0 b p M hA) (piv8 V0 b p M hA)
theorem row8 : RVRep 2048 16 14 (res_main_v254 V0) b p (fun j => Mk M 8 1 (j + 2)) := by
  unfold res_main_v254; exact rrow_rep 1 _ _ _ b p _ (mat8 V0 b p M hA)
theorem mat9 : RRep 2048 16 14 (res_main_v267 V0) b p (Mk M 9) := by
  unfold res_main_v267
  exact rnext_rep _ _ _ _ _ _ _ _ b p _ (mat8 V0 b p M hA) (row8 V0 b p M hA) (tau8 V0 b p M hA)

-- step 9: size 14
theorem piv9 : res_main_v269 V0 (ix2 b p) = Mk M 9 0 1 := by
  unfold res_main_v269; exact rpivot_apply _ _ _ b p _ (mat9 V0 b p M hA)
theorem tau9 : RVRep 2048 16 12 (res_main_v279 V0) b p (tau (Mk M 9)) := by
  unfold res_main_v279; exact rtau_rep _ _ _ _ _ _ b p _ (mat9 V0 b p M hA) (piv9 V0 b p M hA)
theorem row9 : RVRep 2048 16 12 (res_main_v281 V0) b p (fun j => Mk M 9 1 (j + 2)) := by
  unfold res_main_v281; exact rrow_rep 1 _ _ _ b p _ (mat9 V0 b p M hA)
theorem mat10 : RRep 2048 16 12 (res_main_v294 V0) b p (Mk M 10) := by
  unfold res_main_v294
  exact rnext_rep _ _ _ _ _ _ _ _ b p _ (mat9 V0 b p M hA) (row9 V0 b p M hA) (tau9 V0 b p M hA)

-- step 10: size 12
theorem piv10 : res_main_v296 V0 (ix2 b p) = Mk M 10 0 1 := by
  unfold res_main_v296; exact rpivot_apply _ _ _ b p _ (mat10 V0 b p M hA)
theorem tau10 : RVRep 2048 16 10 (res_main_v306 V0) b p (tau (Mk M 10)) := by
  unfold res_main_v306; exact rtau_rep _ _ _ _ _ _ b p _ (mat10 V0 b p M hA) (piv10 V0 b p M hA)
theorem row10 : RVRep 2048 16 10 (res_main_v308 V0) b p (fun j => Mk M 10 1 (j + 2)) := by
  unfold res_main_v308; exact rrow_rep 1 _ _ _ b p _ (mat10 V0 b p M hA)
theorem mat11 : RRep 2048 16 10 (res_main_v321 V0) b p (Mk M 11) := by
  unfold res_main_v321
  exact rnext_rep _ _ _ _ _ _ _ _ b p _ (mat10 V0 b p M hA) (row10 V0 b p M hA) (tau10 V0 b p M hA)

-- step 11: size 10
theorem piv11 : res_main_v323 V0 (ix2 b p) = Mk M 11 0 1 := by
  unfold res_main_v323; exact rpivot_apply _ _ _ b p _ (mat11 V0 b p M hA)
theorem tau11 : RVRep 2048 16 8 (res_main_v333 V0) b p (tau (Mk M 11)) := by
  unfold res_main_v333; exact rtau_rep _ _ _ _ _ _ b p _ (mat11 V0 b p M hA) (piv11 V0 b p M hA)
theorem row11 : RVRep 2048 16 8 (res_main_v335 V0) b p (fun j => Mk M 11 1 (j + 2)) := by
  unfold res_main_v335; exact rrow_rep 1 _ _ _ b p _ (mat11 V0 b p M hA)
theorem mat12 : RRep 2048 16 8 (res_main_v348 V0) b p (Mk M 12) := by
  unfold res_main_v348
  exact rnext_rep _ _ _ _ _ _ _ _ b p _ (mat11 V0 b p M hA) (row11 V0 b p M hA) (tau11 V0 b p M hA)

-- step 12: size 8
theorem piv12 : res_main_v350 V0 (ix2 b p) = Mk M 12 0 1 := by
  unfold res_main_v350; exact rpivot_apply _ _ _ b p _ (mat12 V0 b p M hA)
theorem tau12 : RVRep 2048 16 6 (res_main_v360 V0) b p (tau (Mk M 12)) := by
  unfold res_main_v360; exact rtau_rep _ _ _ _ _ _ b p _ (mat12 V0 b p M hA) (piv12 V0 b p M hA)
theorem row12 : RVRep 2048 16 6 (res_main_v362 V0) b p (fun j => Mk M 12 1 (j + 2)) := by
  unfold res_main_v362; exact rrow_rep 1 _ _ _ b p _ (mat12 V0 b p M hA)
theorem mat13 : RRep 2048 16 6 (res_main_v375 V0) b p (Mk M 13) := by
  unfold res_main_v375
  exact rnext_rep _ _ _ _ _ _ _ _ b p _ (mat12 V0 b p M hA) (row12 V0 b p M hA) (tau12 V0 b p M hA)

-- step 13: size 6
theorem piv13 : res_main_v377 V0 (ix2 b p) = Mk M 13 0 1 := by
  unfold res_main_v377; exact rpivot_apply _ _ _ b p _ (mat13 V0 b p M hA)
theorem tau13 : RVRep 2048 16 4 (res_main_v387 V0) b p (tau (Mk M 13)) := by
  unfold res_main_v387; exact rtau_rep _ _ _ _ _ _ b p _ (mat13 V0 b p M hA) (piv13 V0 b p M hA)
theorem row13 : RVRep 2048 16 4 (res_main_v389 V0) b p (fun j => Mk M 13 1 (j + 2)) := by
  unfold res_main_v389; exact rrow_rep 1 _ _ _ b p _ (mat13 V0 b p M hA)
theorem mat14 : RRep 2048 16 4 (res_main_v402 V0) b p (Mk M 14) := by
  unfold res_main_v402
  exact rnext_rep _ _ _ _ _ _ _ _ b p _ (mat13 V0 b p M hA) (row13 V0 b p M hA) (tau13 V0 b p M hA)

-- step 14: size 4
theorem piv14 : res_main_v404 V0 (ix2 b p) = Mk M 14 0 1 := by
  unfold res_main_v404; exact rpivot_apply _ _ _ b p _ (mat14 V0 b p M hA)
theorem tau14 : RVRep 2048 16 2 (res_main_v414 V0) b p (tau (Mk M 14)) := by
  unfold res_main_v414; exact rtau_rep _ _ _ _ _ _ b p _ (mat14 V0 b p M hA) (piv14 V0 b p M hA)
theorem row14 : RVRep 2048 16 2 (res_main_v416 V0) b p (fun j => Mk M 14 1 (j + 2)) := by
  unfold res_main_v416; exact rrow_rep 1 _ _ _ b p _ (mat14 V0 b p M hA)

-- step 15: size 2; the last matrix is not named: its pivot is read off the step's own expression
theorem piv15 : res_main_v431 V0 (ix2 b p) = Mk M 15 0 1 := by
  unfold res_main_v431
  exact rpivot_apply _ _ _ b p _
    (rnext_rep _ _ _ _ _ _ _ _ b p _ (mat14 V0 b p M hA) (row14 V0 b p M hA) (tau14 V0 b p M hA))

end Chain

/-! ## The accumulated sign and logarithm at a batch entry -/

/-- The reference's accumulated sign at (b, p) is the product of the sixteen pivots' signs from the word of 1.0. -/
theorem refSign_apply (V0 : Valuation τ sig (Elt Ideal)) (b : Fin 2048) (p : Fin 16) (M : ℕ → ℕ → EReal)
    (hA : Cert.Pf.RRep 2048 16 32 (res_main_v22 V0) b p M) :
    refSign V0 (ix2 b p) = Cert.Pf.sgnAt Cert.Pf.one M 16 := by
  unfold refSign
  have h0 : (broadcastInDim S2048x16 ![] bcast_S_S2048x16 (constant (F := Ideal) S_ .f32 0x3F800000#32)) (ix2 b p)
      = sgnAt Cert.Pf.one M 0 := rfl
  have h1 := sgn_step _ _ h0 (piv0 V0 b p M hA)
  have h2 := sgn_step _ _ h1 (piv1 V0 b p M hA)
  have h3 := sgn_step _ _ h2 (piv2 V0 b p M hA)
  have h4 := sgn_step _ _ h3 (piv3 V0 b p M hA)
  have h5 := sgn_step _ _ h4 (piv4 V0 b p M hA)
  have h6 := sgn_step _ _ h5 (piv5 V0 b p M hA)
  have h7 := sgn_step _ _ h6 (piv6 V0 b p M hA)
  have h8 := sgn_step _ _ h7 (piv7 V0 b p M hA)
  have h9 := sgn_step _ _ h8 (piv8 V0 b p M hA)
  have h10 := sgn_step _ _ h9 (piv9 V0 b p M hA)
  have h11 := sgn_step _ _ h10 (piv10 V0 b p M hA)
  have h12 := sgn_step _ _ h11 (piv11 V0 b p M hA)
  have h13 := sgn_step _ _ h12 (piv12 V0 b p M hA)
  have h14 := sgn_step _ _ h13 (piv13 V0 b p M hA)
  have h15 := sgn_step _ _ h14 (piv14 V0 b p M hA)
  exact sgn_step _ _ h15 (piv15 V0 b p M hA)

/-- The reference's accumulated logarithm at (b, p) is the sum of the logarithms of the sixteen pivots' magnitudes
    from the word of 0.0. -/
theorem refLog_apply (V0 : Valuation τ sig (Elt Ideal)) (b : Fin 2048) (p : Fin 16) (M : ℕ → ℕ → EReal)
    (hA : Cert.Pf.RRep 2048 16 32 (res_main_v22 V0) b p M) :
    res_main_v436 V0 (ix2 b p) = Cert.Pf.logAt Cert.Pf.zero M 16 := by
  unfold res_main_v436
  have h0 : (broadcastInDim S2048x16 ![] bcast_S_S2048x16 (constant (F := Ideal) S_ .f32 0x00000000#32)) (ix2 b p)
      = logAt Cert.Pf.zero M 0 := rfl
  have h1 := lg_step _ _ h0 (piv0 V0 b p M hA)
  have h2 := lg_step _ _ h1 (piv1 V0 b p M hA)
  have h3 := lg_step _ _ h2 (piv2 V0 b p M hA)
  have h4 := lg_step _ _ h3 (piv3 V0 b p M hA)
  have h5 := lg_step _ _ h4 (piv4 V0 b p M hA)
  have h6 := lg_step _ _ h5 (piv5 V0 b p M hA)
  have h7 := lg_step _ _ h6 (piv6 V0 b p M hA)
  have h8 := lg_step _ _ h7 (piv7 V0 b p M hA)
  have h9 := lg_step _ _ h8 (piv8 V0 b p M hA)
  have h10 := lg_step _ _ h9 (piv9 V0 b p M hA)
  have h11 := lg_step _ _ h10 (piv10 V0 b p M hA)
  have h12 := lg_step _ _ h11 (piv11 V0 b p M hA)
  have h13 := lg_step _ _ h12 (piv12 V0 b p M hA)
  have h14 := lg_step _ _ h13 (piv13 V0 b p M hA)
  have h15 := lg_step _ _ h14 (piv14 V0 b p M hA)
  exact lg_step _ _ h15 (piv15 V0 b p M hA)

end Cert.ReferenceIdeal.RefVal
end
-- ==== Proof.RFinal.lean ====
/-
  The reference's accumulated signs and logarithms as arrays of the two arguments, and its last operations as the
  combination both programs share.

  At every batch entry (b, p) the gathered matrix is M0 of slab p and index row b, so the sixteen pivots'
  accumulated sign and logarithm are the entries of the arrays SIGN and LOG of the arguments. The reference then
  takes each row's largest logarithm m, sums sign * exp (logarithm - m) along the row, and returns the sum's sign
  and m + log |sum|: the same operations, on the same shapes, as the signed log-sum-exp the other program ends with.
-/
import proofs.«416707_j11175504904264_4_alg».proof.Proof.RGather
import proofs.«416707_j11175504904264_4_alg».proof.Proof.RChain
import proofs.«416707_j11175504904264_4_alg».proof.Proof.PfArr
import proofs.«416707_j11175504904264_4_alg».proof.Proof.Tail
import proofs.«416707_j11175504904264_4_alg».proof.Proof.Gen.KernelIdeal

noncomputable section

namespace Cert.ReferenceIdeal.RefVal

open Cert.ReferenceIdeal Cert.ReferenceIdeal.Gen Cert.ReferenceIdeal.Value Cert.Pf Idealize.ShloMosaic
  Idealize.ShloMosaic.ValueIdx Idealize.ShloMosaic.StableHlo

/-- The reference's accumulated signs are the array SIGN of its two arguments: entry by entry, the product of the
    sixteen pivots' signs of the matrix M0 gathered at that entry. -/
theorem refSign_eq (V0 : Valuation τ sig (Elt Ideal))
    (hidx : ∀ (b : Fin 2048) (n : Fin 32), ((V0 (Proc.devRef .tc main_arg1) : IVec S2048x32 32) (ix2 b n)).toNat < 2048) :
    refSign V0 = Cert.Pf.SIGN (V0 (Proc.devRef .tc main_arg0)) (V0 (Proc.devRef .tc main_arg1)) := by
  funext i
  obtain ⟨b, p, rfl⟩ : ∃ (b : Fin 2048) (p : Fin 16), i = ix2 b p := ⟨i 0, i 1, eq_ix2 i⟩
  exact refSign_apply V0 b p _ (v22_rep V0 b p (hidx b))

/-- The reference's accumulated logarithms are the array LOG of its two arguments. -/
theorem refLog_eq (V0 : Valuation τ sig (Elt Ideal))
    (hidx : ∀ (b : Fin 2048) (n : Fin 32), ((V0 (Proc.devRef .tc main_arg1) : IVec S2048x32 32) (ix2 b n)).toNat < 2048) :
    res_main_v436 V0 = Cert.Pf.LOG (V0 (Proc.devRef .tc main_arg0)) (V0 (Proc.devRef .tc main_arg1)) := by
  funext i
  obtain ⟨b, p, rfl⟩ : ∃ (b : Fin 2048) (p : Fin 16), i = ix2 b p := ⟨i 0, i 1, eq_ix2 i⟩
  exact refLog_apply V0 b p _ (v22_rep V0 b p (hidx b))

/-- The reference's first result is the sign of the row sum of sign times exp (logarithm less the row's largest). -/
theorem ref_out_sign (V0 : Valuation τ sig (Elt Ideal)) :
    Host.sign (res_main_v443 V0) = Cert.KernelIdeal.Tail.tailSign (refSign V0) (res_main_v436 V0) := by
  rw [res_main_v443_eq]
  unfold Cert.KernelIdeal.Tail.tailSign Cert.KernelIdeal.Tail.tailSum Cert.KernelIdeal.Tail.tailMax res_main_v437
  rfl

/-- The reference's second result is the row's largest logarithm plus the logarithm of that sum's magnitude. -/
theorem ref_out_log (V0 : Valuation τ sig (Elt Ideal)) :
    addf (res_main_v437 V0) (Host.log (Host.absf (res_main_v443 V0))) = Cert.KernelIdeal.Tail.tailLog (refSign V0) (res_main_v436 V0) := by
  rw [res_main_v443_eq]
  unfold Cert.KernelIdeal.Tail.tailLog Cert.KernelIdeal.Tail.tailSum Cert.KernelIdeal.Tail.tailMax res_main_v437
  rfl

end Cert.ReferenceIdeal.RefVal

end
-- ==== Proof.RRun.lean ====
/-
  The reference's run, read: its two results at the final combination of the sign and logarithm arrays of the
  two arguments, its arguments unchanged. The arrays are those of PfArr.lean; what the run ends at is its
  generated run's composed terms, which RFinal.lean reads.
-/
import proofs.«416707_j11175504904264_4_alg».proof.Proof.RFinal

noncomputable section

namespace Cert.ReferenceIdeal.RefVal

open Cert.ReferenceIdeal Cert.ReferenceIdeal.Gen Cert.ReferenceIdeal.Value Cert.Pf
open Idealize.ShloMosaic Idealize.ShloMosaic.TcCoe Idealize.ShloMosaic.ValueIdx Idealize.ShloMosaic.StableHlo Idealize.SL.Sem
open Cert.KernelIdeal.Tail

/-- Every weakly fair execution of the idealized reference's @main ends with the two results at the final
    combination of the sign and logarithm arrays of its arguments, when every index is a row of the table. -/
theorem run_R (m : (ℓ : Loc nD τ sig) → Buf (Elt Ideal) ℓ) (ρ : Dev nD → PrngReg)
    (hidx : ∀ (c : Dev nD) (b : Fin 2048) (n : Fin 32),
      ((m ((c.tc : Thread nD τ).loc main_arg1) : IVec S2048x32 32) (ix2 b n)).toNat < 2048) :
    θ_run defs (onTc (τ := τ) (main (F := Ideal))) ⟨m, fun _ => 0, ρ⟩ (fun r => ∀ c : Dev nD,
      r.2.mem ((c.tc : Thread nD τ).loc main_v444)
        = tailSign (SIGN (m ((c.tc : Thread nD τ).loc main_arg0)) (m ((c.tc : Thread nD τ).loc main_arg1)))
            (LOG (m ((c.tc : Thread nD τ).loc main_arg0)) (m ((c.tc : Thread nD τ).loc main_arg1)))
      ∧ r.2.mem ((c.tc : Thread nD τ).loc main_v447)
        = tailLog (SIGN (m ((c.tc : Thread nD τ).loc main_arg0)) (m ((c.tc : Thread nD τ).loc main_arg1)))
            (LOG (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2.1.trans ?_, (h c).2.2.1, (h c).2.2.2⟩)
    (Cert.ReferenceIdeal.Value.run (F := Ideal) m ρ)
  · rw [ref_out_sign, refSign_eq _ (hidx c), refLog_eq _ (hidx c)]
  · rw [ref_out_log, refSign_eq _ (hidx c), refLog_eq _ (hidx c)]

end Cert.ReferenceIdeal.RefVal

end
-- ==== Proof.lean ====
/-
  The certificate of the Pfaffian kernel against its reference.

  Both programs compute, for each of 2048 samples and 16 antisymmetrised tables, the sign and the logarithm of the
  magnitude of the Pfaffian of the 32 × 32 submatrix the sample's 32 indices pick, by the same elimination
  (sixteen pivots, the trailing block updated by v ⊗ tau − tau ⊗ v), and combine the sixteen by a signed
  log-sum-exp. They differ in how the submatrix is gathered — the kernel by two products with one-hot matrices, a
  sum with one nonzero term; the reference by indexing — and in where the batch sits in the arrays. Under the
  precondition every index is a row of the table, so both gathers read the same entries; from there every
  operation is the same operation of the extended reals on the same values, in the same order, so the two
  [2048, 16] arrays of signs and logarithms are equal entry by entry and the final combination, the same function
  of them in both programs, gives equal results. The kernel spells a sign with two selects on the sign bit's
  replacement; that is the sign of an extended real in every case, and the sixteen replacements are the ledger's.
-/
import proofs.«416707_j11175504904264_4_alg».proof.Defs
import proofs.«416707_j11175504904264_4_alg».proof.Proof.Gen.Kernel
import proofs.«416707_j11175504904264_4_alg».proof.Proof.FrameK
import proofs.«416707_j11175504904264_4_alg».proof.Proof.Gen.KernelIdeal
import proofs.«416707_j11175504904264_4_alg».proof.Proof.FrameKI
import proofs.«416707_j11175504904264_4_alg».proof.Proof.Gen.ReferenceIdeal
import proofs.«416707_j11175504904264_4_alg».proof.Proof.Gen.ReferenceIdeal.Run
import proofs.«416707_j11175504904264_4_alg».proof.Proof.Gen.Pre_finite_inputs
import proofs.«416707_j11175504904264_4_alg».proof.Proof.Pre
import proofs.«416707_j11175504904264_4_alg».proof.Proof.KArray
import proofs.«416707_j11175504904264_4_alg».proof.Proof.RRun
import Idealize.ShloMosaic.PureOps.IdealRules
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments: the generated frame. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference has no kernel: its frame is its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The ledger's sixteen entries, one per pivot: "1.0 with the sign bit of x" replaced by "-1 below zero, else 1". -/
theorem preserves : Cert.preserves_Kernel_KernelIdeal :=
  ⟨IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32,
   IdealRules.sign_bit.statement Cert.KernelIdeal.S128 .f32⟩

/-- Both programs end at the final combination of the same two arrays of the arguments. -/
theorem algebraic : Cert.algebraic_KernelIdeal_ReferenceIdeal := by
  intro m ρ m' ρ' hpre hagree
  have hidx : ∀ (c : Dev Cert.KernelIdeal.nD) (b : Fin 2048) (n : Fin 32),
      ((m ((c.tc : Thread Cert.KernelIdeal.nD Cert.KernelIdeal.τ).loc Cert.KernelIdeal.main_arg1) : IVec Cert.KernelIdeal.S2048x32 32) (ix2 b n)).toNat < 2048 :=
    fun c b n => Cert.PreRead.idx_range _ _ (hpre c) b n
  have hidx' : ∀ (c : Dev Cert.ReferenceIdeal.nD) (b : Fin 2048) (n : Fin 32),
      ((m' ((c.tc : Thread Cert.ReferenceIdeal.nD Cert.ReferenceIdeal.τ).loc Cert.ReferenceIdeal.main_arg1) : IVec Cert.ReferenceIdeal.S2048x32 32) (ix2 b n)).toNat < 2048 := by
    intro c b n
    rw [(hagree c).2]
    exact hidx c b n
  refine ⟨_, _, Cert.KernelIdeal.Arr.run_K m ρ hidx, ?_⟩
  refine (θ_run Cert.ReferenceIdeal.defs _ _).mono (fun _ h c => ?_) (Cert.ReferenceIdeal.RefVal.run_R m' ρ' hidx')
  obtain ⟨h1, h2, h3, h4⟩ := h c
  refine ⟨h1.trans ?_, h2.trans ?_, h3, h4⟩
  · rw [(hagree c).1, (hagree c).2]
  · rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
